-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v28)) (v1 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_v54) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S400000x64 : Shape := ⟨2, ![400000, 64]⟩
abbrev S50000x3 : Shape := ⟨2, ![50000, 3]⟩
abbrev S2x400000 : Shape := ⟨2, ![2, 400000]⟩
abbrev S320x128 : Shape := ⟨2, ![320, 128]⟩
abbrev S128 : Shape := ⟨1, ![128]⟩
abbrev S128x128 : Shape := ⟨2, ![128, 128]⟩
abbrev S256x128 : Shape := ⟨2, ![256, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S400000x64 : S_.BroadcastsInDim S400000x64 (![] : Fin 0 → Fin S400000x64.rank)
  reducesTo_S400000x64_S_d0_1 : S400000x64.ReducesTo [0, 1] S_
  bcast_S_S50000x3 : S_.BroadcastsInDim S50000x3 (![] : Fin 0 → Fin S50000x3.rank)
  reducesTo_S50000x3_S_d0_1 : S50000x3.ReducesTo [0, 1] S_
  bcast_S_S320x128 : S_.BroadcastsInDim S320x128 (![] : Fin 0 → Fin S320x128.rank)
  reducesTo_S320x128_S_d0_1 : S320x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S1 .f32) (main_v63 : IVec S_ 1) (main_v67 : IVec S_ 1) : IVec S_ 1 :=
  let main_v68 : IVec S_ 1 := andi main_v63 main_v67
  let main_v69 : FVec F S1 .f32 := Host.absf main_arg15
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg12 : FVec F S128x64 .f32) (main_arg13 : FVec F S64 .f32) (main_arg14 : FVec F S64x1 .f32) (main_arg15 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x64 .f32 := Host.absf main_arg12
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x1 .f32 := Host.absf main_arg14
  let main_cst_24 : FVec F S_ .f32 := constant S_ .f32 0x7F800000#32
  let main_v65 : FVec F S64x1 .f32 := broadcastInDim S64x1 ![] bcast_S_S64x1 main_cst_24
  let main_v66 : IVec S64x1 1 := cmpf .olt main_v64 main_v65
  let main_c_25 : IVec S_ 1 := constantI S_ 1 1#1
  let main_v67 : IVec S_ 1 := (fun x v => Host.reduce IntOp.andi x v reducesTo_S64x1_S_d0_1 h_S_) main_v66 main_c_25
  fn_part4 (F := F) main_arg15 main_v63 main_v67

def fn_part2 {F : FTy → Type} [FloatOps F] (main_arg8 : FVec F S256x128 .f32) (main_arg9 : FVec F S128 .f32) (main_arg10 : FVec F S128x128 .f32) (main_arg11 : FVec F S128 .f32) (main_arg12 : FVec F S128x64 .f32) (main_arg13 : FVec F S64 .f32) (main_arg14 : FVec F S64x1 .f32) (main_arg15 : FVec F S1 .f32) (main_v33 : IVec S_ 1) : IVec S_ 1 :=
  let main_v34 : FVec F S256x128 .f32 := Host.absf main_arg8
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_v48 main_v49 main_v50

def fn_part1 {F : FTy → Type} [FloatOps F] (main_arg5 : FVec F S128 .f32) (main_arg6 : FVec F S128x128 .f32) (main_arg7 : FVec F S128 .f32) (main_arg8 : FVec F S256x128 .f32) (main_arg9 : FVec F S128 .f32) (main_arg10 : FVec F S128x128 .f32) (main_arg11 : FVec F S128 .f32) (main_arg12 : FVec F S128x64 .f32) (main_arg13 : FVec F S64 .f32) (main_arg14 : FVec F S64x1 .f32) (main_arg15 : FVec F S1 .f32) (main_v13 : IVec S_ 1) (main_v16 : IVec S320x128 1) : IVec S_ 1 :=
  let main_c_5 : IVec S_ 1 := constantI S_ 1 1#1
  let main_v17 : IVec S_ 1 := (fun x v => Host.reduce IntOp.andi x v reducesTo_S320x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S50000x128 .f32) (main_arg1 : FVec F S400000x64 .f32) (main_arg2 : FVec F S50000x3 .f32) (main_arg3 : IVec S2x400000 32) (main_arg4 : FVec F S320x128 .f32) (main_arg5 : FVec F S128 .f32) (main_arg6 : FVec F S128x128 .f32) (main_arg7 : FVec F S128 .f32) (main_arg8 : FVec F S256x128 .f32) (main_arg9 : FVec F S128 .f32) (main_arg10 : FVec F S128x128 .f32) (main_arg11 : FVec F S128 .f32) (main_arg12 : FVec F S128x64 .f32) (main_arg13 : FVec F S64 .f32) (main_arg14 : FVec F S64x1 .f32) (main_arg15 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S400000x64 .f32 := Host.absf main_arg1
  let main_cst_0 : FVec F S_ .f32 := constant S_ .f32 0x7F800000#32
  let main_v5 : FVec F S400000x64 .f32 := broadcastInDim S400000x64 ![] bcast_S_S400000x64 main_cst_0
  let main_v6 : IVec S400000x64 1 := cmpf .olt main_v4 main_v5
  let main_c_1 : IVec S_ 1 := constantI S_ 1 1#1
  let main_v7 : IVec S_ 1 := (fun x v => Host.reduce IntOp.andi x v reducesTo_S400000x64_S_d0_1 h_S_) main_v6 main_c_1
  let main_v8 : IVec S_ 1 := andi main_v3 main_v7
  let main_v9 : FVec F S50000x3 .f32 := Host.absf main_arg2
  let main_cst_2 : FVec F S_ .f32 := constant S_ .f32 0x7F800000#32
  let main_v10 : FVec F S50000x3 .f32 := broadcastInDim S50000x3 ![] bcast_S_S50000x3 main_cst_2
  let main_v11 : IVec S50000x3 1 := cmpf .olt main_v9 main_v10
  let main_c_3 : IVec S_ 1 := constantI S_ 1 1#1
  let main_v12 : IVec S_ 1 := (fun x v => Host.reduce IntOp.andi x v reducesTo_S50000x3_S_d0_1 h_S_) main_v11 main_c_3
  let main_v13 : IVec S_ 1 := andi main_v8 main_v12
  let main_v14 : FVec F S320x128 .f32 := Host.absf main_arg4
  let main_cst_4 : FVec F S_ .f32 := constant S_ .f32 0x7F800000#32
  let main_v15 : FVec F S320x128 .f32 := broadcastInDim S320x128 ![] bcast_S_S320x128 main_cst_4
  let main_v16 : IVec S320x128 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S50000x128 : Shape := ⟨2, ![50000, 128]⟩
abbrev S400000x64 : Shape := ⟨2, ![400000, 64]⟩
abbrev S50000x3 : Shape := ⟨2, ![50000, 3]⟩
abbrev S2x400000 : Shape := ⟨2, ![2, 400000]⟩
abbrev S320x128 : Shape := ⟨2, ![320, 128]⟩
abbrev S128 : Shape := ⟨1, ![128]⟩
abbrev S128x128 : Shape := ⟨2, ![128, 128]⟩
abbrev S256x128 : Shape := ⟨2, ![256, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x128 : Shape := ⟨2, ![400000, 128]⟩
abbrev S1x128 : Shape := ⟨2, ![1, 128]⟩
abbrev S1x64 : Shape := ⟨2, ![1, 64]⟩
abbrev S1x1 : Shape := ⟨2, ![1, 1]⟩
abbrev S3200x128 : Shape := ⟨2, ![3200, 128]⟩
abbrev S3200x64 : Shape := ⟨2, ![3200, 64]⟩
abbrev S3200x1 : Shape := ⟨2, ![3200, 1]⟩
abbrev S3200x320 : Shape := ⟨2, ![3200, 320]⟩
abbrev S5000x128 : Shape := ⟨2, ![5000, 128]⟩
abbrev S5000x256 : Shape := ⟨2, ![5000, 256]⟩
abbrev S400000x3 : Shape := ⟨2, ![400000, 3]⟩

abbrev nBuf : Space → Nat
  | .hbm => 87
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S400000x64, .f32⟩
  | .hbm, ⟨2, _⟩ => ⟨S50000x3, .f32⟩
  | .hbm, ⟨3, _⟩ => ⟨S2x400000, .i32⟩
  | .hbm, ⟨4, _⟩ => ⟨S320x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x64, .f32⟩
  | .hbm, ⟨13, _⟩ => ⟨S64, .f32⟩
  | .hbm, ⟨14, _⟩ => ⟨S64x1, .f32⟩
  | .hbm, ⟨15, _⟩ => ⟨S1, .f32⟩
  | .hbm, ⟨16, _⟩ => ⟨S1x400000, .i32⟩
  | .hbm, ⟨17, _⟩ => ⟨S400000, .i32⟩
  | .hbm, ⟨18, _⟩ => ⟨S1x400000, .i32⟩
  | .hbm, ⟨19, _⟩ => ⟨S400000, .i32⟩
  | .hbm, ⟨20, _⟩ => ⟨S_, .i32⟩
  | .hbm, ⟨21, _⟩ => ⟨S400000, .i32⟩
  | .hbm, ⟨22, _⟩ => ⟨S400000, .i1⟩
  | .hbm, ⟨23, _⟩ => ⟨S_, .i32⟩
  | .hbm, ⟨24, _⟩ => ⟨S400000, .i32⟩
  | .hbm, ⟨25, _⟩ => ⟨S400000, .i32⟩
  | .hbm, ⟨26, _⟩ => ⟨S400000, .i32⟩
  | .hbm, ⟨27, _⟩ => ⟨S400000x1, .i32⟩
  | .hbm, ⟨28, _⟩ => ⟨S400000x128, .f32⟩
  | .hbm, ⟨29, _⟩ => ⟨S_, .i32⟩
  | .hbm, ⟨30, _⟩ => ⟨S400000, .i32⟩
  | .hbm, ⟨31, _⟩ => ⟨S400000, .i1⟩
  | .hbm, ⟨32, _⟩ => ⟨S_, .i32⟩
  | .hbm, ⟨33, _⟩ => ⟨S400000, .i32⟩
  | .hbm, ⟨34, _⟩ => ⟨S400000, .i32⟩
  | .hbm, ⟨35, _⟩ => ⟨S400000, .i32⟩
  | .hbm, ⟨36, _⟩ => ⟨S400000x1, .i32⟩
  | .hbm, ⟨37, _⟩ => ⟨S400000x128, .f32⟩
  | .hbm, ⟨38, _⟩ => ⟨S1x128, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S1x64, .f32⟩
  | .hbm, ⟨43, _⟩ => ⟨S1x1, .f32⟩
  | .hbm, ⟨44, _⟩ => ⟨S400000x128, .f32⟩
  | .hbm, ⟨45, _⟩ => ⟨S400000x1, .f32⟩
  | .hbm, ⟨46, _⟩ => ⟨S_, .f32⟩
  | .hbm, ⟨47, _⟩ => ⟨S50000x128, .f32⟩
  | .hbm, ⟨48, _⟩ => ⟨S400000x1, .i32⟩
  | .hbm, ⟨49, _⟩ => ⟨S50000x128, .f32⟩
  | .hbm, ⟨50, _⟩ => ⟨S50000x128, .f32⟩
  | .hbm, ⟨51, _⟩ => ⟨S_, .i32⟩
  | .hbm, ⟨52, _⟩ => ⟨S400000, .i32⟩
  | .hbm, ⟨53, _⟩ => ⟨S400000, .i1⟩
  | .hbm, ⟨54, _⟩ => ⟨S_, .i32⟩
  | .hbm, ⟨55, _⟩ => ⟨S400000, .i32⟩
  | .hbm, ⟨56, _⟩ => ⟨S400000, .i32⟩
  | .hbm, ⟨57, _⟩ => ⟨S400000, .i32⟩
  | .hbm, ⟨58, _⟩ => ⟨S400000x1, .i32⟩
  | .hbm, ⟨59, _⟩ => ⟨S400000x3, .f32⟩
  | .hbm, ⟨60, _⟩ => ⟨S_, .i32⟩
  | .hbm, ⟨61, _⟩ => ⟨S400000, .i32⟩
  | .hbm, ⟨62, _⟩ => ⟨S400000, .i1⟩
  | .hbm, ⟨63, _⟩ => ⟨S_, .i32⟩
  | .hbm, ⟨64, _⟩ => ⟨S400000, .i32⟩
  | .hbm, ⟨65, _⟩ => ⟨S400000, .i32⟩
  | .hbm, ⟨66, _⟩ => ⟨S400000, .i32⟩
  | .hbm, ⟨67, _⟩ => ⟨S400000x1, .i32⟩
  | .hbm, ⟨68, _⟩ => ⟨S400000x3, .f32⟩
  | .hbm, ⟨69, _⟩ => ⟨S400000x3, .f32⟩
  | .hbm, ⟨70, _⟩ => ⟨S400000x3, .f32⟩
  | .hbm, ⟨71, _⟩ => ⟨S_, .f32⟩
  | .hbm, ⟨72, _⟩ => ⟨S400000, .f32⟩
  | .hbm, ⟨73, _⟩ => ⟨S400000x1, .f32⟩
  | .hbm, ⟨74, _⟩ => ⟨S400000x1, .f32⟩
  | .hbm, ⟨75, _⟩ => ⟨S_, .f32⟩
  | .hbm, ⟨76, _⟩ => ⟨S400000x1, .f32⟩
  | .hbm, ⟨77, _⟩ => ⟨S400000x1, .f32⟩
  | .hbm, ⟨78, _⟩ => ⟨S400000x3, .f32⟩
  | .hbm, ⟨79, _⟩ => ⟨S400000x3, .f32⟩
  | .hbm, ⟨80, _⟩ => ⟨S400000x3, .f32⟩
  | .hbm, ⟨81, _⟩ => ⟨S400000x3, .f32⟩
  | .hbm, ⟨82, _⟩ => ⟨S_, .f32⟩
  | .hbm, ⟨83, _⟩ => ⟨S50000x3, .f32⟩
  | .hbm, ⟨84, _⟩ => ⟨S400000x1, .i32⟩
  | .hbm, ⟨85, _⟩ => ⟨S50000x3, .f32⟩
  | .hbm, ⟨86, _⟩ => ⟨S50000x3, .f32⟩
  | .local _ .vmem, ⟨0, _⟩ => ⟨S3200x128, .f32⟩
  | .local _ .vmem, ⟨1, _⟩ => ⟨S3200x128, .f32⟩
  | .local _ .vmem, ⟨2, _⟩ => ⟨S3200x128, .f32⟩
  | .local _ .vmem, ⟨3, _⟩ => ⟨S3200x128, .f32⟩
  | .local _ .vmem, ⟨4, _⟩ => ⟨S3200x64, .f32⟩
  | .local _ .vmem, ⟨5, _⟩ => ⟨S3200x64, .f32⟩
  | .local _ .vmem, ⟨6, _⟩ => ⟨S320x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S128x64, .f32⟩
  | .local _ .vmem, ⟨11, _⟩ => ⟨S1x64, .f32⟩
  | .local _ .vmem, ⟨12, _⟩ => ⟨S64x1, .f32⟩
  | .local _ .vmem, ⟨13, _⟩ => ⟨S1x1, .f32⟩
  | .local _ .vmem, ⟨14, _⟩ => ⟨S3200x128, .f32⟩
  | .local _ .vmem, ⟨15, _⟩ => ⟨S3200x128, .f32⟩
  | .local _ .vmem, ⟨16, _⟩ => ⟨S3200x1, .f32⟩
  | .local _ .vmem, ⟨17, _⟩ => ⟨S3200x1, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S256x128, .f32⟩
  | .local _ .vmem, ⟨23, _⟩ => ⟨S1x128, .f32⟩
  | .local _ .vmem, ⟨24, _⟩ => ⟨S128x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_1 : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24_0 : Ref sig .tc := ⟨.hbm, 44, rfl⟩
abbrev main_v24_1 : Ref sig .tc := ⟨.hbm, 45, rfl⟩
abbrev main_cst : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_3 : Ref sig .tc := ⟨.hbm, 51, rfl⟩
abbrev main_v29 : Ref sig .tc := ⟨.hbm, 52, rfl⟩
abbrev main_v30 : Ref sig .tc := ⟨.hbm, 53, rfl⟩
abbrev main_c_4 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c_5 : Ref sig .tc := ⟨.hbm, 60, rfl⟩
abbrev main_v36 : Ref sig .tc := ⟨.hbm, 61, rfl⟩
abbrev main_v37 : Ref sig .tc := ⟨.hbm, 62, rfl⟩
abbrev main_c_6 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_call0_v0 : Ref sig .tc := ⟨.hbm, 70, rfl⟩
abbrev main_call0_cst : Ref sig .tc := ⟨.hbm, 71, rfl⟩
abbrev main_call0_v1 : Ref sig .tc := ⟨.hbm, 72, rfl⟩
abbrev main_call0_v2 : Ref sig .tc := ⟨.hbm, 73, rfl⟩
abbrev main_v44 : Ref sig .tc := ⟨.hbm, 74, rfl⟩
abbrev main_cst_7 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_8 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg6_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem6_1 : DmaSem sig := 27

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S320x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S3200x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S3200x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  shapeCasts_S128_S1x128 : S128.ShapeCasts S1x128
  shapeCasts_S64_S1x64 : S64.ShapeCasts S1x64
  shapeCasts_S1_S1x1 : S1.ShapeCasts S1x1
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  inb_S3200x64_S3200x64_0_0 : ∀ a, (![0, 0] : Fin 2 → Nat) a + S3200x64.size a ≤ S3200x64.size a
  h_S3200x64 : 0 < S3200x64.numel
  concatenates_S3200x128_S3200x128_S3200x64_S3200x320_d1 : Shape.Concatenates [S3200x128, S3200x128, S3200x64] S3200x320 1
  inb_S320x128_S320x128_0_0 : ∀ a, (![0, 0] : Fin 2 → Nat) a + S320x128.size a ≤ S320x128.size a
  h_S320x128 : 0 < S320x128.numel
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S3200x128 : S1x128.Broadcasts S3200x128
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S3200x64 : S1x64.Broadcasts S3200x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S3200x1 : S1x1.Broadcasts S3200x1
  inb_S3200x1_S3200x1_0_0 : ∀ a, (![0, 0] : Fin 2 → Nat) a + S3200x1.size a ≤ S3200x1.size a
  h_S3200x1 : 0 < S3200x1.numel
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  concatenates_S5000x128_S5000x128_S5000x256_d1 : Shape.Concatenates [S5000x128, S5000x128] S5000x256 1
  inb_S256x128_S256x128_0_0 : ∀ a, (![0, 0] : Fin 2 → Nat) a + S256x128.size a ≤ S256x128.size a
  h_S256x128 : 0 < S256x128.numel
  broadcasts_S1x128_S5000x128 : S1x128.Broadcasts S5000x128
  reducesTo_S400000x3_S400000_d1 : S400000x3.ReducesTo [1] S400000
  h_S_ : 0 < S_.numel
  bcast_S_S400000x1 : S_.BroadcastsInDim S400000x1 (![] : Fin 0 → Fin S400000x1.rank)
  bcast_S400000x1_S400000x3_0_1 : S400000x1.BroadcastsInDim S400000x3 (![0, 1] : Fin 2 → Fin S400000x3.rank)
  bcast_S_S50000x3 : S_.BroadcastsInDim S50000x3 (![] : Fin 0 → Fin S50000x3.rank)
  gather_S50000x128_S400000x1_S400000x128_1_0_n_n_0_1_1128_wf : GatherDims.WF S50000x128 S400000x1 S400000x128 [1] [0] [] [0] [] 1 ![1, 128]
  dot_S3200x320_S320x128_S3200x128_1_0_0_1_n_n_wf : DotDims.WF S3200x320 S320x128 S3200x128 [1] [0] [0] [1] [] []
  dot_S3200x128_S128x128_S3200x128_1_0_0_1_n_n_wf : DotDims.WF S3200x128 S128x128 S3200x128 [1] [0] [0] [1] [] []
  dot_S3200x128_S128x64_S3200x64_1_0_0_1_n_n_wf : DotDims.WF S3200x128 S128x64 S3200x64 [1] [0] [0] [1] [] []
  dot_S3200x64_S64x1_S3200x1_1_0_0_1_n_n_wf : DotDims.WF S3200x64 S64x1 S3200x1 [1] [0] [0] [1] [] []
  scatter_S50000x128_S400000x1_S400000x128_1_0_0_1_wf : ScatterDims.WF S50000x128 S400000x1 S400000x128 [1] [0] [0] 1
  dot_S5000x256_S256x128_S5000x128_1_0_0_1_n_n_wf : DotDims.WF S5000x256 S256x128 S5000x128 [1] [0] [0] [1] [] []
  dot_S5000x128_S128x128_S5000x128_1_0_0_1_n_n_wf : DotDims.WF S5000x128 S128x128 S5000x128 [1] [0] [0] [1] [] []
  gather_S50000x3_S400000x1_S400000x3_1_0_n_n_0_1_13_wf : GatherDims.WF S50000x3 S400000x1 S400000x3 [1] [0] [] [0] [] 1 ![1, 3]
  scatter_S50000x3_S400000x1_S400000x3_1_0_0_1_wf : ScatterDims.WF S50000x3 S400000x1 S400000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x128.size a ≤ S400000x128.size a
  hwx0_0 : ∀ i : grid0.Coords, EltTy.bits .f32 = 32 ∨ (Rect.block (s := S400000x128) S3200x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x128.size a ≤ S400000x128.size a
  hwx0_1 : ∀ i : grid0.Coords, EltTy.bits .f32 = 32 ∨ (Rect.block (s := S400000x128) S3200x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x64.size a ≤ S400000x64.size a
  hwx0_2 : ∀ i : grid0.Coords, EltTy.bits .f32 = 32 ∨ (Rect.block (s := S400000x64) S3200x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S320x128.size a ≤ S320x128.size a
  hwx0_3 : ∀ i : grid0.Coords, EltTy.bits .f32 = 32 ∨ (Rect.block (s := S320x128) S320x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .f32 = 32 ∨ (Rect.block (s := S128x64) S128x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x1.size a ≤ S64x1.size a
  hwx0_9 : ∀ i : grid0.Coords, EltTy.bits .f32 = 32 ∨ (Rect.block (s := S64x1) S64x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S3200x128.size a ≤ S400000x128.size a
  hwx0_11 : ∀ i : grid0.Coords, EltTy.bits .f32 = 32 ∨ (Rect.block (s := S400000x128) S3200x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S3200x1.size a ≤ S400000x1.size a
  hwx0_12 : ∀ i : grid0.Coords, EltTy.bits .f32 = 32 ∨ (Rect.block (s := S400000x1) S3200x1.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)

variable [Facts₀]

def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S3200x320_S320x128_S3200x128_1_0_0_1_n_n : DotDims S3200x320 S320x128 S3200x128 where
  lhsContracting := [1]
  rhsContracting := [0]
  lhsNonContracting := [0]
  rhsNonContracting := [1]
  lhsBatch := []
  rhsBatch := []
  wf := dot_S3200x320_S320x128_S3200x128_1_0_0_1_n_n_wf
def dot_S3200x128_S128x128_S3200x128_1_0_0_1_n_n : DotDims S3200x128 S128x128 S3200x128 where
  lhsContracting := [1]
  rhsContracting := [0]
  lhsNonContracting := [0]
  rhsNonContracting := [1]
  lhsBatch := []
  rhsBatch := []
  wf := dot_S3200x128_S128x128_S3200x128_1_0_0_1_n_n_wf
def dot_S3200x128_S128x64_S3200x64_1_0_0_1_n_n : DotDims S3200x128 S128x64 S3200x64 where
  lhsContracting := [1]
  rhsContracting := [0]
  lhsNonContracting := [0]
  rhsNonContracting := [1]
  lhsBatch := []
  rhsBatch := []
  wf := dot_S3200x128_S128x64_S3200x64_1_0_0_1_n_n_wf
def dot_S3200x64_S64x1_S3200x1_1_0_0_1_n_n : DotDims S3200x64 S64x1 S3200x1 where
  lhsContracting := [1]
  rhsContracting := [0]
  lhsNonContracting := [0]
  rhsNonContracting := [1]
  lhsBatch := []
  rhsBatch := []
  wf := dot_S3200x64_S64x1_S3200x1_1_0_0_1_n_n_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x3_S400000x1_S400000x3_1_0_n_n_0_1_13 : GatherDims S50000x3 S400000x1 S400000x3 where
  offsetDims := [1]
  collapsedSliceDims := [0]
  operandBatchingDims := []
  startIndicesBatchingDims := []
  startIndexMap := [0]
  indexVectorDim := 1
  sliceSizes := ![1, 3]
  wf := gather_S50000x3_S400000x1_S400000x3_1_0_n_n_0_1_13_wf
def scatter_S50000x3_S400000x1_S400000x3_1_0_0_1 : ScatterDims S50000x3 S400000x1 S400000x3 where
  updateWindowDims := [1]
  insertedWindowDims := [0]
  scatterDimsToOperandDims := [0]
  indexVectorDim := 1
  wf := scatter_S50000x3_S400000x1_S400000x3_1_0_0_1_wf

abbrev win0_0 : Pipeline.Window sig grid0 :=
  Pipeline.Window.ofSpec (Memref.whole main_v10) S3200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S3200x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S3200x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S320x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg12) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg14) S64x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v23) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v24_0) S3200x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v24_1) S3200x1.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S400000x64 : Shape := ⟨2, ![400000, 64]⟩
abbrev S50000x3 : Shape := ⟨2, ![50000, 3]⟩
abbrev S2x400000 : Shape := ⟨2, ![2, 400000]⟩
abbrev S320x128 : Shape := ⟨2, ![320, 128]⟩
abbrev S128 : Shape := ⟨1, ![128]⟩
abbrev S128x128 : Shape := ⟨2, ![128, 128]⟩
abbrev S256x128 : Shape := ⟨2, ![256, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x128 : Shape := ⟨2, ![400000, 128]⟩
abbrev S400000x320 : Shape := ⟨2, ![400000, 320]⟩
abbrev S1x128 : Shape := ⟨2, ![1, 128]⟩
abbrev S50000x256 : Shape := ⟨2, ![50000, 256]⟩
abbrev S1x64 : Shape := ⟨2, ![1, 64]⟩
abbrev S1x1 : Shape := ⟨2, ![1, 1]⟩
abbrev S400000x3 : Shape := ⟨2, ![400000, 3]⟩

abbrev nBuf : Space → Nat
  | .hbm => 141
  | .vmem => 0
  | .smem => 0
  | _ => 0

abbrev hbmTy0_0 (i : Nat) : BufTy := match i % 128 with
  | 0 => ⟨S50000x128, .f32⟩
  | 1 => ⟨S400000x64, .f32⟩
  | 2 => ⟨S50000x3, .f32⟩
  | 3 => ⟨S2x400000, .i32⟩
  | 4 => ⟨S320x128, .f32⟩
  | 5 => ⟨S128, .f32⟩
  | 6 => ⟨S128x128, .f32⟩
  | 7 => ⟨S128, .f32⟩
  | 8 => ⟨S256x128, .f32⟩
  | 9 => ⟨S128, .f32⟩
  | 10 => ⟨S128x128, .f32⟩
  | 11 => ⟨S128, .f32⟩
  | 12 => ⟨S128x64, .f32⟩
  | 13 => ⟨S64, .f32⟩
  | 14 => ⟨S64x1, .f32⟩
  | 15 => ⟨S1, .f32⟩
  | 16 => ⟨S1x400000, .i32⟩
  | 17 => ⟨S400000, .i32⟩
  | 18 => ⟨S1x400000, .i32⟩
  | 19 => ⟨S400000, .i32⟩
  | 20 => ⟨S_, .i32⟩
  | 21 => ⟨S400000, .i32⟩
  | 22 => ⟨S400000, .i1⟩
  | 23 => ⟨S_, .i32⟩
  | 24 => ⟨S400000, .i32⟩
  | 25 => ⟨S400000, .i32⟩
  | 26 => ⟨S400000, .i32⟩
  | 27 => ⟨S400000x1, .i32⟩
  | 28 => ⟨S400000x128, .f32⟩
  | 29 => ⟨S_, .i32⟩
  | 30 => ⟨S400000, .i32⟩
  | 31 => ⟨S400000, .i1⟩
  | 32 => ⟨S_, .i32⟩
  | 33 => ⟨S400000, .i32⟩
  | 34 => ⟨S400000, .i32⟩
  | 35 => ⟨S400000, .i32⟩
  | 36 => ⟨S400000x1, .i32⟩
  | 37 => ⟨S400000x128, .f32⟩
  | 38 => ⟨S400000x320, .f32⟩
  | 39 => ⟨S400000x128, .f32⟩
  | 40 => ⟨S1x128, .f32⟩
  | 41 => ⟨S400000x128, .f32⟩
  | 42 => ⟨S400000x128, .f32⟩
  | 43 => ⟨S400000x128, .f32⟩
  | 44 => ⟨S400000x128, .f32⟩
  | 45 => ⟨S_, .f32⟩
  | 46 => ⟨S400000x128, .f32⟩
  | 47 => ⟨S400000x128, .f32⟩
  | 48 => ⟨S_, .f32⟩
  | 49 => ⟨S400000x128, .f32⟩
  | 50 => ⟨S400000x128, .f32⟩
  | 51 => ⟨S400000x128, .f32⟩
  | 52 => ⟨S400000x128, .f32⟩
  | 53 => ⟨S1x128, .f32⟩
  | 54 => ⟨S400000x128, .f32⟩
  | 55 => ⟨S400000x128, .f32⟩
  | 56 => ⟨S400000x128, .f32⟩
  | 57 => ⟨S400000x128, .f32⟩
  | 58 => ⟨S_, .f32⟩
  | 59 => ⟨S400000x128, .f32⟩
  | 60 => ⟨S400000x128, .f32⟩
  | 61 => ⟨S_, .f32⟩
  | 62 => ⟨S400000x128, .f32⟩
  | 63 => ⟨S400000x128, .f32⟩
  | 64 => ⟨S400000x128, .f32⟩
  | 65 => ⟨S_, .f32⟩
  | 66 => ⟨S50000x128, .f32⟩
  | 67 => ⟨S400000x1, .i32⟩
  | 68 => ⟨S50000x128, .f32⟩
  | 69 => ⟨S50000x256, .f32⟩
  | 70 => ⟨S50000x128, .f32⟩
  | 71 => ⟨S1x128, .f32⟩
  | 72 => ⟨S50000x128, .f32⟩
  | 73 => ⟨S50000x128, .f32⟩
  | 74 => ⟨S50000x128, .f32⟩
  | 75 => ⟨S50000x128, .f32⟩
  | 76 => ⟨S_, .f32⟩
  | 77 => ⟨S50000x128, .f32⟩
  | 78 => ⟨S50000x128, .f32⟩
  | 79 => ⟨S_, .f32⟩
  | 80 => ⟨S50000x128, .f32⟩
  | 81 => ⟨S50000x128, .f32⟩
  | 82 => ⟨S50000x128, .f32⟩
  | 83 => ⟨S50000x128, .f32⟩
  | 84 => ⟨S1x128, .f32⟩
  | 85 => ⟨S50000x128, .f32⟩
  | 86 => ⟨S50000x128, .f32⟩
  | 87 => ⟨S50000x128, .f32⟩
  | 88 => ⟨S400000x64, .f32⟩
  | 89 => ⟨S1x64, .f32⟩
  | 90 => ⟨S400000x64, .f32⟩
  | 91 => ⟨S400000x64, .f32⟩
  | 92 => ⟨S400000x64, .f32⟩
  | 93 => ⟨S400000x64, .f32⟩
  | 94 => ⟨S_, .f32⟩
  | 95 => ⟨S400000x64, .f32⟩
  | 96 => ⟨S400000x64, .f32⟩
  | 97 => ⟨S_, .f32⟩
  | 98 => ⟨S400000x64, .f32⟩
  | 99 => ⟨S400000x64, .f32⟩
  | 100 => ⟨S400000x64, .f32⟩
  | 101 => ⟨S400000x1, .f32⟩
  | 102 => ⟨S1x1, .f32⟩
  | 103 => ⟨S400000x1, .f32⟩
  | 104 => ⟨S400000x1, .f32⟩
  | 105 => ⟨S_, .i32⟩
  | 106 => ⟨S400000, .i32⟩
  | 107 => ⟨S400000, .i1⟩
  | 108 => ⟨S_, .i32⟩
  | 109 => ⟨S400000, .i32⟩
  | 110 => ⟨S400000, .i32⟩
  | 111 => ⟨S400000, .i32⟩
  | 112 => ⟨S400000x1, .i32⟩
  | 113 => ⟨S400000x3, .f32⟩
  | 114 => ⟨S_, .i32⟩
  | 115 => ⟨S400000, .i32⟩
  | 116 => ⟨S400000, .i1⟩
  | 117 => ⟨S_, .i32⟩
  | 118 => ⟨S400000, .i32⟩
  | 119 => ⟨S400000, .i32⟩
  | 120 => ⟨S400000, .i32⟩
  | 121 => ⟨S400000x1, .i32⟩
  | 122 => ⟨S400000x3, .f32⟩
  | 123 => ⟨S400000x3, .f32⟩
  | 124 => ⟨S400000x3, .f32⟩
  | 125 => ⟨S_, .f32⟩
  | 126 => ⟨S400000, .f32⟩
  | 127 => ⟨S400000x1, .f32⟩
  | _ => ⟨S50000x128, .f32⟩

abbrev hbmTy0_1 (i : Nat) : BufTy := match i % 128 with
  | 0 => ⟨S400000x1, .f32⟩
  | 1 => ⟨S_, .f32⟩
  | 2 => ⟨S400000x1, .f32⟩
  | 3 => ⟨S400000x1, .f32⟩
  | 4 => ⟨S400000x3, .f32⟩
  | 5 => ⟨S400000x3, .f32⟩
  | 6 => ⟨S400000x3, .f32⟩
  | 7 => ⟨S400000x3, .f32⟩
  | 8 => ⟨S_, .f32⟩
  | 9 => ⟨S50000x3, .f32⟩
  | 10 => ⟨S400000x1, .i32⟩
  | 11 => ⟨S50000x3, .f32⟩
  | 12 => ⟨S50000x3, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_1 : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_call1_v0 : Ref sig .tc := ⟨.hbm, 56, rfl⟩
abbrev main_call1_v1 : Ref sig .tc := ⟨.hbm, 57, rfl⟩
abbrev main_call1_cst : Ref sig .tc := ⟨.hbm, 58, rfl⟩
abbrev main_call1_v2 : Ref sig .tc := ⟨.hbm, 59, rfl⟩
abbrev main_call1_v3 : Ref sig .tc := ⟨.hbm, 60, rfl⟩
abbrev main_call1_cst_0 : Ref sig .tc := ⟨.hbm, 61, rfl⟩
abbrev main_call1_v4 : Ref sig .tc := ⟨.hbm, 62, rfl⟩
abbrev main_call1_v5 : Ref sig .tc := ⟨.hbm, 63, rfl⟩
abbrev main_v28 : Ref sig .tc := ⟨.hbm, 64, rfl⟩
abbrev main_cst : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_call2_v0 : Ref sig .tc := ⟨.hbm, 74, rfl⟩
abbrev main_call2_v1 : Ref sig .tc := ⟨.hbm, 75, rfl⟩
abbrev main_call2_cst : Ref sig .tc := ⟨.hbm, 76, rfl⟩
abbrev main_call2_v2 : Ref sig .tc := ⟨.hbm, 77, rfl⟩
abbrev main_call2_v3 : Ref sig .tc := ⟨.hbm, 78, rfl⟩
abbrev main_call2_cst_0 : Ref sig .tc := ⟨.hbm, 79, rfl⟩
abbrev main_call2_v4 : Ref sig .tc := ⟨.hbm, 80, rfl⟩
abbrev main_call2_v5 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_call3_v0 : Ref sig .tc := ⟨.hbm, 92, rfl⟩
abbrev main_call3_v1 : Ref sig .tc := ⟨.hbm, 93, rfl⟩
abbrev main_call3_cst : Ref sig .tc := ⟨.hbm, 94, rfl⟩
abbrev main_call3_v2 : Ref sig .tc := ⟨.hbm, 95, rfl⟩
abbrev main_call3_v3 : Ref sig .tc := ⟨.hbm, 96, rfl⟩
abbrev main_call3_cst_0 : Ref sig .tc := ⟨.hbm, 97, rfl⟩
abbrev main_call3_v4 : Ref sig .tc := ⟨.hbm, 98, rfl⟩
abbrev main_call3_v5 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_c_3 : Ref sig .tc := ⟨.hbm, 105, rfl⟩
abbrev main_v52 : Ref sig .tc := ⟨.hbm, 106, rfl⟩
abbrev main_v53 : Ref sig .tc := ⟨.hbm, 107, rfl⟩
abbrev main_c_4 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_c_5 : Ref sig .tc := ⟨.hbm, 114, rfl⟩
abbrev main_v59 : Ref sig .tc := ⟨.hbm, 115, rfl⟩
abbrev main_v60 : Ref sig .tc := ⟨.hbm, 116, rfl⟩
abbrev main_c_6 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_call4_v0 : Ref sig .tc := ⟨.hbm, 124, rfl⟩
abbrev main_call4_cst : Ref sig .tc := ⟨.hbm, 125, rfl⟩
abbrev main_call4_v1 : Ref sig .tc := ⟨.hbm, 126, rfl⟩
abbrev main_call4_v2 : Ref sig .tc := ⟨.hbm, 127, rfl⟩
abbrev main_v67 : Ref sig .tc := ⟨.hbm, 128, rfl⟩
abbrev main_cst_7 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_cst_8 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  concatenates_S400000x128_S400000x128_S400000x64_S400000x320_d1 : Shape.Concatenates [S400000x128, S400000x128, S400000x64] S400000x320 1
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  bcast_S_S400000x128 : S_.BroadcastsInDim S400000x128 (![] : Fin 0 → Fin S400000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S400000x64_0_1 : S1x64.BroadcastsInDim S400000x64 (![0, 1] : Fin 2 → Fin S400000x64.rank)
  bcast_S_S400000x64 : S_.BroadcastsInDim S400000x64 (![] : Fin 0 → Fin S400000x64.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  reducesTo_S400000x3_S400000_d1 : S400000x3.ReducesTo [1] S400000
  h_S_ : 0 < S_.numel
  bcast_S_S400000x1 : S_.BroadcastsInDim S400000x1 (![] : Fin 0 → Fin S400000x1.rank)
  bcast_S400000x1_S400000x3_0_1 : S400000x1.BroadcastsInDim S400000x3 (![0, 1] : Fin 2 → Fin S400000x3.rank)
  bcast_S_S50000x3 : S_.BroadcastsInDim S50000x3 (![] : Fin 0 → Fin S50000x3.rank)
  gather_S50000x128_S400000x1_S400000x128_1_0_n_n_0_1_1128_wf : GatherDims.WF S50000x128 S400000x1 S400000x128 [1] [0] [] [0] [] 1 ![1, 128]
  dot_S400000x320_S320x128_S400000x128_1_0_0_1_n_n_wf : DotDims.WF S400000x320 S320x128 S400000x128 [1] [0] [0] [1] [] []
  dot_S400000x128_S128x128_S400000x128_1_0_0_1_n_n_wf : DotDims.WF S400000x128 S128x128 S400000x128 [1] [0] [0] [1] [] []
  scatter_S50000x128_S400000x1_S400000x128_1_0_0_1_wf : ScatterDims.WF S50000x128 S400000x1 S400000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []
  dot_S400000x128_S128x64_S400000x64_1_0_0_1_n_n_wf : DotDims.WF S400000x128 S128x64 S400000x64 [1] [0] [0] [1] [] []
  dot_S400000x64_S64x1_S400000x1_1_0_0_1_n_n_wf : DotDims.WF S400000x64 S64x1 S400000x1 [1] [0] [0] [1] [] []
  gather_S50000x3_S400000x1_S400000x3_1_0_n_n_0_1_13_wf : GatherDims.WF S50000x3 S400000x1 S400000x3 [1] [0] [] [0] [] 1 ![1, 3]
  scatter_S50000x3_S400000x1_S400000x3_1_0_0_1_wf : ScatterDims.WF S50000x3 S400000x1 S400000x3 [1] [0] [0] 1

variable [Facts₀]

def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S400000x320_S320x128_S400000x128_1_0_0_1_n_n : DotDims S400000x320 S320x128 S400000x128 where
  lhsContracting := [1]
  rhsContracting := [0]
  lhsNonContracting := [0]
  rhsNonContracting := [1]
  lhsBatch := []
  rhsBatch := []
  wf := dot_S400000x320_S320x128_S400000x128_1_0_0_1_n_n_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S400000x128_S128x64_S400000x64_1_0_0_1_n_n : DotDims S400000x128 S128x64 S400000x64 where
  lhsContracting := [1]
  rhsContracting := [0]
  lhsNonContracting := [0]
  rhsNonContracting := [1]
  lhsBatch := []
  rhsBatch := []
  wf := dot_S400000x128_S128x64_S400000x64_1_0_0_1_n_n_wf
def dot_S400000x64_S64x1_S400000x1_1_0_0_1_n_n : DotDims S400000x64 S64x1 S400000x1 where
  lhsContracting := [1]
  rhsContracting := [0]
  lhsNonContracting := [0]
  rhsNonContracting := [1]
  lhsBatch := []
  rhsBatch := []
  wf := dot_S400000x64_S64x1_S400000x1_1_0_0_1_n_n_wf
def gather_S50000x3_S400000x1_S400000x3_1_0_n_n_0_1_13 : GatherDims S50000x3 S400000x1 S400000x3 where
  offsetDims := [1]
  collapsedSliceDims := [0]
  operandBatchingDims := []
  startIndicesBatchingDims := []
  startIndexMap := [0]
  indexVectorDim := 1
  sliceSizes := ![1, 3]
  wf := gather_S50000x3_S400000x1_S400000x3_1_0_n_n_0_1_13_wf
def scatter_S50000x3_S400000x1_S400000x3_1_0_0_1 : ScatterDims S50000x3 S400000x1 S400000x3 where
  updateWindowDims := [1]
  insertedWindowDims := [0]
  scatterDimsToOperandDims := [0]
  indexVectorDim := 1
  wf := scatter_S50000x3_S400000x1_S400000x3_1_0_0_1_wf

class Facts : Prop extends Facts₀ where

variable [Facts]
-- ==== Proof.RefRun.lean ====
/-
  The reference program's run, read stretch by stretch.

  The reference is a straight line of host operations, each writing a buffer of its own; what a buffer holds after the
  line is the fold of the operations' results over the launch contents. The fold is read in nine stretches (cut before
  each concatenation and at each activation), so that a stretch sees what the earlier ones left as given contents and
  never opens them again: each stretch's last buffer is the corresponding stage (a function of the argument arrays), the
  arguments pass through every stretch unwritten, and a buffer an earlier stretch wrote passes through the later ones
  that do not write it. The two results are then the stages of the launch memory's arguments.
-/
import proofs.«132821_j7275674599805_1_alg».proof.Proof.RefOps
import proofs.«132821_j7275674599805_1_alg».proof.Proof.RefRead
import Idealize.ShloMosaic.Lib.StableHlo.Run

set_option maxRecDepth 8192

noncomputable section

namespace Cert.ReferenceIdeal.Staged

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The contents after two lines run one after the other are the second line's fold over the first's. -/
theorem after_append (l₁ l₂ : List (HloOp τ sig (Elt F))) (W : Valuation τ sig (Elt F)) :
    after (l₁ ++ l₂) W = after l₂ (after l₁ W) := by
  induction l₁ generalizing W with
  | nil => rfl
  | cons op l ih => simp only [List.cons_append, after_cons, ih]

/-- The sixteen argument buffers of a valuation hold the given arrays. -/
def ArgsAt (W : Valuation τ sig (Elt F)) (x0 : (⟨S50000x128, .f32⟩ : BufTy).Contents (Elt F)) (x1 : (⟨S400000x64, .f32⟩ : BufTy).Contents (Elt F)) (x2 : (⟨S50000x3, .f32⟩ : BufTy).Contents (Elt F)) (x3 : (⟨S2x400000, .i32⟩ : BufTy).Contents (Elt F)) (x4 : (⟨S320x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S256x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x64, .f32⟩ : BufTy).Contents (Elt F)) (x13 : (⟨S64, .f32⟩ : BufTy).Contents (Elt F)) (x14 : (⟨S64x1, .f32⟩ : BufTy).Contents (Elt F)) (x15 : (⟨S1, .f32⟩ : BufTy).Contents (Elt F)) : Prop :=
  W (Proc.devRef .tc main_arg0) = x0 ∧ W (Proc.devRef .tc main_arg1) = x1 ∧ W (Proc.devRef .tc main_arg2) = x2 ∧ W (Proc.devRef .tc main_arg3) = x3 ∧ W (Proc.devRef .tc main_arg4) = x4 ∧ W (Proc.devRef .tc main_arg5) = x5 ∧ W (Proc.devRef .tc main_arg6) = x6 ∧ W (Proc.devRef .tc main_arg7) = x7 ∧ W (Proc.devRef .tc main_arg8) = x8 ∧ W (Proc.devRef .tc main_arg9) = x9 ∧ W (Proc.devRef .tc main_arg10) = x10 ∧ W (Proc.devRef .tc main_arg11) = x11 ∧ W (Proc.devRef .tc main_arg12) = x12 ∧ W (Proc.devRef .tc main_arg13) = x13 ∧ W (Proc.devRef .tc main_arg14) = x14 ∧ W (Proc.devRef .tc main_arg15) = x15

/-! ## No stretch writes an argument -/

set_option maxHeartbeats 4000000 in
theorem args1 {W : Valuation τ sig (Elt F)} {x0 x1 x2 x3 x4 x5 x6 x7 x8 x9 x10 x11 x12 x13 x14 x15 : _} (h : ArgsAt W x0 x1 x2 x3 x4 x5 x6 x7 x8 x9 x10 x11 x12 x13 x14 x15) : ArgsAt (after ops1 W) x0 x1 x2 x3 x4 x5 x6 x7 x8 x9 x10 x11 x12 x13 x14 x15 := by
  obtain ⟨h0, h1, h2, h3, h4, h5, h6, h7, h8, h9, h10, h11, h12, h13, h14, h15⟩ := h
  refine ⟨?_, ?_, ?_, ?_, ?_, ?_, ?_, ?_, ?_, ?_, ?_, ?_, ?_, ?_, ?_, ?_⟩ <;> (after_results; assumption)
set_option maxHeartbeats 4000000 in
theorem args2 {W : Valuation τ sig (Elt F)} {x0 x1 x2 x3 x4 x5 x6 x7 x8 x9 x10 x11 x12 x13 x14 x15 : _} (h : ArgsAt W x0 x1 x2 x3 x4 x5 x6 x7 x8 x9 x10 x11 x12 x13 x14 x15) : ArgsAt (after ops2 W) x0 x1 x2 x3 x4 x5 x6 x7 x8 x9 x10 x11 x12 x13 x14 x15 := by
  obtain ⟨h0, h1, h2, h3, h4, h5, h6, h7, h8, h9, h10, h11, h12, h13, h14, h15⟩ := h
  refine ⟨?_, ?_, ?_, ?_, ?_, ?_, ?_, ?_, ?_, ?_, ?_, ?_, ?_, ?_, ?_, ?_⟩ <;> (after_results; assumption)
set_option maxHeartbeats 4000000 in
theorem args3 {W : Valuation τ sig (Elt F)} {x0 x1 x2 x3 x4 x5 x6 x7 x8 x9 x10 x11 x12 x13 x14 x15 : _} (h : ArgsAt W x0 x1 x2 x3 x4 x5 x6 x7 x8 x9 x10 x11 x12 x13 x14 x15) : ArgsAt (after ops3 W) x0 x1 x2 x3 x4 x5 x6 x7 x8 x9 x10 x11 x12 x13 x14 x15 := by
  obtain ⟨h0, h1, h2, h3, h4, h5, h6, h7, h8, h9, h10, h11, h12, h13, h14, h15⟩ := h
  refine ⟨?_, ?_, ?_, ?_, ?_, ?_, ?_, ?_, ?_, ?_, ?_, ?_, ?_, ?_, ?_, ?_⟩ <;> (after_results; assumption)
set_option maxHeartbeats 4000000 in
theorem args4 {W : Valuation τ sig (Elt F)} {x0 x1 x2 x3 x4 x5 x6 x7 x8 x9 x10 x11 x12 x13 x14 x15 : _} (h : ArgsAt W x0 x1 x2 x3 x4 x5 x6 x7 x8 x9 x10 x11 x12 x13 x14 x15) : ArgsAt (after ops4 W) x0 x1 x2 x3 x4 x5 x6 x7 x8 x9 x10 x11 x12 x13 x14 x15 := by
  obtain ⟨h0, h1, h2, h3, h4, h5, h6, h7, h8, h9, h10, h11, h12, h13, h14, h15⟩ := h
  refine ⟨?_, ?_, ?_, ?_, ?_, ?_, ?_, ?_, ?_, ?_, ?_, ?_, ?_, ?_, ?_, ?_⟩ <;> (after_results; assumption)
set_option maxHeartbeats 4000000 in
theorem args5 {W : Valuation τ sig (Elt F)} {x0 x1 x2 x3 x4 x5 x6 x7 x8 x9 x10 x11 x12 x13 x14 x15 : _} (h : ArgsAt W x0 x1 x2 x3 x4 x5 x6 x7 x8 x9 x10 x11 x12 x13 x14 x15) : ArgsAt (after ops5 W) x0 x1 x2 x3 x4 x5 x6 x7 x8 x9 x10 x11 x12 x13 x14 x15 := by
  obtain ⟨h0, h1, h2, h3, h4, h5, h6, h7, h8, h9, h10, h11, h12, h13, h14, h15⟩ := h
  refine ⟨?_, ?_, ?_, ?_, ?_, ?_, ?_, ?_, ?_, ?_, ?_, ?_, ?_, ?_, ?_, ?_⟩ <;> (after_results; assumption)
set_option maxHeartbeats 4000000 in
theorem args6 {W : Valuation τ sig (Elt F)} {x0 x1 x2 x3 x4 x5 x6 x7 x8 x9 x10 x11 x12 x13 x14 x15 : _} (h : ArgsAt W x0 x1 x2 x3 x4 x5 x6 x7 x8 x9 x10 x11 x12 x13 x14 x15) : ArgsAt (after ops6 W) x0 x1 x2 x3 x4 x5 x6 x7 x8 x9 x10 x11 x12 x13 x14 x15 := by
  obtain ⟨h0, h1, h2, h3, h4, h5, h6, h7, h8, h9, h10, h11, h12, h13, h14, h15⟩ := h
  refine ⟨?_, ?_, ?_, ?_, ?_, ?_, ?_, ?_, ?_, ?_, ?_, ?_, ?_, ?_, ?_, ?_⟩ <;> (after_results; assumption)
set_option maxHeartbeats 4000000 in
theorem args7 {W : Valuation τ sig (Elt F)} {x0 x1 x2 x3 x4 x5 x6 x7 x8 x9 x10 x11 x12 x13 x14 x15 : _} (h : ArgsAt W x0 x1 x2 x3 x4 x5 x6 x7 x8 x9 x10 x11 x12 x13 x14 x15) : ArgsAt (after ops7 W) x0 x1 x2 x3 x4 x5 x6 x7 x8 x9 x10 x11 x12 x13 x14 x15 := by
  obtain ⟨h0, h1, h2, h3, h4, h5, h6, h7, h8, h9, h10, h11, h12, h13, h14, h15⟩ := h
  refine ⟨?_, ?_, ?_, ?_, ?_, ?_, ?_, ?_, ?_, ?_, ?_, ?_, ?_, ?_, ?_, ?_⟩ <;> (after_results; assumption)
set_option maxHeartbeats 4000000 in
theorem args8 {W : Valuation τ sig (Elt F)} {x0 x1 x2 x3 x4 x5 x6 x7 x8 x9 x10 x11 x12 x13 x14 x15 : _} (h : ArgsAt W x0 x1 x2 x3 x4 x5 x6 x7 x8 x9 x10 x11 x12 x13 x14 x15) : ArgsAt (after ops8 W) x0 x1 x2 x3 x4 x5 x6 x7 x8 x9 x10 x11 x12 x13 x14 x15 := by
  obtain ⟨h0, h1, h2, h3, h4, h5, h6, h7, h8, h9, h10, h11, h12, h13, h14, h15⟩ := h
  refine ⟨?_, ?_, ?_, ?_, ?_, ?_, ?_, ?_, ?_, ?_, ?_, ?_, ?_, ?_, ?_, ?_⟩ <;> (after_results; assumption)
set_option maxHeartbeats 4000000 in
theorem args9 {W : Valuation τ sig (Elt F)} {x0 x1 x2 x3 x4 x5 x6 x7 x8 x9 x10 x11 x12 x13 x14 x15 : _} (h : ArgsAt W x0 x1 x2 x3 x4 x5 x6 x7 x8 x9 x10 x11 x12 x13 x14 x15) : ArgsAt (after ops9 W) x0 x1 x2 x3 x4 x5 x6 x7 x8 x9 x10 x11 x12 x13 x14 x15 := by
  obtain ⟨h0, h1, h2, h3, h4, h5, h6, h7, h8, h9, h10, h11, h12, h13, h14, h15⟩ := h
  refine ⟨?_, ?_, ?_, ?_, ?_, ?_, ?_, ?_, ?_, ?_, ?_, ?_, ?_, ?_, ?_, ?_⟩ <;> (after_results; assumption)

/-! ## What each stretch leaves, from what it finds -/

variable {W : Valuation τ sig (Elt F)} {x0 x1 x2 x3 x4 x5 x6 x7 x8 x9 x10 x11 x12 x13 x14 x15 : _}

set_option maxHeartbeats 4000000 in
/-- Stretch 1: the index vectors and the two gathers of node rows. -/
theorem s1 (h : ArgsAt W x0 x1 x2 x3 x4 x5 x6 x7 x8 x9 x10 x11 x12 x13 x14 x15) :
    after ops1 W (Proc.devRef .tc main_v10) = val_main_v10 (F := F) x0 x3 ∧ after ops1 W (Proc.devRef .tc main_v17) = val_main_v17 (F := F) x0 x3
      ∧ after ops1 W (Proc.devRef .tc main_v1) = val_main_v1 (F := F) x3 ∧ after ops1 W (Proc.devRef .tc main_v3) = val_main_v3 (F := F) x3 := by
  obtain ⟨h0, h1, h2, h3, h4, h5, h6, h7, h8, h9, h10, h11, h12, h13, h14, h15⟩ := h
  refine ⟨?_, ?_, ?_, ?_⟩ <;> (after_results; rw [h3]; try rw [h0]) <;> rfl

/-- Stretch 2: the first dense layer's pre-activation. -/
theorem s2 (h : ArgsAt W x0 x1 x2 x3 x4 x5 x6 x7 x8 x9 x10 x11 x12 x13 x14 x15) (e10 : W (Proc.devRef .tc main_v10) = val_main_v10 (F := F) x0 x3) (e17 : W (Proc.devRef .tc main_v17) = val_main_v17 (F := F) x0 x3) :
    after ops2 W (Proc.devRef .tc main_v22) = val_main_v22 (F := F) x0 x1 x3 x4 x5 := by
  obtain ⟨h0, h1, h2, h3, h4, h5, h6, h7, h8, h9, h10, h11, h12, h13, h14, h15⟩ := h
  after_results
  change addf (Host.dotGeneral dot_S400000x320_S320x128_S400000x128_1_0_0_1_n_n none
      (concatenate S400000x320 1 [⟨S400000x128, W (Proc.devRef .tc main_v10)⟩, ⟨S400000x128, W (Proc.devRef .tc main_v17)⟩,
        ⟨S400000x64, W (Proc.devRef .tc main_arg1)⟩] concatenates_S400000x128_S400000x128_S400000x64_S400000x320_d1)
      (W (Proc.devRef .tc main_arg4)))
    (broadcastInDim S400000x128 ![0, 1] bcast_S1x128_S400000x128_0_1
      (broadcastInDim S1x128 ![1] bcast_S128_S1x128_1 (W (Proc.devRef .tc main_arg5)))) = _
  rw [e10, e17, h1, h4, h5]
  rfl

/-- Stretch 3: the first activation and the second dense layer's pre-activation. -/
theorem s3 (h : ArgsAt W x0 x1 x2 x3 x4 x5 x6 x7 x8 x9 x10 x11 x12 x13 x14 x15) (e22 : W (Proc.devRef .tc main_v22) = val_main_v22 (F := F) x0 x1 x3 x4 x5) :
    after ops3 W (Proc.devRef .tc main_v27) = val_main_v27 (F := F) x0 x1 x3 x4 x5 x6 x7 := by
  obtain ⟨h0, h1, h2, h3, h4, h5, h6, h7, h8, h9, h10, h11, h12, h13, h14, h15⟩ := h
  after_results
  rw [e22, h6, h7]
  rfl

/-- Stretch 4: the messages and their scatter-add to the destination nodes. -/
theorem s4 (h : ArgsAt W x0 x1 x2 x3 x4 x5 x6 x7 x8 x9 x10 x11 x12 x13 x14 x15) (e27 : W (Proc.devRef .tc main_v27) = val_main_v27 (F := F) x0 x1 x3 x4 x5 x6 x7) (e3 : W (Proc.devRef .tc main_v3) = val_main_v3 (F := F) x3) :
    after ops4 W (Proc.devRef .tc main_v28) = val_main_v28 (F := F) x0 x1 x3 x4 x5 x6 x7 ∧ after ops4 W (Proc.devRef .tc main_v31) = val_main_v31 (F := F) x0 x1 x3 x4 x5 x6 x7 := by
  refine ⟨?_, ?_⟩
  · after_results
    rw [e27]
    rfl
  · after_results
    rw [e27, e3]
    rfl

/-- Stretch 5: the node layer's first pre-activation. -/
theorem s5 (h : ArgsAt W x0 x1 x2 x3 x4 x5 x6 x7 x8 x9 x10 x11 x12 x13 x14 x15) (e31 : W (Proc.devRef .tc main_v31) = val_main_v31 (F := F) x0 x1 x3 x4 x5 x6 x7) :
    after ops5 W (Proc.devRef .tc main_v36) = val_main_v36 (F := F) x0 x1 x3 x4 x5 x6 x7 x8 x9 := by
  obtain ⟨h0, h1, h2, h3, h4, h5, h6, h7, h8, h9, h10, h11, h12, h13, h14, h15⟩ := h
  after_results
  rw [e31, h0, h8, h9]
  rfl

/-- Stretch 6: the node update and the residual: the first result. -/
theorem s6 (h : ArgsAt W x0 x1 x2 x3 x4 x5 x6 x7 x8 x9 x10 x11 x12 x13 x14 x15) (e36 : W (Proc.devRef .tc main_v36) = val_main_v36 (F := F) x0 x1 x3 x4 x5 x6 x7 x8 x9) :
    after ops6 W (Proc.devRef .tc main_v42) = val_main_v42 (F := F) x0 x1 x3 x4 x5 x6 x7 x8 x9 x10 x11 := by
  obtain ⟨h0, h1, h2, h3, h4, h5, h6, h7, h8, h9, h10, h11, h12, h13, h14, h15⟩ := h
  after_results
  rw [e36, h0, h10, h11]
  rfl

/-- Stretch 7: the coordinate layer's first pre-activation. -/
theorem s7 (h : ArgsAt W x0 x1 x2 x3 x4 x5 x6 x7 x8 x9 x10 x11 x12 x13 x14 x15) (e28 : W (Proc.devRef .tc main_v28) = val_main_v28 (F := F) x0 x1 x3 x4 x5 x6 x7) :
    after ops7 W (Proc.devRef .tc main_v46) = val_main_v46 (F := F) x0 x1 x3 x4 x5 x6 x7 x12 x13 := by
  obtain ⟨h0, h1, h2, h3, h4, h5, h6, h7, h8, h9, h10, h11, h12, h13, h14, h15⟩ := h
  after_results
  rw [e28, h12, h13]
  rfl

/-- Stretch 8: the coordinate weights. -/
theorem s8 (h : ArgsAt W x0 x1 x2 x3 x4 x5 x6 x7 x8 x9 x10 x11 x12 x13 x14 x15) (e46 : W (Proc.devRef .tc main_v46) = val_main_v46 (F := F) x0 x1 x3 x4 x5 x6 x7 x12 x13) :
    after ops8 W (Proc.devRef .tc main_v51) = val_main_v51 (F := F) x0 x1 x3 x4 x5 x6 x7 x12 x13 x14 x15 := by
  obtain ⟨h0, h1, h2, h3, h4, h5, h6, h7, h8, h9, h10, h11, h12, h13, h14, h15⟩ := h
  after_results
  rw [e46, h14, h15]
  rfl

set_option maxHeartbeats 8000000 in
/-- Stretch 9: the weighted, normalised coordinate differences scatter-added to the coordinates: the second result. -/
theorem s9 (h : ArgsAt W x0 x1 x2 x3 x4 x5 x6 x7 x8 x9 x10 x11 x12 x13 x14 x15) (e51 : W (Proc.devRef .tc main_v51) = val_main_v51 (F := F) x0 x1 x3 x4 x5 x6 x7 x12 x13 x14 x15) (e1 : W (Proc.devRef .tc main_v1) = val_main_v1 (F := F) x3)
    (e3 : W (Proc.devRef .tc main_v3) = val_main_v3 (F := F) x3) :
    after ops9 W (Proc.devRef .tc main_v77) = val_main_v77 (F := F) x0 x1 x2 x3 x4 x5 x6 x7 x12 x13 x14 x15 := by
  obtain ⟨h0, h1, h2, h3, h4, h5, h6, h7, h8, h9, h10, h11, h12, h13, h14, h15⟩ := h
  after_results
  rw [e51, e1, e3, h2]
  rfl

end Cert.ReferenceIdeal.Staged

end
-- ==== Proof.RefRunAll.lean ====
/-
  The reference program's run, assembled: the nine stretches of its line one after the other, each buffer a later
  stretch reads carried through the stretches that do not write it, and the run of the whole line read at the two
  results and the sixteen arguments.
-/
import proofs.«132821_j7275674599805_1_alg».proof.Proof.RefRun

set_option maxRecDepth 8192

noncomputable section

namespace Cert.ReferenceIdeal.Staged

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## The whole line -/

set_option maxHeartbeats 4000000 in
/-- After the whole line the two result buffers hold the two result stages of the arguments, and the arguments are as
    found: stretch by stretch, each buffer a later stretch reads carried through the stretches that do not write it. -/
theorem results (W0 : Valuation τ sig (Elt F)) (x0 : (⟨S50000x128, .f32⟩ : BufTy).Contents (Elt F)) (x1 : (⟨S400000x64, .f32⟩ : BufTy).Contents (Elt F)) (x2 : (⟨S50000x3, .f32⟩ : BufTy).Contents (Elt F)) (x3 : (⟨S2x400000, .i32⟩ : BufTy).Contents (Elt F)) (x4 : (⟨S320x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S256x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x64, .f32⟩ : BufTy).Contents (Elt F)) (x13 : (⟨S64, .f32⟩ : BufTy).Contents (Elt F)) (x14 : (⟨S64x1, .f32⟩ : BufTy).Contents (Elt F)) (x15 : (⟨S1, .f32⟩ : BufTy).Contents (Elt F)) (h : ArgsAt W0 x0 x1 x2 x3 x4 x5 x6 x7 x8 x9 x10 x11 x12 x13 x14 x15) :
    after ops W0 (Proc.devRef .tc main_v42) = val_main_v42 (F := F) x0 x1 x3 x4 x5 x6 x7 x8 x9 x10 x11 ∧ after ops W0 (Proc.devRef .tc main_v77) = val_main_v77 (F := F) x0 x1 x2 x3 x4 x5 x6 x7 x12 x13 x14 x15
      ∧ ArgsAt (after ops W0) x0 x1 x2 x3 x4 x5 x6 x7 x8 x9 x10 x11 x12 x13 x14 x15 := by
  rw [ops_split]
  simp only [after_append]
  -- stretch 1
  have A1 := args1 h
  obtain ⟨e10, e17, e1_1, e3_1⟩ := s1 h
  generalize after ops1 W0 = V1 at *
  -- stretch 2
  have A2 := args2 A1
  have e22 := s2 A1 e10 e17
  have e1_2 : after ops2 V1 (Proc.devRef .tc main_v1) = val_main_v1 (F := F) x3 :=
    (show after ops2 V1 (Proc.devRef .tc main_v1) = V1 (Proc.devRef .tc main_v1) by after_results).trans e1_1
  have e3_2 : after ops2 V1 (Proc.devRef .tc main_v3) = val_main_v3 (F := F) x3 :=
    (show after ops2 V1 (Proc.devRef .tc main_v3) = V1 (Proc.devRef .tc main_v3) by after_results).trans e3_1
  generalize after ops2 V1 = V2 at *
  -- stretch 3
  have A3 := args3 A2
  have e27 := s3 A2 e22
  have e1_3 : after ops3 V2 (Proc.devRef .tc main_v1) = val_main_v1 (F := F) x3 :=
    (show after ops3 V2 (Proc.devRef .tc main_v1) = V2 (Proc.devRef .tc main_v1) by after_results).trans e1_2
  have e3_3 : after ops3 V2 (Proc.devRef .tc main_v3) = val_main_v3 (F := F) x3 :=
    (show after ops3 V2 (Proc.devRef .tc main_v3) = V2 (Proc.devRef .tc main_v3) by after_results).trans e3_2
  generalize after ops3 V2 = V3 at *
  -- stretch 4
  have A4 := args4 A3
  obtain ⟨e28_4, e31⟩ := s4 A3 e27 e3_3
  have e1_4 : after ops4 V3 (Proc.devRef .tc main_v1) = val_main_v1 (F := F) x3 :=
    (show after ops4 V3 (Proc.devRef .tc main_v1) = V3 (Proc.devRef .tc main_v1) by after_results).trans e1_3
  have e3_4 : after ops4 V3 (Proc.devRef .tc main_v3) = val_main_v3 (F := F) x3 :=
    (show after ops4 V3 (Proc.devRef .tc main_v3) = V3 (Proc.devRef .tc main_v3) by after_results).trans e3_3
  generalize after ops4 V3 = V4 at *
  -- stretch 5
  have A5 := args5 A4
  have e36 := s5 A4 e31
  have e28_5 : after ops5 V4 (Proc.devRef .tc main_v28) = val_main_v28 (F := F) x0 x1 x3 x4 x5 x6 x7 :=
    (show after ops5 V4 (Proc.devRef .tc main_v28) = V4 (Proc.devRef .tc main_v28) by after_results).trans e28_4
  have e1_5 : after ops5 V4 (Proc.devRef .tc main_v1) = val_main_v1 (F := F) x3 :=
    (show after ops5 V4 (Proc.devRef .tc main_v1) = V4 (Proc.devRef .tc main_v1) by after_results).trans e1_4
  have e3_5 : after ops5 V4 (Proc.devRef .tc main_v3) = val_main_v3 (F := F) x3 :=
    (show after ops5 V4 (Proc.devRef .tc main_v3) = V4 (Proc.devRef .tc main_v3) by after_results).trans e3_4
  generalize after ops5 V4 = V5 at *
  -- stretch 6
  have A6 := args6 A5
  have e42_6 := s6 A5 e36
  have e28_6 : after ops6 V5 (Proc.devRef .tc main_v28) = val_main_v28 (F := F) x0 x1 x3 x4 x5 x6 x7 :=
    (show after ops6 V5 (Proc.devRef .tc main_v28) = V5 (Proc.devRef .tc main_v28) by after_results).trans e28_5
  have e1_6 : after ops6 V5 (Proc.devRef .tc main_v1) = val_main_v1 (F := F) x3 :=
    (show after ops6 V5 (Proc.devRef .tc main_v1) = V5 (Proc.devRef .tc main_v1) by after_results).trans e1_5
  have e3_6 : after ops6 V5 (Proc.devRef .tc main_v3) = val_main_v3 (F := F) x3 :=
    (show after ops6 V5 (Proc.devRef .tc main_v3) = V5 (Proc.devRef .tc main_v3) by after_results).trans e3_5
  generalize after ops6 V5 = V6 at *
  -- stretch 7
  have A7 := args7 A6
  have e46 := s7 A6 e28_6
  have e42_7 : after ops7 V6 (Proc.devRef .tc main_v42) = val_main_v42 (F := F) x0 x1 x3 x4 x5 x6 x7 x8 x9 x10 x11 :=
    (show after ops7 V6 (Proc.devRef .tc main_v42) = V6 (Proc.devRef .tc main_v42) by after_results).trans e42_6
  have e1_7 : after ops7 V6 (Proc.devRef .tc main_v1) = val_main_v1 (F := F) x3 :=
    (show after ops7 V6 (Proc.devRef .tc main_v1) = V6 (Proc.devRef .tc main_v1) by after_results).trans e1_6
  have e3_7 : after ops7 V6 (Proc.devRef .tc main_v3) = val_main_v3 (F := F) x3 :=
    (show after ops7 V6 (Proc.devRef .tc main_v3) = V6 (Proc.devRef .tc main_v3) by after_results).trans e3_6
  generalize after ops7 V6 = V7 at *
  -- stretch 8
  have A8 := args8 A7
  have e51 := s8 A7 e46
  have e42_8 : after ops8 V7 (Proc.devRef .tc main_v42) = val_main_v42 (F := F) x0 x1 x3 x4 x5 x6 x7 x8 x9 x10 x11 :=
    (show after ops8 V7 (Proc.devRef .tc main_v42) = V7 (Proc.devRef .tc main_v42) by after_results).trans e42_7
  have e1_8 : after ops8 V7 (Proc.devRef .tc main_v1) = val_main_v1 (F := F) x3 :=
    (show after ops8 V7 (Proc.devRef .tc main_v1) = V7 (Proc.devRef .tc main_v1) by after_results).trans e1_7
  have e3_8 : after ops8 V7 (Proc.devRef .tc main_v3) = val_main_v3 (F := F) x3 :=
    (show after ops8 V7 (Proc.devRef .tc main_v3) = V7 (Proc.devRef .tc main_v3) by after_results).trans e3_7
  generalize after ops8 V7 = V8 at *
  -- stretch 9
  have A9 := args9 A8
  have e77 := s9 A8 e51 e1_8 e3_8
  have e42_9 : after ops9 V8 (Proc.devRef .tc main_v42) = val_main_v42 (F := F) x0 x1 x3 x4 x5 x6 x7 x8 x9 x10 x11 :=
    (show after ops9 V8 (Proc.devRef .tc main_v42) = V8 (Proc.devRef .tc main_v42) by after_results).trans e42_8
  exact ⟨e42_9, e77, A9⟩

/-- THE RUN: every weakly fair execution of the reference terminates, nothing faulting, with its two results at the
    two result stages of the launch memory's arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v42) = val_main_v42 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v77) = val_main_v77 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun r h c => by
      obtain ⟨R42, R77, RA⟩ := results (F := F) (launchContents m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
        ⟨rfl, rfl, rfl, rfl, rfl, rfl, rfl, rfl, rfl, rfl, rfl, rfl, rfl, rfl, rfl, rfl⟩
      obtain ⟨g0, g1, g2, g3, g4, g5, g6, g7, g8, g9, g10, g11, g12, g13, g14, g15⟩ := RA
      exact ⟨(h c main_v42).trans R42, (h c main_v77).trans R77,
        (h c main_arg0).trans g0, (h c main_arg1).trans g1, (h c main_arg2).trans g2, (h c main_arg3).trans g3, (h c main_arg4).trans g4, (h c main_arg5).trans g5, (h c main_arg6).trans g6, (h c main_arg7).trans g7, (h c main_arg8).trans g8, (h c main_arg9).trans g9, (h c main_arg10).trans g10, (h c main_arg11).trans g11, (h c main_arg12).trans g12, (h c main_arg13).trans g13, (h c main_arg14).trans g14, (h c main_arg15).trans g15⟩)
    (run_seq scopedRefs_eq scopedSems_eq defs main (fun _ => ops) main_eq (fun _ => ops_sub) m ρ)

end Cert.ReferenceIdeal.Staged

end
-- ==== Proof.Spec.lean ====
/-
  The mathematics of one message-passing layer, row by row, on the extended reals.

  An edge's message is two dense layers with SiLU over the concatenation of the source node's features, the
  destination node's features and the edge's own attributes; its coordinate weight is two more dense layers (one SiLU)
  over the message. A node's update is its features plus two dense layers (one SiLU) over the concatenation of its
  features and the sum of the messages that arrive at it. Every one of these is a function of ONE row of each
  operand and of the whole weight matrices, so a tiling of the rows into blocks changes nothing: the value at row
  `i`, column `j` is the same whether the row is read out of a block or out of the whole array.

  `dense x W b j = (∑ k, x k · W k j) + b j`, `silu x = x · 1/(1 + e^(-x))`.
-/
import Idealize.ShloMosaic.PureOps.Ideal
import Idealize.ShloMosaic.Lib.ValueIdx

noncomputable section

namespace MsgPass

open Idealize.ShloMosaic Idealize.ShloMosaic.ValueIdx

/-- `x · σ(x)` with `σ` the logistic function, on the extended reals. -/
def silu (x : EReal) : EReal := x * Ideal.logistic x

/-- One output column of a dense layer on one row: `(∑ k, x k · W k j) + b j`. -/
def dense {K N : Nat} (x : Fin K → EReal) (W : Fin K → Fin N → EReal) (b : Fin N → EReal) (j : Fin N) : EReal :=
  (∑ k : Fin K, x k * W k j) + b j

/-- Three rows of widths 128, 128, 64 laid side by side. -/
def cat3 (a b : Fin 128 → EReal) (e : Fin 64 → EReal) (k : Fin 320) : EReal :=
  if h : k.val < 128 then a ⟨k.val, h⟩
  else if h2 : k.val < 256 then b ⟨k.val - 128, by omega⟩
  else e ⟨k.val - 256, by have := k.isLt; omega⟩

/-- Two rows of width 128 laid side by side. -/
def cat2 (a b : Fin 128 → EReal) (k : Fin 256) : EReal :=
  if h : k.val < 128 then a ⟨k.val, h⟩ else b ⟨k.val - 128, by have := k.isLt; omega⟩

/-- The hidden layer of an edge: SiLU of the first dense layer over the concatenated row. -/
def edgeHidden (a b : Fin 128 → EReal) (e : Fin 64 → EReal) (W1 : Fin 320 → Fin 128 → EReal) (b1 : Fin 128 → EReal)
    (k : Fin 128) : EReal :=
  silu (dense (cat3 a b e) W1 b1 k)

/-- An edge's message, one column. -/
def msgRow (a b : Fin 128 → EReal) (e : Fin 64 → EReal) (W1 : Fin 320 → Fin 128 → EReal) (b1 : Fin 128 → EReal)
    (W2 : Fin 128 → Fin 128 → EReal) (b2 : Fin 128 → EReal) (j : Fin 128) : EReal :=
  silu (dense (edgeHidden a b e W1 b1) W2 b2 j)

/-- An edge's coordinate weight from its message. -/
def cwRow (msg : Fin 128 → EReal) (Wc1 : Fin 128 → Fin 64 → EReal) (bc1 : Fin 64 → EReal)
    (Wc2 : Fin 64 → Fin 1 → EReal) (bc2 : Fin 1 → EReal) : EReal :=
  dense (fun k => silu (dense msg Wc1 bc1 k)) Wc2 bc2 0

/-- A node's updated features, one column: the residual plus two dense layers over (features, aggregate). -/
def nodeRow (nf ag : Fin 128 → EReal) (Wn1 : Fin 256 → Fin 128 → EReal) (bn1 : Fin 128 → EReal)
    (Wn2 : Fin 128 → Fin 128 → EReal) (bn2 : Fin 128 → EReal) (j : Fin 128) : EReal :=
  nf j + dense (fun k => silu (dense (cat2 nf ag) Wn1 bn1 k)) Wn2 bn2 j

/-! ## The same, as whole arrays of `E` edges or `N` nodes -/

/-- Row `i` of a two-axis array. -/
abbrev row {R C : Nat} (X : (⟨2, ![R, C]⟩ : Shape).Idx → EReal) (i : Fin R) : Fin C → EReal := fun k => X (ix2 i k)
/-- A two-axis array as a function of two coordinates. -/
abbrev mat {R C : Nat} (X : (⟨2, ![R, C]⟩ : Shape).Idx → EReal) : Fin R → Fin C → EReal := fun k j => X (ix2 k j)
/-- A one-axis array as a function of its coordinate. -/
abbrev vec {C : Nat} (X : (⟨1, ![C]⟩ : Shape).Idx → EReal) : Fin C → EReal := fun j => X (ix1 j)
/-- The one row of a `[1, C]` array. -/
abbrev row0 {C : Nat} (X : (⟨2, ![1, C]⟩ : Shape).Idx → EReal) : Fin C → EReal := fun j => X (ix2 (0 : Fin 1) j)

/-- All edges' messages. -/
def Gmsg {E : Nat} (X0 X1 : (⟨2, ![E, 128]⟩ : Shape).Idx → EReal) (X2 : (⟨2, ![E, 64]⟩ : Shape).Idx → EReal)
    (W1 : Fin 320 → Fin 128 → EReal) (b1 : Fin 128 → EReal) (W2 : Fin 128 → Fin 128 → EReal) (b2 : Fin 128 → EReal) :
    (⟨2, ![E, 128]⟩ : Shape).Idx → EReal :=
  fun i => msgRow (row X0 (i 0)) (row X1 (i 0)) (row X2 (i 0)) W1 b1 W2 b2 (i 1)

/-- All edges' coordinate weights. -/
def Gcw {E : Nat} (X0 X1 : (⟨2, ![E, 128]⟩ : Shape).Idx → EReal) (X2 : (⟨2, ![E, 64]⟩ : Shape).Idx → EReal)
    (W1 : Fin 320 → Fin 128 → EReal) (b1 : Fin 128 → EReal) (W2 : Fin 128 → Fin 128 → EReal) (b2 : Fin 128 → EReal)
    (Wc1 : Fin 128 → Fin 64 → EReal) (bc1 : Fin 64 → EReal) (Wc2 : Fin 64 → Fin 1 → EReal) (bc2 : Fin 1 → EReal) :
    (⟨2, ![E, 1]⟩ : Shape).Idx → EReal :=
  fun i => cwRow (msgRow (row X0 (i 0)) (row X1 (i 0)) (row X2 (i 0)) W1 b1 W2 b2) Wc1 bc1 Wc2 bc2

/-- All nodes' updated features. -/
def Gnode {N : Nat} (NF AG : (⟨2, ![N, 128]⟩ : Shape).Idx → EReal)
    (Wn1 : Fin 256 → Fin 128 → EReal) (bn1 : Fin 128 → EReal) (Wn2 : Fin 128 → Fin 128 → EReal) (bn2 : Fin 128 → EReal) :
    (⟨2, ![N, 128]⟩ : Shape).Idx → EReal :=
  fun i => nodeRow (row NF (i 0)) (row AG (i 0)) Wn1 bn1 Wn2 bn2 (i 1)

end MsgPass

end
-- ==== Proof.LibRows.lean ====
/-
  Layout operations read one row at a time: a concatenation of row-aligned arrays along the column axis is, row by
  row, the rows laid side by side; a one-row array broadcast down the rows is that row at every row. Stated for any
  number of rows `R`, so one statement serves a block of rows and the whole array.
-/
import proofs.«132821_j7275674599805_1_alg».proof.Proof.Spec
import Idealize.ShloMosaic.Lib.Pipeline.Value

noncomputable section

namespace MsgPass

open Idealize.ShloMosaic Idealize.ShloMosaic.ValueIdx

/-- Three arrays of `R` rows and 128, 128, 64 columns joined along the columns: row `p` is the three rows side by side. -/
theorem concat3_row {R : Nat} (x1 x2 : (⟨2, ![R, 128]⟩ : Shape).Idx → EReal) (x3 : (⟨2, ![R, 64]⟩ : Shape).Idx → EReal)
    (h : Shape.Concatenates (([⟨⟨2, ![R, 128]⟩, x1⟩, ⟨⟨2, ![R, 128]⟩, x2⟩, ⟨⟨2, ![R, 64]⟩, x3⟩] :
      List ((s : Shape) × (s.Idx → EReal))).map (·.1)) ⟨2, ![R, 320]⟩ 1)
    (p : Fin R) (k : Fin 320) :
    concatenate ⟨2, ![R, 320]⟩ 1 [⟨⟨2, ![R, 128]⟩, x1⟩, ⟨⟨2, ![R, 128]⟩, x2⟩, ⟨⟨2, ![R, 64]⟩, x3⟩] h (ix2 p k)
      = cat3 (row x1 p) (row x2 p) (row x3 p) k := by
  unfold cat3
  by_cases h1 : k.val < 128
  · -- column `k` below 128 lies in the first piece, at column `k` of it
    rw [dif_pos h1]
    refine concatenate_apply_piece (t := ⟨2, ![R, 320]⟩) 1 _ h (ix2 p k) 0 (Nat.zero_lt_succ _) ⟨2, ![R, 128]⟩ x1 rfl rfl 0 rfl
      (ix2 p ⟨k.val, h1⟩) ?_ ?_
    · intro b hb
      match b with
      | ⟨0, _⟩ => rfl
      | ⟨1, _⟩ => exact absurd rfl hb
    · exact Nat.zero_add _
  · rw [dif_neg h1]
    by_cases h2 : k.val < 256
    · -- 128 ≤ `k` < 256: the second piece, 128 columns in, at column `k - 128` of it
      rw [dif_pos h2]
      refine concatenate_apply_piece (t := ⟨2, ![R, 320]⟩) 1 _ h (ix2 p k) 1 (Nat.succ_lt_succ (Nat.zero_lt_succ _)) ⟨2, ![R, 128]⟩ x2 rfl rfl 128 rfl
        (ix2 p ⟨k.val - 128, by omega⟩) ?_ ?_
      · intro b hb
        match b with
        | ⟨0, _⟩ => rfl
        | ⟨1, _⟩ => exact absurd rfl hb
      · show 128 + (k.val - 128) = k.val
        omega
    · -- 256 ≤ `k`: the third piece, 128 + 128 columns in, at column `k - 256` of it
      rw [dif_neg h2]
      refine concatenate_apply_piece (t := ⟨2, ![R, 320]⟩) 1 _ h (ix2 p k) 2 (Nat.succ_lt_succ (Nat.succ_lt_succ (Nat.zero_lt_succ _))) ⟨2, ![R, 64]⟩ x3 rfl rfl 256 rfl
        (ix2 p ⟨k.val - 256, by have := k.isLt; omega⟩) ?_ ?_
      · intro b hb
        match b with
        | ⟨0, _⟩ => rfl
        | ⟨1, _⟩ => exact absurd rfl hb
      · show 256 + (k.val - 256) = k.val
        omega

/-- Two arrays of `R` rows and 128 columns joined along the columns: row `p` is the two rows side by side. -/
theorem concat2_row {R : Nat} (x1 x2 : (⟨2, ![R, 128]⟩ : Shape).Idx → EReal)
    (h : Shape.Concatenates (([⟨⟨2, ![R, 128]⟩, x1⟩, ⟨⟨2, ![R, 128]⟩, x2⟩] :
      List ((s : Shape) × (s.Idx → EReal))).map (·.1)) ⟨2, ![R, 256]⟩ 1)
    (p : Fin R) (k : Fin 256) :
    concatenate ⟨2, ![R, 256]⟩ 1 [⟨⟨2, ![R, 128]⟩, x1⟩, ⟨⟨2, ![R, 128]⟩, x2⟩] h (ix2 p k)
      = cat2 (row x1 p) (row x2 p) k := by
  unfold cat2
  by_cases h1 : k.val < 128
  · -- column `k` below 128 lies in the first piece, at column `k` of it
    rw [dif_pos h1]
    refine concatenate_apply_piece (t := ⟨2, ![R, 256]⟩) 1 _ h (ix2 p k) 0 (Nat.zero_lt_succ _) ⟨2, ![R, 128]⟩ x1 rfl rfl 0 rfl
      (ix2 p ⟨k.val, h1⟩) ?_ ?_
    · intro b hb
      match b with
      | ⟨0, _⟩ => rfl
      | ⟨1, _⟩ => exact absurd rfl hb
    · exact Nat.zero_add _
  · -- 128 ≤ `k`: the second piece, 128 columns in, at column `k - 128` of it
    rw [dif_neg h1]
    refine concatenate_apply_piece (t := ⟨2, ![R, 256]⟩) 1 _ h (ix2 p k) 1 (Nat.succ_lt_succ (Nat.zero_lt_succ _)) ⟨2, ![R, 128]⟩ x2 rfl rfl 128 rfl
      (ix2 p ⟨k.val - 128, by have := k.isLt; omega⟩) ?_ ?_
    · intro b hb
      match b with
      | ⟨0, _⟩ => rfl
      | ⟨1, _⟩ => exact absurd rfl hb
    · show 128 + (k.val - 128) = k.val
      omega

/-- A one-row array broadcast to `R` rows holds that row at every row. -/
theorem bcast_row {R C : Nat} (x : (⟨2, ![1, C]⟩ : Shape).Idx → EReal)
    (h : (⟨2, ![1, C]⟩ : Shape).Broadcasts ⟨2, ![R, C]⟩) (p : Fin R) (j : Fin C) :
    broadcastTo ⟨2, ![R, C]⟩ x h (ix2 p j) = row0 x j := by
  -- the row axis of the operand has extent one, so it is read at 0; the column axis is read at `j` (when `C = 1`, `j` is 0)
  refine broadcastTo_apply x h (ix2 p j) (ix2 (0 : Fin 1) j) ?_
  intro a
  match a with
  | ⟨0, _⟩ => exact (if_pos rfl).symm
  | ⟨1, _⟩ =>
    by_cases hC : C = 1
    · subst hC
      have : j.val = 0 := by omega
      show j.val = if (1 : Nat) = 1 then 0 else _
      rw [if_pos rfl, this]
    · show j.val = if C = 1 then 0 else _
      rw [if_neg hC]
      rfl

end MsgPass

end
-- ==== Proof.KPay0.lean ====
/-
  The edge kernel's two stored values at one row of a block: the message is the per-row message of that row of the
  three input blocks, the coordinate weight the per-row coordinate weight of that message.
-/
import proofs.«132821_j7275674599805_1_alg».proof.Proof.Gen.KernelIdeal.Skeleton
import proofs.«132821_j7275674599805_1_alg».proof.Proof.Spec
import proofs.«132821_j7275674599805_1_alg».proof.Proof.LibRows
import Idealize.ShloMosaic.PureOps.Ideal.Laws
import Idealize.ShloMosaic.Lib.Pipeline.Value

noncomputable section

namespace Cert.KernelIdeal.Pay

open Cert.KernelIdeal Cert.KernelIdeal.Gen Idealize.ShloMosaic Idealize.ShloMosaic.ValueIdx MsgPass

/-! ## Elementwise steps at an index -/

/-- An array times its own logistic, read at an index, is SiLU of the element there. -/
theorem silu_apply {s : Shape} (x : FVec Ideal s .f32) (i : s.Idx) : mulf x (logistic x) i = silu (x i) := rfl

/-! ## The four matrix products at an index

  Each product contracts the left operand's columns with the right operand's rows, no batch axis. At result index
  `(p, q)` and summation position `k` the left operand is read at `(p, k)` and the right at `(k, q)`; the sum over the
  one-axis contraction shape is re-indexed to a sum over `Fin K`. Both operands are rounded to a narrower format
  first, which on the extended reals is the identity, and the accumulator is the zero splat. -/

/-! ### The first edge layer's product: `[3200, 320]` by `[320, 128]` -/

/-- The left operand's row coordinate is the result's row. -/
theorem lhs_320_0 (i : S3200x128.Idx) (c : dot_S3200x320_S320x128_S3200x128_1_0_0_1_n_n.contr.Idx) :
    (dot_S3200x320_S320x128_S3200x128_1_0_0_1_n_n.lhsIdx i c 0).val = (i 0).val := by
  unfold DotDims.lhsIdx
  rw [dif_neg (show ¬(0 : Fin S3200x320.rank) ∈ dot_S3200x320_S320x128_S3200x128_1_0_0_1_n_n.lhsBatch by decide), dif_pos (show (0 : Fin S3200x320.rank) ∈ dot_S3200x320_S320x128_S3200x128_1_0_0_1_n_n.lhsNonContracting by decide)]
  rfl
/-- The left operand's column coordinate is the summation position. -/
theorem lhs_320_1 (i : S3200x128.Idx) (c : dot_S3200x320_S320x128_S3200x128_1_0_0_1_n_n.contr.Idx) :
    (dot_S3200x320_S320x128_S3200x128_1_0_0_1_n_n.lhsIdx i c 1).val = (c ⟨0, by decide⟩).val :=
  dot_S3200x320_S320x128_S3200x128_1_0_0_1_n_n.lhsIdx_val_of_single rfl i c
/-- The right operand's row coordinate is the summation position. -/
theorem rhs_320_0 (i : S3200x128.Idx) (c : dot_S3200x320_S320x128_S3200x128_1_0_0_1_n_n.contr.Idx) :
    (dot_S3200x320_S320x128_S3200x128_1_0_0_1_n_n.rhsIdx i c 0).val = (c ⟨0, by decide⟩).val :=
  dot_S3200x320_S320x128_S3200x128_1_0_0_1_n_n.rhsIdx_val_of_single rfl i c
/-- The right operand's column coordinate is the result's column. -/
theorem rhs_320_1 (i : S3200x128.Idx) (c : dot_S3200x320_S320x128_S3200x128_1_0_0_1_n_n.contr.Idx) :
    (dot_S3200x320_S320x128_S3200x128_1_0_0_1_n_n.rhsIdx i c 1).val = (i 1).val := by
  unfold DotDims.rhsIdx
  rw [dif_neg (show ¬(1 : Fin S320x128.rank) ∈ dot_S3200x320_S320x128_S3200x128_1_0_0_1_n_n.rhsBatch by decide), dif_pos (show (1 : Fin S320x128.rank) ∈ dot_S3200x320_S320x128_S3200x128_1_0_0_1_n_n.rhsNonContracting by decide)]
  rfl

/-- The product into the zero accumulator at row `p`, column `q`: `∑ k, l p k · r k q` over the 320 summation positions. -/
theorem matmul_320_apply (l : FVec Ideal S3200x320 .bf16) (r : FVec Ideal S320x128 .bf16) (p : Fin 3200) (q : Fin 128) :
    matmul dot_S3200x320_S320x128_S3200x128_1_0_0_1_n_n none l r (constant (F := Ideal) S3200x128 .f32 0x00000000#32) (ix2 p q)
      = ∑ k : Fin 320, l (ix2 p k) * r (ix2 k q) := by
  refine (Ideal.matmul_constant_zero_apply dot_S3200x320_S320x128_S3200x128_1_0_0_1_n_n none l r (ix2 p q)).trans ?_
  rw [← Equiv.sum_comp (ValueIdx.contrEquiv1 dot_S3200x320_S320x128_S3200x128_1_0_0_1_n_n 320 rfl rfl).symm]
  refine Finset.sum_congr rfl fun k _ => ?_
  have hk := ValueIdx.contrEquiv1_symm_val dot_S3200x320_S320x128_S3200x128_1_0_0_1_n_n 320 rfl rfl k
  have el : dot_S3200x320_S320x128_S3200x128_1_0_0_1_n_n.lhsIdx (ix2 p q) ((ValueIdx.contrEquiv1 dot_S3200x320_S320x128_S3200x128_1_0_0_1_n_n 320 rfl rfl).symm k) = ix2 p k := funext fun a => Fin.ext (by
    match a with
    | ⟨0, _⟩ => exact lhs_320_0 _ _
    | ⟨1, _⟩ => exact (lhs_320_1 _ _).trans hk)
  have er : dot_S3200x320_S320x128_S3200x128_1_0_0_1_n_n.rhsIdx (ix2 p q) ((ValueIdx.contrEquiv1 dot_S3200x320_S320x128_S3200x128_1_0_0_1_n_n 320 rfl rfl).symm k) = ix2 k q := funext fun a => Fin.ext (by
    match a with
    | ⟨0, _⟩ => exact (rhs_320_0 _ _).trans hk
    | ⟨1, _⟩ => exact rhs_320_1 _ _)
  rw [el, er]

/-- The layer over that product: the sum plus the bias row, which the broadcast repeats at every row. -/
theorem layer_320_apply (x : FVec Ideal S3200x320 .f32) (W : FVec Ideal S320x128 .f32) (b : FVec Ideal S1x128 .f32) (p : Fin 3200) (q : Fin 128) :
    addf (matmul dot_S3200x320_S320x128_S3200x128_1_0_0_1_n_n none (truncf .bf16 x bitsLt_bf16_f32) (truncf .bf16 W bitsLt_bf16_f32) (constant (F := Ideal) S3200x128 .f32 0x00000000#32))
        (broadcastTo S3200x128 (shapeCast S1x128 b shapeCasts_S1x128_S1x128) broadcasts_S1x128_S3200x128) (ix2 p q)
      = dense (row x p) (mat W) (row0 b) q := by
  unfold dense
  refine (addf_apply _ _ _).trans (congrArg₂ (· + ·) ?_ ?_)
  · exact matmul_320_apply _ _ p q
  · rw [shapeCast_self]
    exact bcast_row b _ p q

/-! ### The second edge layer's product: `[3200, 128]` by `[128, 128]` -/

/-- The left operand's row coordinate is the result's row. -/
theorem lhs_128_0 (i : S3200x128.Idx) (c : dot_S3200x128_S128x128_S3200x128_1_0_0_1_n_n.contr.Idx) :
    (dot_S3200x128_S128x128_S3200x128_1_0_0_1_n_n.lhsIdx i c 0).val = (i 0).val := by
  unfold DotDims.lhsIdx
  rw [dif_neg (show ¬(0 : Fin S3200x128.rank) ∈ dot_S3200x128_S128x128_S3200x128_1_0_0_1_n_n.lhsBatch by decide), dif_pos (show (0 : Fin S3200x128.rank) ∈ dot_S3200x128_S128x128_S3200x128_1_0_0_1_n_n.lhsNonContracting by decide)]
  rfl
/-- The left operand's column coordinate is the summation position. -/
theorem lhs_128_1 (i : S3200x128.Idx) (c : dot_S3200x128_S128x128_S3200x128_1_0_0_1_n_n.contr.Idx) :
    (dot_S3200x128_S128x128_S3200x128_1_0_0_1_n_n.lhsIdx i c 1).val = (c ⟨0, by decide⟩).val :=
  dot_S3200x128_S128x128_S3200x128_1_0_0_1_n_n.lhsIdx_val_of_single rfl i c
/-- The right operand's row coordinate is the summation position. -/
theorem rhs_128_0 (i : S3200x128.Idx) (c : dot_S3200x128_S128x128_S3200x128_1_0_0_1_n_n.contr.Idx) :
    (dot_S3200x128_S128x128_S3200x128_1_0_0_1_n_n.rhsIdx i c 0).val = (c ⟨0, by decide⟩).val :=
  dot_S3200x128_S128x128_S3200x128_1_0_0_1_n_n.rhsIdx_val_of_single rfl i c
/-- The right operand's column coordinate is the result's column. -/
theorem rhs_128_1 (i : S3200x128.Idx) (c : dot_S3200x128_S128x128_S3200x128_1_0_0_1_n_n.contr.Idx) :
    (dot_S3200x128_S128x128_S3200x128_1_0_0_1_n_n.rhsIdx i c 1).val = (i 1).val := by
  unfold DotDims.rhsIdx
  rw [dif_neg (show ¬(1 : Fin S128x128.rank) ∈ dot_S3200x128_S128x128_S3200x128_1_0_0_1_n_n.rhsBatch by decide), dif_pos (show (1 : Fin S128x128.rank) ∈ dot_S3200x128_S128x128_S3200x128_1_0_0_1_n_n.rhsNonContracting by decide)]
  rfl

/-- The product into the zero accumulator at row `p`, column `q`: `∑ k, l p k · r k q` over the 128 summation positions. -/
theorem matmul_128_apply (l : FVec Ideal S3200x128 .bf16) (r : FVec Ideal S128x128 .bf16) (p : Fin 3200) (q : Fin 128) :
    matmul dot_S3200x128_S128x128_S3200x128_1_0_0_1_n_n none l r (constant (F := Ideal) S3200x128 .f32 0x00000000#32) (ix2 p q)
      = ∑ k : Fin 128, l (ix2 p k) * r (ix2 k q) := by
  refine (Ideal.matmul_constant_zero_apply dot_S3200x128_S128x128_S3200x128_1_0_0_1_n_n none l r (ix2 p q)).trans ?_
  rw [← Equiv.sum_comp (ValueIdx.contrEquiv1 dot_S3200x128_S128x128_S3200x128_1_0_0_1_n_n 128 rfl rfl).symm]
  refine Finset.sum_congr rfl fun k _ => ?_
  have hk := ValueIdx.contrEquiv1_symm_val dot_S3200x128_S128x128_S3200x128_1_0_0_1_n_n 128 rfl rfl k
  have el : dot_S3200x128_S128x128_S3200x128_1_0_0_1_n_n.lhsIdx (ix2 p q) ((ValueIdx.contrEquiv1 dot_S3200x128_S128x128_S3200x128_1_0_0_1_n_n 128 rfl rfl).symm k) = ix2 p k := funext fun a => Fin.ext (by
    match a with
    | ⟨0, _⟩ => exact lhs_128_0 _ _
    | ⟨1, _⟩ => exact (lhs_128_1 _ _).trans hk)
  have er : dot_S3200x128_S128x128_S3200x128_1_0_0_1_n_n.rhsIdx (ix2 p q) ((ValueIdx.contrEquiv1 dot_S3200x128_S128x128_S3200x128_1_0_0_1_n_n 128 rfl rfl).symm k) = ix2 k q := funext fun a => Fin.ext (by
    match a with
    | ⟨0, _⟩ => exact (rhs_128_0 _ _).trans hk
    | ⟨1, _⟩ => exact rhs_128_1 _ _)
  rw [el, er]

/-- The layer over that product: the sum plus the bias row, which the broadcast repeats at every row. -/
theorem layer_128_apply (x : FVec Ideal S3200x128 .f32) (W : FVec Ideal S128x128 .f32) (b : FVec Ideal S1x128 .f32) (p : Fin 3200) (q : Fin 128) :
    addf (matmul dot_S3200x128_S128x128_S3200x128_1_0_0_1_n_n none (truncf .bf16 x bitsLt_bf16_f32) (truncf .bf16 W bitsLt_bf16_f32) (constant (F := Ideal) S3200x128 .f32 0x00000000#32))
        (broadcastTo S3200x128 (shapeCast S1x128 b shapeCasts_S1x128_S1x128) broadcasts_S1x128_S3200x128) (ix2 p q)
      = dense (row x p) (mat W) (row0 b) q := by
  unfold dense
  refine (addf_apply _ _ _).trans (congrArg₂ (· + ·) ?_ ?_)
  · exact matmul_128_apply _ _ p q
  · rw [shapeCast_self]
    exact bcast_row b _ p q

/-! ### The coordinate head's first product: `[3200, 128]` by `[128, 64]` -/

/-- The left operand's row coordinate is the result's row. -/
theorem lhs_128x64_0 (i : S3200x64.Idx) (c : dot_S3200x128_S128x64_S3200x64_1_0_0_1_n_n.contr.Idx) :
    (dot_S3200x128_S128x64_S3200x64_1_0_0_1_n_n.lhsIdx i c 0).val = (i 0).val := by
  unfold DotDims.lhsIdx
  rw [dif_neg (show ¬(0 : Fin S3200x128.rank) ∈ dot_S3200x128_S128x64_S3200x64_1_0_0_1_n_n.lhsBatch by decide), dif_pos (show (0 : Fin S3200x128.rank) ∈ dot_S3200x128_S128x64_S3200x64_1_0_0_1_n_n.lhsNonContracting by decide)]
  rfl
/-- The left operand's column coordinate is the summation position. -/
theorem lhs_128x64_1 (i : S3200x64.Idx) (c : dot_S3200x128_S128x64_S3200x64_1_0_0_1_n_n.contr.Idx) :
    (dot_S3200x128_S128x64_S3200x64_1_0_0_1_n_n.lhsIdx i c 1).val = (c ⟨0, by decide⟩).val :=
  dot_S3200x128_S128x64_S3200x64_1_0_0_1_n_n.lhsIdx_val_of_single rfl i c
/-- The right operand's row coordinate is the summation position. -/
theorem rhs_128x64_0 (i : S3200x64.Idx) (c : dot_S3200x128_S128x64_S3200x64_1_0_0_1_n_n.contr.Idx) :
    (dot_S3200x128_S128x64_S3200x64_1_0_0_1_n_n.rhsIdx i c 0).val = (c ⟨0, by decide⟩).val :=
  dot_S3200x128_S128x64_S3200x64_1_0_0_1_n_n.rhsIdx_val_of_single rfl i c
/-- The right operand's column coordinate is the result's column. -/
theorem rhs_128x64_1 (i : S3200x64.Idx) (c : dot_S3200x128_S128x64_S3200x64_1_0_0_1_n_n.contr.Idx) :
    (dot_S3200x128_S128x64_S3200x64_1_0_0_1_n_n.rhsIdx i c 1).val = (i 1).val := by
  unfold DotDims.rhsIdx
  rw [dif_neg (show ¬(1 : Fin S128x64.rank) ∈ dot_S3200x128_S128x64_S3200x64_1_0_0_1_n_n.rhsBatch by decide), dif_pos (show (1 : Fin S128x64.rank) ∈ dot_S3200x128_S128x64_S3200x64_1_0_0_1_n_n.rhsNonContracting by decide)]
  rfl

/-- The product into the zero accumulator at row `p`, column `q`: `∑ k, l p k · r k q` over the 128 summation positions. -/
theorem matmul_128x64_apply (l : FVec Ideal S3200x128 .bf16) (r : FVec Ideal S128x64 .bf16) (p : Fin 3200) (q : Fin 64) :
    matmul dot_S3200x128_S128x64_S3200x64_1_0_0_1_n_n none l r (constant (F := Ideal) S3200x64 .f32 0x00000000#32) (ix2 p q)
      = ∑ k : Fin 128, l (ix2 p k) * r (ix2 k q) := by
  refine (Ideal.matmul_constant_zero_apply dot_S3200x128_S128x64_S3200x64_1_0_0_1_n_n none l r (ix2 p q)).trans ?_
  rw [← Equiv.sum_comp (ValueIdx.contrEquiv1 dot_S3200x128_S128x64_S3200x64_1_0_0_1_n_n 128 rfl rfl).symm]
  refine Finset.sum_congr rfl fun k _ => ?_
  have hk := ValueIdx.contrEquiv1_symm_val dot_S3200x128_S128x64_S3200x64_1_0_0_1_n_n 128 rfl rfl k
  have el : dot_S3200x128_S128x64_S3200x64_1_0_0_1_n_n.lhsIdx (ix2 p q) ((ValueIdx.contrEquiv1 dot_S3200x128_S128x64_S3200x64_1_0_0_1_n_n 128 rfl rfl).symm k) = ix2 p k := funext fun a => Fin.ext (by
    match a with
    | ⟨0, _⟩ => exact lhs_128x64_0 _ _
    | ⟨1, _⟩ => exact (lhs_128x64_1 _ _).trans hk)
  have er : dot_S3200x128_S128x64_S3200x64_1_0_0_1_n_n.rhsIdx (ix2 p q) ((ValueIdx.contrEquiv1 dot_S3200x128_S128x64_S3200x64_1_0_0_1_n_n 128 rfl rfl).symm k) = ix2 k q := funext fun a => Fin.ext (by
    match a with
    | ⟨0, _⟩ => exact (rhs_128x64_0 _ _).trans hk
    | ⟨1, _⟩ => exact rhs_128x64_1 _ _)
  rw [el, er]

/-- The layer over that product: the sum plus the bias row, which the broadcast repeats at every row. -/
theorem layer_128x64_apply (x : FVec Ideal S3200x128 .f32) (W : FVec Ideal S128x64 .f32) (b : FVec Ideal S1x64 .f32) (p : Fin 3200) (q : Fin 64) :
    addf (matmul dot_S3200x128_S128x64_S3200x64_1_0_0_1_n_n none (truncf .bf16 x bitsLt_bf16_f32) (truncf .bf16 W bitsLt_bf16_f32) (constant (F := Ideal) S3200x64 .f32 0x00000000#32))
        (broadcastTo S3200x64 (shapeCast S1x64 b shapeCasts_S1x64_S1x64) broadcasts_S1x64_S3200x64) (ix2 p q)
      = dense (row x p) (mat W) (row0 b) q := by
  unfold dense
  refine (addf_apply _ _ _).trans (congrArg₂ (· + ·) ?_ ?_)
  · exact matmul_128x64_apply _ _ p q
  · rw [shapeCast_self]
    exact bcast_row b _ p q

/-! ### The coordinate head's second product: `[3200, 64]` by `[64, 1]` -/

/-- The left operand's row coordinate is the result's row. -/
theorem lhs_64_0 (i : S3200x1.Idx) (c : dot_S3200x64_S64x1_S3200x1_1_0_0_1_n_n.contr.Idx) :
    (dot_S3200x64_S64x1_S3200x1_1_0_0_1_n_n.lhsIdx i c 0).val = (i 0).val := by
  unfold DotDims.lhsIdx
  rw [dif_neg (show ¬(0 : Fin S3200x64.rank) ∈ dot_S3200x64_S64x1_S3200x1_1_0_0_1_n_n.lhsBatch by decide), dif_pos (show (0 : Fin S3200x64.rank) ∈ dot_S3200x64_S64x1_S3200x1_1_0_0_1_n_n.lhsNonContracting by decide)]
  rfl
/-- The left operand's column coordinate is the summation position. -/
theorem lhs_64_1 (i : S3200x1.Idx) (c : dot_S3200x64_S64x1_S3200x1_1_0_0_1_n_n.contr.Idx) :
    (dot_S3200x64_S64x1_S3200x1_1_0_0_1_n_n.lhsIdx i c 1).val = (c ⟨0, by decide⟩).val :=
  dot_S3200x64_S64x1_S3200x1_1_0_0_1_n_n.lhsIdx_val_of_single rfl i c
/-- The right operand's row coordinate is the summation position. -/
theorem rhs_64_0 (i : S3200x1.Idx) (c : dot_S3200x64_S64x1_S3200x1_1_0_0_1_n_n.contr.Idx) :
    (dot_S3200x64_S64x1_S3200x1_1_0_0_1_n_n.rhsIdx i c 0).val = (c ⟨0, by decide⟩).val :=
  dot_S3200x64_S64x1_S3200x1_1_0_0_1_n_n.rhsIdx_val_of_single rfl i c
/-- The right operand's column coordinate is the result's column. -/
theorem rhs_64_1 (i : S3200x1.Idx) (c : dot_S3200x64_S64x1_S3200x1_1_0_0_1_n_n.contr.Idx) :
    (dot_S3200x64_S64x1_S3200x1_1_0_0_1_n_n.rhsIdx i c 1).val = (i 1).val := by
  unfold DotDims.rhsIdx
  rw [dif_neg (show ¬(1 : Fin S64x1.rank) ∈ dot_S3200x64_S64x1_S3200x1_1_0_0_1_n_n.rhsBatch by decide), dif_pos (show (1 : Fin S64x1.rank) ∈ dot_S3200x64_S64x1_S3200x1_1_0_0_1_n_n.rhsNonContracting by decide)]
  rfl

/-- The product into the zero accumulator at row `p`, column `q`: `∑ k, l p k · r k q` over the 64 summation positions. -/
theorem matmul_64_apply (l : FVec Ideal S3200x64 .bf16) (r : FVec Ideal S64x1 .bf16) (p : Fin 3200) (q : Fin 1) :
    matmul dot_S3200x64_S64x1_S3200x1_1_0_0_1_n_n none l r (constant (F := Ideal) S3200x1 .f32 0x00000000#32) (ix2 p q)
      = ∑ k : Fin 64, l (ix2 p k) * r (ix2 k q) := by
  refine (Ideal.matmul_constant_zero_apply dot_S3200x64_S64x1_S3200x1_1_0_0_1_n_n none l r (ix2 p q)).trans ?_
  rw [← Equiv.sum_comp (ValueIdx.contrEquiv1 dot_S3200x64_S64x1_S3200x1_1_0_0_1_n_n 64 rfl rfl).symm]
  refine Finset.sum_congr rfl fun k _ => ?_
  have hk := ValueIdx.contrEquiv1_symm_val dot_S3200x64_S64x1_S3200x1_1_0_0_1_n_n 64 rfl rfl k
  have el : dot_S3200x64_S64x1_S3200x1_1_0_0_1_n_n.lhsIdx (ix2 p q) ((ValueIdx.contrEquiv1 dot_S3200x64_S64x1_S3200x1_1_0_0_1_n_n 64 rfl rfl).symm k) = ix2 p k := funext fun a => Fin.ext (by
    match a with
    | ⟨0, _⟩ => exact lhs_64_0 _ _
    | ⟨1, _⟩ => exact (lhs_64_1 _ _).trans hk)
  have er : dot_S3200x64_S64x1_S3200x1_1_0_0_1_n_n.rhsIdx (ix2 p q) ((ValueIdx.contrEquiv1 dot_S3200x64_S64x1_S3200x1_1_0_0_1_n_n 64 rfl rfl).symm k) = ix2 k q := funext fun a => Fin.ext (by
    match a with
    | ⟨0, _⟩ => exact (rhs_64_0 _ _).trans hk
    | ⟨1, _⟩ => exact rhs_64_1 _ _)
  rw [el, er]

/-- The layer over that product: the sum plus the bias row, which the broadcast repeats at every row. -/
theorem layer_64_apply (x : FVec Ideal S3200x64 .f32) (W : FVec Ideal S64x1 .f32) (b : FVec Ideal S1x1 .f32) (p : Fin 3200) (q : Fin 1) :
    addf (matmul dot_S3200x64_S64x1_S3200x1_1_0_0_1_n_n none (truncf .bf16 x bitsLt_bf16_f32) (truncf .bf16 W bitsLt_bf16_f32) (constant (F := Ideal) S3200x1 .f32 0x00000000#32))
        (broadcastTo S3200x1 (shapeCast S1x1 b shapeCasts_S1x1_S1x1) broadcasts_S1x1_S3200x1) (ix2 p q)
      = dense (row x p) (mat W) (row0 b) q := by
  unfold dense
  refine (addf_apply _ _ _).trans (congrArg₂ (· + ·) ?_ ?_)
  · exact matmul_64_apply _ _ p q
  · rw [shapeCast_self]
    exact bcast_row b _ p q

/-! ## The two stored values -/

/-- The stored message at row `p`, column `q` of a block. -/
theorem k0_pay2_apply (v0 v2 : Vec Ideal S3200x128 .f32) (v4 : Vec Ideal S3200x64 .f32) (v6 : Vec Ideal S320x128 .f32)
    (v10 : Vec Ideal S1x128 .f32) (v16 : Vec Ideal S128x128 .f32) (v20 : Vec Ideal S1x128 .f32) (p : Fin 3200) (q : Fin 128) :
    k0_pay2 (F := Ideal) v0 v2 v4 v6 v10 v16 v20 (ix2 p q)
      = msgRow (row v0 p) (row v2 p) (row v4 p) (mat v6) (row0 v10) (mat v16) (row0 v20) q := by
  unfold k0_pay2 msgRow
  -- the outer SiLU over the second layer
  refine (silu_apply _ _).trans (congrArg silu ?_)
  refine (layer_128_apply _ v16 v20 p q).trans ?_
  refine congrArg (fun x => dense x (mat v16) (row0 v20) q) (funext fun k => ?_)
  -- its input row: the inner SiLU over the first layer
  unfold edgeHidden
  refine (silu_apply _ _).trans (congrArg silu ?_)
  refine (layer_320_apply _ v6 v10 p k).trans ?_
  refine congrArg (fun x => dense x (mat v6) (row0 v10) k) (funext fun k' => ?_)
  -- the first layer's input row: the three blocks' rows side by side
  refine (concat3_row _ _ _ _ p k').trans ?_
  rw [shapeCast_self, shapeCast_self]

/-- The stored coordinate weight at row `p` of a block. -/
theorem k0_pay1_apply (v0 v2 : Vec Ideal S3200x128 .f32) (v4 : Vec Ideal S3200x64 .f32) (v6 : Vec Ideal S320x128 .f32)
    (v10 : Vec Ideal S1x128 .f32) (v16 : Vec Ideal S128x128 .f32) (v20 : Vec Ideal S1x128 .f32)
    (v27 : Vec Ideal S128x64 .f32) (v31 : Vec Ideal S1x64 .f32) (v37 : Vec Ideal S64x1 .f32) (v41 : Vec Ideal S1x1 .f32)
    (p : Fin 3200) :
    k0_pay1 (F := Ideal) (k0_pay3 v0 v2 v4 v6 v10 v16 v20 v27 v31) v37 v41 (ix2 p (0 : Fin 1))
      = cwRow (msgRow (row v0 p) (row v2 p) (row v4 p) (mat v6) (row0 v10) (mat v16) (row0 v20))
          (mat v27) (row0 v31) (mat v37) (row0 v41) := by
  unfold k0_pay1 cwRow
  -- the last layer, over the SiLU of the layer before it
  refine (layer_64_apply _ v37 v41 p 0).trans ?_
  refine congrArg (fun x => dense x (mat v37) (row0 v41) (0 : Fin 1)) (funext fun k => ?_)
  refine (silu_apply _ _).trans (congrArg silu ?_)
  -- that layer reads the message row
  unfold k0_pay3
  refine (layer_128x64_apply _ v27 v31 p k).trans ?_
  refine congrArg (fun x => dense x (mat v27) (row0 v31) k) (funext fun j => ?_)
  exact k0_pay2_apply v0 v2 v4 v6 v10 v16 v20 p j

end Cert.KernelIdeal.Pay

end
-- ==== Proof.KRegion0.lean ====
/-
  The edge kernel's two output arrays after its grid has run, whatever the buffers hold when the region is entered:
  block `t` covers rows `3200·t … 3200·t + 3199` of every row-tiled operand, the 125 blocks tile the 400000 rows, and
  what a point writes back is the per-row function of its rows, so each output array is the whole-array function.
-/
import proofs.«132821_j7275674599805_1_alg».proof.Proof.Gen.KernelIdeal.Frame
import proofs.«132821_j7275674599805_1_alg».proof.Proof.Spec
import proofs.«132821_j7275674599805_1_alg».proof.Proof.KPay0
import Idealize.ShloMosaic.Lib.Pipeline.Value

set_option maxRecDepth 16384

noncomputable section

namespace Cert.KernelIdeal.Regions

open Cert.KernelIdeal Cert.KernelIdeal.Gen Idealize.ShloMosaic Idealize.ShloMosaic.TcCoe Idealize.ShloMosaic.ValueIdx Idealize.SL.Sem MsgPass
open Idealize.ShloMosaic.Pipeline (Dat Cfg Window)

variable (V : (c : Dev nD) → (b : Ref sig .tc) → Buf (Elt Ideal) ((c : Thread nD τ).loc b))

/-- The zero offset of a store or load that spans its whole buffer. -/
theorem edge_hz : (![0, 0] : Fin 2 → Nat) = fun _ => 0 := funext fun a => by fin_cases a <;> rfl

/-- The block index of every window at grid point `t`: the row-tiled windows sit at block row `t`, block column 0; the
    weight and bias windows are one block, at (0, 0). -/
theorem edge_idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_11.index t (0 : Fin 2) = t.val ∧ win0_11.index t (1 : Fin 2) = 0 :=
  (by decide +kernel : ∀ t : Fin grid0.N, _)

/-- Row `p` of block `t` of the source-node features is row `3200·t + p` of the array. -/
theorem edge_blk_src (c : Dev nD) (t : Fin cfg0.N) (p : Fin 3200) (k : Fin 128) (r : Fin 400000) (hr : r.val = 3200 * t.val + p.val) :
    (iblk0 V c 0 t : Vec Ideal S3200x128 .f32) (ix2 p k) = (V c main_v10 : S400000x128.Idx → EReal) (ix2 r k) := by
  have e := edge_idx_facts t
  unfold iblk0
  rw [View.read_apply]
  refine congrArg (V c main_v10 : S400000x128.Idx → EReal) (funext fun a => Fin.ext ?_)
  match a with
  | ⟨0, _⟩ => show win0_0.index t (0 : Fin 2) * 3200 + 1 * p.val = r.val; omega
  | ⟨1, _⟩ => show win0_0.index t (1 : Fin 2) * 128 + 1 * k.val = k.val; omega

/-- Row `p` of block `t` of the destination-node features is row `3200·t + p` of the array. -/
theorem edge_blk_dst (c : Dev nD) (t : Fin cfg0.N) (p : Fin 3200) (k : Fin 128) (r : Fin 400000) (hr : r.val = 3200 * t.val + p.val) :
    (iblk0 V c 1 t : Vec Ideal S3200x128 .f32) (ix2 p k) = (V c main_v17 : S400000x128.Idx → EReal) (ix2 r k) := by
  have e := edge_idx_facts t
  unfold iblk0
  rw [View.read_apply]
  refine congrArg (V c main_v17 : S400000x128.Idx → EReal) (funext fun a => Fin.ext ?_)
  match a with
  | ⟨0, _⟩ => show win0_1.index t (0 : Fin 2) * 3200 + 1 * p.val = r.val; omega
  | ⟨1, _⟩ => show win0_1.index t (1 : Fin 2) * 128 + 1 * k.val = k.val; omega

/-- Row `p` of block `t` of the edge attributes is row `3200·t + p` of the array. -/
theorem edge_blk_attr (c : Dev nD) (t : Fin cfg0.N) (p : Fin 3200) (k : Fin 64) (r : Fin 400000) (hr : r.val = 3200 * t.val + p.val) :
    (iblk0 V c 2 t : Vec Ideal S3200x64 .f32) (ix2 p k) = (V c main_arg1 : S400000x64.Idx → EReal) (ix2 r k) := by
  have e := edge_idx_facts t
  unfold iblk0
  rw [View.read_apply]
  refine congrArg (V c main_arg1 : S400000x64.Idx → EReal) (funext fun a => Fin.ext ?_)
  match a with
  | ⟨0, _⟩ => show win0_2.index t (0 : Fin 2) * 3200 + 1 * p.val = r.val; omega
  | ⟨1, _⟩ => show win0_2.index t (1 : Fin 2) * 64 + 1 * k.val = k.val; omega

/-- The first layer's weights are one block: the whole array at every point. -/
theorem edge_blk_W1 (c : Dev nD) (t : Fin cfg0.N) :
    (iblk0 V c 3 t : Vec Ideal S320x128 .f32) = (V c main_arg4 : S320x128.Idx → EReal) := by
  have e := edge_idx_facts t
  funext y
  unfold iblk0
  rw [View.read_apply]
  refine congrArg (V c main_arg4 : S320x128.Idx → EReal) (funext fun a => Fin.ext ?_)
  match a with
  | ⟨0, _⟩ => show win0_3.index t (0 : Fin 2) * 320 + 1 * (y 0).val = (y 0).val; omega
  | ⟨1, _⟩ => show win0_3.index t (1 : Fin 2) * 128 + 1 * (y 1).val = (y 1).val; omega

/-- The first layer's bias is one block: the whole array at every point. -/
theorem edge_blk_b1 (c : Dev nD) (t : Fin cfg0.N) :
    (iblk0 V c 4 t : Vec Ideal S1x128 .f32) = (V c main_v18 : S1x128.Idx → EReal) := by
  have e := edge_idx_facts t
  funext y
  unfold iblk0
  rw [View.read_apply]
  refine congrArg (V c main_v18 : S1x128.Idx → EReal) (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- The second layer's weights are one block: the whole array at every point. -/
theorem edge_blk_W2 (c : Dev nD) (t : Fin cfg0.N) :
    (iblk0 V c 5 t : Vec Ideal S128x128 .f32) = (V c main_arg6 : S128x128.Idx → EReal) := by
  have e := edge_idx_facts t
  funext y
  unfold iblk0
  rw [View.read_apply]
  refine congrArg (V c main_arg6 : S128x128.Idx → EReal) (funext fun a => Fin.ext ?_)
  match a with
  | ⟨0, _⟩ => show win0_5.index t (0 : Fin 2) * 128 + 1 * (y 0).val = (y 0).val; omega
  | ⟨1, _⟩ => show win0_5.index t (1 : Fin 2) * 128 + 1 * (y 1).val = (y 1).val; omega

/-- The second layer's bias is one block: the whole array at every point. -/
theorem edge_blk_b2 (c : Dev nD) (t : Fin cfg0.N) :
    (iblk0 V c 6 t : Vec Ideal S1x128 .f32) = (V c main_v19 : S1x128.Idx → EReal) := by
  have e := edge_idx_facts t
  funext y
  unfold iblk0
  rw [View.read_apply]
  refine congrArg (V c main_v19 : S1x128.Idx → EReal) (funext fun a => Fin.ext ?_)
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- What point `t` writes back is block `t` of the whole-array message function: row `p` of the block is the message of
    edge `3200·t + p`, a function of that row of each operand and of the weights. -/
theorem flushed_msg (c : Dev nD) (t : Fin cfg0.N) :
    (dat0 (F := Ideal) V c).flushed 11 t = ((cfg0.win 11).blk t).view.read (Elt Ideal)
      (Gmsg (V c main_v10) (V c main_v17) (V c main_arg1) (mat (V c main_arg4)) (row0 (V c main_v18))
          (mat (V c main_arg6)) (row0 (V c main_v19))) := by
  show (cfg0.win 11).cut (grid0.coords t) ((dat0 V c).after 11 t) = _
  rw [after0_11]
  unfold out0_11
  rw [View.canon_unit_zero edge_hz]
  simp only [View.ld_unit_zero (S := S3200x128) edge_hz, View.ld_unit_zero (S := S3200x64) edge_hz, View.ld_unit_zero (S := S320x128) edge_hz,
    View.ld_unit_zero (S := S1x128) edge_hz, View.ld_unit_zero (S := S128x128) edge_hz]
  rw [edge_blk_W1 V c t, edge_blk_b1 V c t, edge_blk_W2 V c t, edge_blk_b2 V c t]
  have e := edge_idx_facts t
  funext j
  obtain ⟨p, q, rfl⟩ : ∃ (p : Fin 3200) (q : Fin 128), j = ix2 p q := ⟨j 0, j 1, eq_ix2 j⟩
  -- the array index at which the block's (p, q) sits: row 3200·t + p, column q
  have hi0 : ((((cfg0.win 11).blk t).view.emb (ix2 p q) : S400000x128.Idx) 0).val = 3200 * t.val + p.val := by
    show win0_11.index t (0 : Fin 2) * 3200 + 1 * p.val = _; omega
  have hi1 : (((cfg0.win 11).blk t).view.emb (ix2 p q) : S400000x128.Idx) 1 = q :=
    Fin.ext (by show win0_11.index t (1 : Fin 2) * 128 + 1 * q.val = q.val; omega)
  show k0_pay2 (F := Ideal) (iblk0 V c 0 t) (iblk0 V c 1 t) (iblk0 V c 2 t) (V c main_arg4) (V c main_v18) (V c main_arg6) (V c main_v19) (ix2 p q)
    = Gmsg (V c main_v10) (V c main_v17) (V c main_arg1) (mat (V c main_arg4)) (row0 (V c main_v18))
          (mat (V c main_arg6)) (row0 (V c main_v19)) (((cfg0.win 11).blk t).view.emb (ix2 p q))
  rw [Pay.k0_pay2_apply]
  unfold Gmsg
  rw [hi1]
  have r0 : row (iblk0 V c 0 t : Vec Ideal S3200x128 .f32) p = row (V c main_v10 : S400000x128.Idx → EReal) _ :=
    funext fun k => edge_blk_src V c t p k _ hi0
  have r1 : row (iblk0 V c 1 t : Vec Ideal S3200x128 .f32) p = row (V c main_v17 : S400000x128.Idx → EReal) _ :=
    funext fun k => edge_blk_dst V c t p k _ hi0
  have r2 : row (iblk0 V c 2 t : Vec Ideal S3200x64 .f32) p = row (V c main_arg1 : S400000x64.Idx → EReal) _ :=
    funext fun k => edge_blk_attr V c t p k _ hi0
  rw [r0, r1, r2]

/-- An index of the message array is in point `t`'s block iff each coordinate is in the block's range on its axis. -/
theorem mem_blk_msg (t : Fin cfg0.N) (i : S400000x128.Idx) :
    i ∈ ((cfg0.win 11).blk t).view.set ↔ ∀ a : Fin 2, win0_11.index t a * S3200x128.size a ≤ (i a).val
      ∧ (i a).val < win0_11.index t a * S3200x128.size a + S3200x128.size a := by
  show i ∈ ((View.whole main_v24_0).slice (win0_11.rect t)).set ↔ _
  rw [View.set_slice_whole, Rect.mem_set_unit]
  exact Iff.rfl

/-- The 125 blocks of 3200 rows tile the 400000 rows: row `r` is in the block of point `r / 3200`. -/
theorem cover_msg (i : S400000x128.Idx) :
    ∃ t : Fin cfg0.N, (cfg0.win 11).flush t = true ∧ i ∈ ((cfg0.win 11).blk t).view.set := by
  have h0 : (i 0).val < 400000 := (i 0).isLt
  have h1 : (i 1).val < 128 := (i 1).isLt
  have hN : cfg0.N = 125 := N_0
  have ht : (i 0).val / 3200 < cfg0.N := by rw [hN]; omega
  have e := edge_idx_facts ⟨(i 0).val / 3200, ht⟩
  refine ⟨⟨(i 0).val / 3200, ht⟩, flush0_11 _, ?_⟩
  rw [mem_blk_msg]
  intro a
  match a with
  | ⟨0, _⟩ =>
    show win0_11.index ⟨(i 0).val / 3200, ht⟩ (0 : Fin 2) * 3200 ≤ (i 0).val
      ∧ (i 0).val < win0_11.index ⟨(i 0).val / 3200, ht⟩ (0 : Fin 2) * 3200 + 3200
    have e0 : win0_11.index ⟨(i 0).val / 3200, ht⟩ (0 : Fin 2) = (i 0).val / 3200 := e.2.2.2.2.2.2.2.2.2.2.2.2.2.2.1
    rw [e0]; omega
  | ⟨1, _⟩ =>
    show win0_11.index ⟨(i 0).val / 3200, ht⟩ (1 : Fin 2) * 128 ≤ (i 1).val
      ∧ (i 1).val < win0_11.index ⟨(i 0).val / 3200, ht⟩ (1 : Fin 2) * 128 + 128
    have e1 : win0_11.index ⟨(i 0).val / 3200, ht⟩ (1 : Fin 2) = 0 := e.2.2.2.2.2.2.2.2.2.2.2.2.2.2.2
    rw [e1]; omega

/-- The message array after the region: every edge's message from the three row-tiled operands and the weights. -/
theorem arr_msg (c : Dev nD) :
    (dat0 (F := Ideal) V c).arrAt 11 cfg0.N
      = Gmsg (V c main_v10) (V c main_v17) (V c main_arg1) (mat (V c main_arg4)) (row0 (V c main_v18))
          (mat (V c main_arg6)) (row0 (V c main_v19)) :=
  (dat0 (F := Ideal) V c).arrAt_eq_of_cover 11 _ (fun t _ => flushed_msg V c t) cover_msg

end Cert.KernelIdeal.Regions

end
-- ==== Proof.KRegion0Cw.lean ====
/-
  The edge kernel's coordinate-weight array after its grid has run, whatever the buffers hold when the region is
  entered: block `t` covers rows `3200·t … 3200·t + 3199` of every row-tiled operand (the output has one column), the
  125 blocks tile the 400000 rows, and what a point writes back is the per-row coordinate weight of its rows.
-/
import proofs.«132821_j7275674599805_1_alg».proof.Proof.Gen.KernelIdeal.Frame
import proofs.«132821_j7275674599805_1_alg».proof.Proof.Spec
import proofs.«132821_j7275674599805_1_alg».proof.Proof.KPay0
import Idealize.ShloMosaic.Lib.Pipeline.Value

set_option maxRecDepth 16384

noncomputable section

namespace Cert.KernelIdeal.RegionsCw

open Cert.KernelIdeal Cert.KernelIdeal.Gen Idealize.ShloMosaic Idealize.ShloMosaic.TcCoe Idealize.ShloMosaic.ValueIdx Idealize.SL.Sem MsgPass
open Idealize.ShloMosaic.Pipeline (Dat Cfg Window)

variable (V : (c : Dev nD) → (b : Ref sig .tc) → Buf (Elt Ideal) ((c : Thread nD τ).loc b))

/-- The zero offsets of a whole-block access, however spelt. -/
theorem cw_zeros : (![0, 0] : Fin 2 → Nat) = fun _ => 0 := funext fun a => by fin_cases a <;> rfl

/-! ## The index maps, over the 125 grid points

The three row-tiled inputs and the output sit at block `(t, 0)`; every weight and bias at block `(0, 0)`. -/

theorem cw_idx0 : ∀ t : Fin cfg0.N, win0_0.index t (0 : Fin 2) = t.val ∧ win0_0.index t (1 : Fin 2) = 0 :=
  (by decide +kernel : ∀ t : Fin grid0.N, _)

theorem cw_idx1 : ∀ t : Fin cfg0.N, win0_1.index t (0 : Fin 2) = t.val ∧ win0_1.index t (1 : Fin 2) = 0 :=
  (by decide +kernel : ∀ t : Fin grid0.N, _)

theorem cw_idx2 : ∀ t : Fin cfg0.N, win0_2.index t (0 : Fin 2) = t.val ∧ win0_2.index t (1 : Fin 2) = 0 :=
  (by decide +kernel : ∀ t : Fin grid0.N, _)

theorem cw_idx3 : ∀ t : Fin cfg0.N, win0_3.index t (0 : Fin 2) = 0 ∧ win0_3.index t (1 : Fin 2) = 0 :=
  (by decide +kernel : ∀ t : Fin grid0.N, _)

theorem cw_idx4 : ∀ t : Fin cfg0.N, win0_4.index t (0 : Fin 2) = 0 ∧ win0_4.index t (1 : Fin 2) = 0 :=
  (by decide +kernel : ∀ t : Fin grid0.N, _)

theorem cw_idx5 : ∀ t : Fin cfg0.N, win0_5.index t (0 : Fin 2) = 0 ∧ win0_5.index t (1 : Fin 2) = 0 :=
  (by decide +kernel : ∀ t : Fin grid0.N, _)

theorem cw_idx6 : ∀ t : Fin cfg0.N, win0_6.index t (0 : Fin 2) = 0 ∧ win0_6.index t (1 : Fin 2) = 0 :=
  (by decide +kernel : ∀ t : Fin grid0.N, _)

theorem cw_idx7 : ∀ t : Fin cfg0.N, win0_7.index t (0 : Fin 2) = 0 ∧ win0_7.index t (1 : Fin 2) = 0 :=
  (by decide +kernel : ∀ t : Fin grid0.N, _)

theorem cw_idx8 : ∀ t : Fin cfg0.N, win0_8.index t (0 : Fin 2) = 0 ∧ win0_8.index t (1 : Fin 2) = 0 :=
  (by decide +kernel : ∀ t : Fin grid0.N, _)

theorem cw_idx9 : ∀ t : Fin cfg0.N, win0_9.index t (0 : Fin 2) = 0 ∧ win0_9.index t (1 : Fin 2) = 0 :=
  (by decide +kernel : ∀ t : Fin grid0.N, _)

theorem cw_idx10 : ∀ t : Fin cfg0.N, win0_10.index t (0 : Fin 2) = 0 ∧ win0_10.index t (1 : Fin 2) = 0 :=
  (by decide +kernel : ∀ t : Fin grid0.N, _)

theorem cw_idx12 : ∀ t : Fin cfg0.N, win0_12.index t (0 : Fin 2) = t.val ∧ win0_12.index t (1 : Fin 2) = 0 :=
  (by decide +kernel : ∀ t : Fin grid0.N, _)

/-! ## Each input block, read off its array -/

/-- Row `p` of the source-feature block at point `t` is row `3200·t + p` of the array. -/
theorem cw_src_row (c : Dev nD) (t : Fin cfg0.N) (p : Fin 3200) (r : Fin 400000) (hr : r.val = 3200 * t.val + p.val) :
    row (iblk0 V c 0 t : Vec Ideal S3200x128 .f32) p = row (V c main_v10 : S400000x128.Idx → EReal) r := by
  obtain ⟨e0, e1⟩ := cw_idx0 t
  funext k
  unfold iblk0
  show ((cfg0.win 0).blk t).view.read (Elt Ideal) (V c main_v10) (ix2 p k) = V c main_v10 (ix2 r k)
  rw [View.read_apply]
  show V c main_v10 _ = V c main_v10 _
  congr 1
  funext a
  apply Fin.ext
  match a with
  | ⟨0, _⟩ => show win0_0.index t (0 : Fin 2) * 3200 + 1 * p.val = r.val; omega
  | ⟨1, _⟩ => show win0_0.index t (1 : Fin 2) * 128 + 1 * k.val = k.val; omega

/-- Row `p` of the destination-feature block at point `t` is row `3200·t + p` of the array. -/
theorem cw_dst_row (c : Dev nD) (t : Fin cfg0.N) (p : Fin 3200) (r : Fin 400000) (hr : r.val = 3200 * t.val + p.val) :
    row (iblk0 V c 1 t : Vec Ideal S3200x128 .f32) p = row (V c main_v17 : S400000x128.Idx → EReal) r := by
  obtain ⟨e0, e1⟩ := cw_idx1 t
  funext k
  unfold iblk0
  show ((cfg0.win 1).blk t).view.read (Elt Ideal) (V c main_v17) (ix2 p k) = V c main_v17 (ix2 r k)
  rw [View.read_apply]
  show V c main_v17 _ = V c main_v17 _
  congr 1
  funext a
  apply Fin.ext
  match a with
  | ⟨0, _⟩ => show win0_1.index t (0 : Fin 2) * 3200 + 1 * p.val = r.val; omega
  | ⟨1, _⟩ => show win0_1.index t (1 : Fin 2) * 128 + 1 * k.val = k.val; omega

/-- Row `p` of the edge-attribute block at point `t` is row `3200·t + p` of the array. -/
theorem cw_attr_row (c : Dev nD) (t : Fin cfg0.N) (p : Fin 3200) (r : Fin 400000) (hr : r.val = 3200 * t.val + p.val) :
    row (iblk0 V c 2 t : Vec Ideal S3200x64 .f32) p = row (V c main_arg1 : S400000x64.Idx → EReal) r := by
  obtain ⟨e0, e1⟩ := cw_idx2 t
  funext k
  unfold iblk0
  show ((cfg0.win 2).blk t).view.read (Elt Ideal) (V c main_arg1) (ix2 p k) = V c main_arg1 (ix2 r k)
  rw [View.read_apply]
  show V c main_arg1 _ = V c main_arg1 _
  congr 1
  funext a
  apply Fin.ext
  match a with
  | ⟨0, _⟩ => show win0_2.index t (0 : Fin 2) * 3200 + 1 * p.val = r.val; omega
  | ⟨1, _⟩ => show win0_2.index t (1 : Fin 2) * 64 + 1 * k.val = k.val; omega

/-- The first message weight matrix is one block: the block is the array. -/
theorem cw_w1 (c : Dev nD) (t : Fin cfg0.N) :
    (iblk0 V c 3 t : Vec Ideal S320x128 .f32) = (V c main_arg4 : S320x128.Idx → EReal) := by
  obtain ⟨e0, e1⟩ := cw_idx3 t
  funext y
  unfold iblk0
  show ((cfg0.win 3).blk t).view.read (Elt Ideal) (V c main_arg4) y = V c main_arg4 y
  rw [View.read_apply]
  show V c main_arg4 _ = V c main_arg4 _
  congr 1
  funext a
  apply Fin.ext
  match a with
  | ⟨0, _⟩ => show win0_3.index t (0 : Fin 2) * 320 + 1 * (y 0).val = (y 0).val; omega
  | ⟨1, _⟩ => show win0_3.index t (1 : Fin 2) * 128 + 1 * (y 1).val = (y 1).val; omega

/-- The first message bias row is one block. -/
theorem cw_b1 (c : Dev nD) (t : Fin cfg0.N) :
    (iblk0 V c 4 t : Vec Ideal S1x128 .f32) = (V c main_v18 : S1x128.Idx → EReal) := by
  obtain ⟨e0, e1⟩ := cw_idx4 t
  funext y
  unfold iblk0
  show ((cfg0.win 4).blk t).view.read (Elt Ideal) (V c main_v18) y = V c main_v18 y
  rw [View.read_apply]
  show V c main_v18 _ = V c main_v18 _
  congr 1
  funext a
  apply Fin.ext
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- The second message weight matrix is one block. -/
theorem cw_w2 (c : Dev nD) (t : Fin cfg0.N) :
    (iblk0 V c 5 t : Vec Ideal S128x128 .f32) = (V c main_arg6 : S128x128.Idx → EReal) := by
  obtain ⟨e0, e1⟩ := cw_idx5 t
  funext y
  unfold iblk0
  show ((cfg0.win 5).blk t).view.read (Elt Ideal) (V c main_arg6) y = V c main_arg6 y
  rw [View.read_apply]
  show V c main_arg6 _ = V c main_arg6 _
  congr 1
  funext a
  apply Fin.ext
  match a with
  | ⟨0, _⟩ => show win0_5.index t (0 : Fin 2) * 128 + 1 * (y 0).val = (y 0).val; omega
  | ⟨1, _⟩ => show win0_5.index t (1 : Fin 2) * 128 + 1 * (y 1).val = (y 1).val; omega

/-- The second message bias row is one block. -/
theorem cw_b2 (c : Dev nD) (t : Fin cfg0.N) :
    (iblk0 V c 6 t : Vec Ideal S1x128 .f32) = (V c main_v19 : S1x128.Idx → EReal) := by
  obtain ⟨e0, e1⟩ := cw_idx6 t
  funext y
  unfold iblk0
  show ((cfg0.win 6).blk t).view.read (Elt Ideal) (V c main_v19) y = V c main_v19 y
  rw [View.read_apply]
  show V c main_v19 _ = V c main_v19 _
  congr 1
  funext a
  apply Fin.ext
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- The first coordinate-weight matrix is one block. -/
theorem cw_wc1 (c : Dev nD) (t : Fin cfg0.N) :
    (iblk0 V c 7 t : Vec Ideal S128x64 .f32) = (V c main_arg12 : S128x64.Idx → EReal) := by
  obtain ⟨e0, e1⟩ := cw_idx7 t
  funext y
  unfold iblk0
  show ((cfg0.win 7).blk t).view.read (Elt Ideal) (V c main_arg12) y = V c main_arg12 y
  rw [View.read_apply]
  show V c main_arg12 _ = V c main_arg12 _
  congr 1
  funext a
  apply Fin.ext
  match a with
  | ⟨0, _⟩ => show win0_7.index t (0 : Fin 2) * 128 + 1 * (y 0).val = (y 0).val; omega
  | ⟨1, _⟩ => show win0_7.index t (1 : Fin 2) * 64 + 1 * (y 1).val = (y 1).val; omega

/-- The first coordinate-weight bias row is one block. -/
theorem cw_bc1 (c : Dev nD) (t : Fin cfg0.N) :
    (iblk0 V c 8 t : Vec Ideal S1x64 .f32) = (V c main_v22 : S1x64.Idx → EReal) := by
  obtain ⟨e0, e1⟩ := cw_idx8 t
  funext y
  unfold iblk0
  show ((cfg0.win 8).blk t).view.read (Elt Ideal) (V c main_v22) y = V c main_v22 y
  rw [View.read_apply]
  show V c main_v22 _ = V c main_v22 _
  congr 1
  funext a
  apply Fin.ext
  match a with
  | ⟨0, _⟩ => show win0_8.index t (0 : Fin 2) * 1 + 1 * (y 0).val = (y 0).val; omega
  | ⟨1, _⟩ => show win0_8.index t (1 : Fin 2) * 64 + 1 * (y 1).val = (y 1).val; omega

/-- The second coordinate-weight matrix (one column) is one block. -/
theorem cw_wc2 (c : Dev nD) (t : Fin cfg0.N) :
    (iblk0 V c 9 t : Vec Ideal S64x1 .f32) = (V c main_arg14 : S64x1.Idx → EReal) := by
  obtain ⟨e0, e1⟩ := cw_idx9 t
  funext y
  unfold iblk0
  show ((cfg0.win 9).blk t).view.read (Elt Ideal) (V c main_arg14) y = V c main_arg14 y
  rw [View.read_apply]
  show V c main_arg14 _ = V c main_arg14 _
  congr 1
  funext a
  apply Fin.ext
  match a with
  | ⟨0, _⟩ => show win0_9.index t (0 : Fin 2) * 64 + 1 * (y 0).val = (y 0).val; omega
  | ⟨1, _⟩ => show win0_9.index t (1 : Fin 2) * 1 + 1 * (y 1).val = (y 1).val; omega

/-- The second coordinate-weight bias (one entry) is one block. -/
theorem cw_bc2 (c : Dev nD) (t : Fin cfg0.N) :
    (iblk0 V c 10 t : Vec Ideal S1x1 .f32) = (V c main_v23 : S1x1.Idx → EReal) := by
  obtain ⟨e0, e1⟩ := cw_idx10 t
  funext y
  unfold iblk0
  show ((cfg0.win 10).blk t).view.read (Elt Ideal) (V c main_v23) y = V c main_v23 y
  rw [View.read_apply]
  show V c main_v23 _ = V c main_v23 _
  congr 1
  funext a
  apply Fin.ext
  match a with
  | ⟨0, _⟩ => show win0_10.index t (0 : Fin 2) * 1 + 1 * (y 0).val = (y 0).val; omega
  | ⟨1, _⟩ => show win0_10.index t (1 : Fin 2) * 1 + 1 * (y 1).val = (y 1).val; omega

/-! ## What a point writes back, the cover, the array -/

/-- What point `t` writes back is block `t` of the whole-array coordinate weights. -/
theorem cw_flushed (c : Dev nD) (t : Fin cfg0.N) :
    (dat0 (F := Ideal) V c).flushed 12 t
      = ((cfg0.win 12).blk t).view.read (Elt Ideal)
          (Gcw (V c main_v10) (V c main_v17) (V c main_arg1) (mat (V c main_arg4)) (row0 (V c main_v18))
            (mat (V c main_arg6)) (row0 (V c main_v19)) (mat (V c main_arg12)) (row0 (V c main_v22))
            (mat (V c main_arg14)) (row0 (V c main_v23))) := by
  show (cfg0.win 12).cut (grid0.coords t) ((dat0 V c).after 12 t) = _
  rw [after0_12]
  unfold out0_12
  rw [View.canon_unit_zero cw_zeros]
  simp only [View.ld_unit_zero (S := S3200x128) cw_zeros, View.ld_unit_zero (S := S3200x64) cw_zeros,
    View.ld_unit_zero (S := S320x128) cw_zeros, View.ld_unit_zero (S := S1x128) cw_zeros,
    View.ld_unit_zero (S := S128x128) cw_zeros, View.ld_unit_zero (S := S128x64) cw_zeros,
    View.ld_unit_zero (S := S1x64) cw_zeros, View.ld_unit_zero (S := S64x1) cw_zeros,
    View.ld_unit_zero (S := S1x1) cw_zeros]
  obtain ⟨e0, e1⟩ := cw_idx12 t
  have hN : cfg0.N = 125 := N_0
  refine funext fun (j : S3200x1.Idx) => ?_
  obtain ⟨p, q, rfl⟩ : ∃ (p : Fin 3200) (q : Fin 1), j = ix2 p q := ⟨j 0, j 1, eq_ix2 j⟩
  obtain rfl : q = 0 := Subsingleton.elim _ _
  have ht : t.val < 125 := hN ▸ t.isLt
  let r : Fin 400000 := ⟨3200 * t.val + p.val, by have := p.isLt; omega⟩
  have hemb : ((cfg0.win 12).blk t).view.emb (ix2 p (0 : Fin 1)) = (ix2 r (0 : Fin 1) : S400000x1.Idx) := by
    funext a
    apply Fin.ext
    match a with
    | ⟨0, _⟩ => show win0_12.index t (0 : Fin 2) * 3200 + 1 * p.val = 3200 * t.val + p.val; omega
    | ⟨1, _⟩ => show win0_12.index t (1 : Fin 2) * 1 + 1 * 0 = 0; omega
  rw [View.read_apply, hemb]
  show k0_pay1 (F := Ideal) (k0_pay3 (iblk0 V c 0 t) (iblk0 V c 1 t) (iblk0 V c 2 t) (iblk0 V c 3 t) (iblk0 V c 4 t)
        (iblk0 V c 5 t) (iblk0 V c 6 t) (iblk0 V c 7 t) (iblk0 V c 8 t)) (iblk0 V c 9 t) (iblk0 V c 10 t) (ix2 p (0 : Fin 1))
    = cwRow (msgRow (row (V c main_v10) r) (row (V c main_v17) r) (row (V c main_arg1) r) (mat (V c main_arg4))
        (row0 (V c main_v18)) (mat (V c main_arg6)) (row0 (V c main_v19))) (mat (V c main_arg12)) (row0 (V c main_v22))
        (mat (V c main_arg14)) (row0 (V c main_v23))
  refine (Pay.k0_pay1_apply _ _ _ _ _ _ _ _ _ _ _ p).trans ?_
  rw [cw_src_row V c t p r rfl, cw_dst_row V c t p r rfl, cw_attr_row V c t p r rfl, cw_w1 V c t, cw_b1 V c t,
    cw_w2 V c t, cw_b2 V c t, cw_wc1 V c t, cw_bc1 V c t, cw_wc2 V c t, cw_bc2 V c t]

/-- An index is in point `t`'s output block iff each coordinate is in the block's range on its axis. -/
theorem cw_mem_blk (t : Fin cfg0.N) (i : S400000x1.Idx) :
    i ∈ ((cfg0.win 12).blk t).view.set
      ↔ ∀ a : Fin 2, win0_12.index t a * S3200x1.size a ≤ (i a).val
          ∧ (i a).val < win0_12.index t a * S3200x1.size a + S3200x1.size a := by
  show i ∈ ((View.whole main_v24_1).slice (win0_12.rect t)).set ↔ _
  rw [View.set_slice_whole, Rect.mem_set_unit]
  exact Iff.rfl

/-- The 125 blocks of 3200 rows tile the 400000 rows: row `r` is in the block of point `r / 3200`. -/
theorem cw_cover (i : S400000x1.Idx) :
    ∃ t : Fin cfg0.N, (cfg0.win 12).flush t = true ∧ i ∈ ((cfg0.win 12).blk t).view.set := by
  have hi0 : (i 0).val < 400000 := (i 0).isLt
  have hi1 : (i 1).val < 1 := (i 1).isLt
  have hN : cfg0.N = 125 := N_0
  have hlt : (i 0).val / 3200 < cfg0.N := by rw [hN]; omega
  obtain ⟨e0, e1⟩ := cw_idx12 ⟨(i 0).val / 3200, hlt⟩
  refine ⟨⟨(i 0).val / 3200, hlt⟩, flush0_12 _, ?_⟩
  rw [cw_mem_blk]
  intro a
  match a with
  | ⟨0, _⟩ =>
    show win0_12.index ⟨(i 0).val / 3200, hlt⟩ (0 : Fin 2) * 3200 ≤ (i 0).val
      ∧ (i 0).val < win0_12.index ⟨(i 0).val / 3200, hlt⟩ (0 : Fin 2) * 3200 + 3200
    rw [e0]; show (i 0).val / 3200 * 3200 ≤ (i 0).val ∧ (i 0).val < (i 0).val / 3200 * 3200 + 3200; omega
  | ⟨1, _⟩ =>
    show win0_12.index ⟨(i 0).val / 3200, hlt⟩ (1 : Fin 2) * 1 ≤ (i 1).val
      ∧ (i 1).val < win0_12.index ⟨(i 0).val / 3200, hlt⟩ (1 : Fin 2) * 1 + 1
    rw [e1]; omega

/-- The coordinate-weight array after the region. -/
theorem arr_cw (c : Dev nD) :
    (dat0 (F := Ideal) V c).arrAt 12 cfg0.N
      = Gcw (V c main_v10) (V c main_v17) (V c main_arg1) (mat (V c main_arg4)) (row0 (V c main_v18))
          (mat (V c main_arg6)) (row0 (V c main_v19)) (mat (V c main_arg12)) (row0 (V c main_v22))
          (mat (V c main_arg14)) (row0 (V c main_v23)) :=
  (dat0 (F := Ideal) V c).arrAt_eq_of_cover 12 _ (fun t _ => cw_flushed V c t) cw_cover

end Cert.KernelIdeal.RegionsCw

end
-- ==== Proof.KPay1.lean ====
/-
  The node kernel's stored value at one row of a block: the per-row node update of that row of the two input blocks.
-/
import proofs.«132821_j7275674599805_1_alg».proof.Proof.Gen.KernelIdeal.Skeleton
import proofs.«132821_j7275674599805_1_alg».proof.Proof.Spec
import proofs.«132821_j7275674599805_1_alg».proof.Proof.LibRows
import Idealize.ShloMosaic.PureOps.Ideal.Laws
import Idealize.ShloMosaic.Lib.Pipeline.Value

noncomputable section

namespace Cert.KernelIdeal.Pay

open Cert.KernelIdeal Cert.KernelIdeal.Gen Idealize.ShloMosaic Idealize.ShloMosaic.ValueIdx MsgPass

/-! The first product contracts the 256 columns of the left operand with the 256 rows of the right one. -/

theorem dotA_lhs0 (i : S5000x128.Idx) (c : dot_S5000x256_S256x128_S5000x128_1_0_0_1_n_n.contr.Idx) :
    (dot_S5000x256_S256x128_S5000x128_1_0_0_1_n_n.lhsIdx i c 0).val = (i 0).val := by
  unfold DotDims.lhsIdx
  rw [dif_neg (show ¬(0 : Fin S5000x256.rank) ∈ dot_S5000x256_S256x128_S5000x128_1_0_0_1_n_n.lhsBatch by decide),
    dif_pos (show (0 : Fin S5000x256.rank) ∈ dot_S5000x256_S256x128_S5000x128_1_0_0_1_n_n.lhsNonContracting by decide)]
  rfl
theorem dotA_lhs1 (i : S5000x128.Idx) (c : dot_S5000x256_S256x128_S5000x128_1_0_0_1_n_n.contr.Idx) :
    (dot_S5000x256_S256x128_S5000x128_1_0_0_1_n_n.lhsIdx i c 1).val = (c ⟨0, by decide⟩).val :=
  dot_S5000x256_S256x128_S5000x128_1_0_0_1_n_n.lhsIdx_val_of_single rfl i c
theorem dotA_rhs0 (i : S5000x128.Idx) (c : dot_S5000x256_S256x128_S5000x128_1_0_0_1_n_n.contr.Idx) :
    (dot_S5000x256_S256x128_S5000x128_1_0_0_1_n_n.rhsIdx i c 0).val = (c ⟨0, by decide⟩).val :=
  dot_S5000x256_S256x128_S5000x128_1_0_0_1_n_n.rhsIdx_val_of_single rfl i c
theorem dotA_rhs1 (i : S5000x128.Idx) (c : dot_S5000x256_S256x128_S5000x128_1_0_0_1_n_n.contr.Idx) :
    (dot_S5000x256_S256x128_S5000x128_1_0_0_1_n_n.rhsIdx i c 1).val = (i 1).val := by
  unfold DotDims.rhsIdx
  rw [dif_neg (show ¬(1 : Fin S256x128.rank) ∈ dot_S5000x256_S256x128_S5000x128_1_0_0_1_n_n.rhsBatch by decide),
    dif_pos (show (1 : Fin S256x128.rank) ∈ dot_S5000x256_S256x128_S5000x128_1_0_0_1_n_n.rhsNonContracting by decide)]
  rfl

/-- The first product at row `p`, column `q`: the sum over the 256 contracted positions. -/
theorem matmulA_apply (l : FVec Ideal S5000x256 .bf16) (r : FVec Ideal S256x128 .bf16) (p : Fin 5000) (q : Fin 128) :
    matmul dot_S5000x256_S256x128_S5000x128_1_0_0_1_n_n none l r (constant (F := Ideal) S5000x128 .f32 0x00000000#32) (ix2 p q)
      = ∑ k : Fin 256, l (ix2 p k) * r (ix2 k q) := by
  refine (Ideal.matmul_constant_zero_apply dot_S5000x256_S256x128_S5000x128_1_0_0_1_n_n none l r (ix2 p q)).trans ?_
  rw [← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx (ix2 p q)
      ((ValueIdx.contrEquiv1 dot_S5000x256_S256x128_S5000x128_1_0_0_1_n_n 256 rfl rfl).symm k) = ix2 p k :=
    funext fun a => Fin.ext (by
      match a with
      | ⟨0, _⟩ => exact dotA_lhs0 _ _
      | ⟨1, _⟩ => exact (dotA_lhs1 _ _).trans hk)
  have er : dot_S5000x256_S256x128_S5000x128_1_0_0_1_n_n.rhsIdx (ix2 p q)
      ((ValueIdx.contrEquiv1 dot_S5000x256_S256x128_S5000x128_1_0_0_1_n_n 256 rfl rfl).symm k) = ix2 k q :=
    funext fun a => Fin.ext (by
      match a with
      | ⟨0, _⟩ => exact (dotA_rhs0 _ _).trans hk
      | ⟨1, _⟩ => exact dotA_rhs1 _ _)
  rw [el, er]

/-! The second product contracts the 128 columns of the left operand with the 128 rows of the right one. -/

theorem dotB_lhs0 (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem dotB_lhs1 (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c
theorem dotB_rhs0 (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c
theorem dotB_rhs1 (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The second product at row `p`, column `q`: the sum over the 128 contracted positions. -/
theorem matmulB_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q)
      ((ValueIdx.contrEquiv1 dot_S5000x128_S128x128_S5000x128_1_0_0_1_n_n 128 rfl rfl).symm k) = ix2 p k :=
    funext fun a => Fin.ext (by
      match a with
      | ⟨0, _⟩ => exact dotB_lhs0 _ _
      | ⟨1, _⟩ => exact (dotB_lhs1 _ _).trans hk)
  have er : dot_S5000x128_S128x128_S5000x128_1_0_0_1_n_n.rhsIdx (ix2 p q)
      ((ValueIdx.contrEquiv1 dot_S5000x128_S128x128_S5000x128_1_0_0_1_n_n 128 rfl rfl).symm k) = ix2 k q :=
    funext fun a => Fin.ext (by
      match a with
      | ⟨0, _⟩ => exact (dotB_rhs0 _ _).trans hk
      | ⟨1, _⟩ => exact dotB_rhs1 _ _)
  rw [el, er]

/-- The hidden layer before its activation, at row `p`, column `k`: the first dense layer over the two rows side by side. -/
theorem hidden_apply (v0 v1 : Vec Ideal S5000x128 .f32) (v4 : Vec Ideal S256x128 .f32) (v8 : Vec Ideal S1x128 .f32)
    (p : Fin 5000) (k : Fin 128) :
    addf (matmul dot_S5000x256_S256x128_S5000x128_1_0_0_1_n_n none
        (truncf .bf16 (concatenate S5000x256 1 [⟨S5000x128, v0⟩, ⟨S5000x128, shapeCast S5000x128 v1 shapeCasts_S5000x128_S5000x128⟩]
          concatenates_S5000x128_S5000x128_S5000x256_d1 : FVec Ideal S5000x256 .f32) bitsLt_bf16_f32)
        (truncf .bf16 v4 bitsLt_bf16_f32) (constant (F := Ideal) S5000x128 .f32 0x00000000#32))
      (broadcastTo S5000x128 (shapeCast S1x128 v8 shapeCasts_S1x128_S1x128) broadcasts_S1x128_S5000x128) (ix2 p k)
      = dense (cat2 (row v0 p) (row v1 p)) (mat v4) (row0 v8) k := by
  rw [shapeCast_self, shapeCast_self]
  refine (addf_apply _ _ _).trans ?_
  unfold dense
  refine congrArg₂ (· + ·) ?_ (bcast_row v8 broadcasts_S1x128_S5000x128 p k)
  refine (matmulA_apply _ _ p k).trans ?_
  refine Finset.sum_congr rfl fun j _ => ?_
  exact congrArg (· * v4 (ix2 j k)) (concat2_row v0 v1 concatenates_S5000x128_S5000x128_S5000x256_d1 p j)

/-- The stored node update at row `p`, column `q` of a block. -/
theorem k1_pay1_apply (v0 v1 : Vec Ideal S5000x128 .f32) (v4 : Vec Ideal S256x128 .f32) (v8 : Vec Ideal S1x128 .f32)
    (v14 : Vec Ideal S128x128 .f32) (v18 : Vec Ideal S1x128 .f32) (p : Fin 5000) (q : Fin 128) :
    k1_pay1 (F := Ideal) v0 v1 v4 v8 v14 v18 (ix2 p q)
      = nodeRow (row v0 p) (row v1 p) (mat v4) (row0 v8) (mat v14) (row0 v18) q := by
  unfold k1_pay1 nodeRow
  refine (addf_apply _ _ _).trans ?_
  refine congrArg (v0 (ix2 p q) + ·) ?_
  refine (addf_apply _ _ _).trans ?_
  unfold dense
  rw [shapeCast_self v18]
  refine congrArg₂ (· + ·) ?_ (bcast_row v18 broadcasts_S1x128_S5000x128 p q)
  refine (matmulB_apply _ _ p q).trans ?_
  refine Finset.sum_congr rfl fun k _ => ?_
  refine congrArg (· * v14 (ix2 k q)) ?_
  have hk := hidden_apply v0 v1 v4 v8 p k
  unfold silu
  refine (mulf_apply _ _ _).trans ?_
  exact congrArg₂ (· * ·) hk (congrArg Ideal.logistic hk)

end Cert.KernelIdeal.Pay

end
-- ==== Proof.KRegion1.lean ====
/-
  The node kernel's output array after its grid has run, whatever the buffers hold when the region is entered:
  block `t` covers rows `5000·t … 5000·t + 4999`, the 10 blocks tile the 50000 rows, and what a point writes back is
  the per-row node update of its rows.
-/
import proofs.«132821_j7275674599805_1_alg».proof.Proof.Gen.KernelIdeal.Frame
import proofs.«132821_j7275674599805_1_alg».proof.Proof.Spec
import proofs.«132821_j7275674599805_1_alg».proof.Proof.KPay1
import Idealize.ShloMosaic.Lib.Pipeline.Value

set_option maxRecDepth 16384

noncomputable section

namespace Cert.KernelIdeal.Regions

open Cert.KernelIdeal Cert.KernelIdeal.Gen Idealize.ShloMosaic Idealize.ShloMosaic.TcCoe Idealize.ShloMosaic.ValueIdx Idealize.SL.Sem MsgPass
open Idealize.ShloMosaic.Pipeline (Dat Cfg Window)

variable (V : (c : Dev nD) → (b : Ref sig .tc) → Buf (Elt Ideal) ((c : Thread nD τ).loc b))

/-- The zero offsets of a whole-block access, however spelt. -/
theorem node_zeros : (![0, 0] : Fin 2 → Nat) = fun _ => 0 := funext fun a => by fin_cases a <;> rfl

/-- The index maps over the 10 grid points: the two row-tiled inputs and the output sit at block `(t, 0)`, the weights
    and biases at block `(0, 0)`. -/
theorem node_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row `p` of the node-feature block at point `t` is row `5000·t + p` of the array. -/
theorem node_feat_row (c : Dev nD) (t : Fin cfg1.N) (p : Fin 5000) (r : Fin 50000) (hr : r.val = 5000 * t.val + p.val) :
    row (iblk1 V c 0 t : Vec Ideal S5000x128 .f32) p = row (V c main_arg0 : S50000x128.Idx → EReal) r := by
  obtain ⟨e0, e1, -⟩ := node_index t
  funext k
  unfold iblk1
  show ((cfg1.win 0).blk t).view.read (Elt Ideal) (V c main_arg0) (ix2 p k) = V c main_arg0 (ix2 r k)
  rw [View.read_apply]
  show V c main_arg0 _ = V c main_arg0 _
  congr 1
  funext a
  apply Fin.ext
  match a with
  | ⟨0, _⟩ => show win1_0.index t (0 : Fin 2) * 5000 + 1 * p.val = r.val; omega
  | ⟨1, _⟩ => show win1_0.index t (1 : Fin 2) * 128 + 1 * k.val = k.val; omega

/-- Row `p` of the aggregate block at point `t` is row `5000·t + p` of the array. -/
theorem node_agg_row (c : Dev nD) (t : Fin cfg1.N) (p : Fin 5000) (r : Fin 50000) (hr : r.val = 5000 * t.val + p.val) :
    row (iblk1 V c 1 t : Vec Ideal S5000x128 .f32) p = row (V c main_v27 : S50000x128.Idx → EReal) r := by
  obtain ⟨-, -, e0, e1, -⟩ := node_index t
  funext k
  unfold iblk1
  show ((cfg1.win 1).blk t).view.read (Elt Ideal) (V c main_v27) (ix2 p k) = V c main_v27 (ix2 r k)
  rw [View.read_apply]
  show V c main_v27 _ = V c main_v27 _
  congr 1
  funext a
  apply Fin.ext
  match a with
  | ⟨0, _⟩ => show win1_1.index t (0 : Fin 2) * 5000 + 1 * p.val = r.val; omega
  | ⟨1, _⟩ => show win1_1.index t (1 : Fin 2) * 128 + 1 * k.val = k.val; omega

/-- The first weight matrix is one block: the block is the array. -/
theorem node_w1 (c : Dev nD) (t : Fin cfg1.N) :
    (iblk1 V c 2 t : Vec Ideal S256x128 .f32) = (V c main_arg8 : S256x128.Idx → EReal) := by
  obtain ⟨-, -, -, -, e0, e1, -⟩ := node_index t
  funext y
  unfold iblk1
  show ((cfg1.win 2).blk t).view.read (Elt Ideal) (V c main_arg8) y = V c main_arg8 y
  rw [View.read_apply]
  show V c main_arg8 _ = V c main_arg8 _
  congr 1
  funext a
  apply Fin.ext
  match a with
  | ⟨0, _⟩ => show win1_2.index t (0 : Fin 2) * 256 + 1 * (y 0).val = (y 0).val; omega
  | ⟨1, _⟩ => show win1_2.index t (1 : Fin 2) * 128 + 1 * (y 1).val = (y 1).val; omega

/-- The first bias row is one block. -/
theorem node_b1 (c : Dev nD) (t : Fin cfg1.N) :
    (iblk1 V c 3 t : Vec Ideal S1x128 .f32) = (V c main_v20 : S1x128.Idx → EReal) := by
  obtain ⟨-, -, -, -, -, -, e0, e1, -⟩ := node_index t
  funext y
  unfold iblk1
  show ((cfg1.win 3).blk t).view.read (Elt Ideal) (V c main_v20) y = V c main_v20 y
  rw [View.read_apply]
  show V c main_v20 _ = V c main_v20 _
  congr 1
  funext a
  apply Fin.ext
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- The second weight matrix is one block. -/
theorem node_w2 (c : Dev nD) (t : Fin cfg1.N) :
    (iblk1 V c 4 t : Vec Ideal S128x128 .f32) = (V c main_arg10 : S128x128.Idx → EReal) := by
  obtain ⟨-, -, -, -, -, -, -, -, e0, e1, -⟩ := node_index t
  funext y
  unfold iblk1
  show ((cfg1.win 4).blk t).view.read (Elt Ideal) (V c main_arg10) y = V c main_arg10 y
  rw [View.read_apply]
  show V c main_arg10 _ = V c main_arg10 _
  congr 1
  funext a
  apply Fin.ext
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- The second bias row is one block. -/
theorem node_b2 (c : Dev nD) (t : Fin cfg1.N) :
    (iblk1 V c 5 t : Vec Ideal S1x128 .f32) = (V c main_v21 : S1x128.Idx → EReal) := by
  obtain ⟨-, -, -, -, -, -, -, -, -, -, e0, e1, -⟩ := node_index t
  funext y
  unfold iblk1
  show ((cfg1.win 5).blk t).view.read (Elt Ideal) (V c main_v21) y = V c main_v21 y
  rw [View.read_apply]
  show V c main_v21 _ = V c main_v21 _
  congr 1
  funext a
  apply Fin.ext
  match a with
  | ⟨0, _⟩ => show win1_5.index t (0 : Fin 2) * 1 + 1 * (y 0).val = (y 0).val; omega
  | ⟨1, _⟩ => show win1_5.index t (1 : Fin 2) * 128 + 1 * (y 1).val = (y 1).val; omega

/-- What point `t` writes back is block `t` of the whole-array node update. -/
theorem node_flushed (c : Dev nD) (t : Fin cfg1.N) :
    (dat1 (F := Ideal) V c).flushed 6 t
      = ((cfg1.win 6).blk t).view.read (Elt Ideal)
          (Gnode (V c main_arg0) (V c main_v27) (mat (V c main_arg8)) (row0 (V c main_v20))
            (mat (V c main_arg10)) (row0 (V c main_v21))) := by
  show (cfg1.win 6).cut (grid1.coords t) ((dat1 V c).after 6 t) = _
  rw [after1_6]
  unfold out1_6
  rw [View.canon_unit_zero node_zeros]
  simp only [View.ld_unit_zero (S := S5000x128) node_zeros, View.ld_unit_zero (S := S256x128) node_zeros,
    View.ld_unit_zero (S := S1x128) node_zeros, View.ld_unit_zero (S := S128x128) node_zeros]
  obtain ⟨-, -, -, -, -, -, -, -, -, -, -, -, e0, e1⟩ := node_index t
  have hN : cfg1.N = 10 := N_1
  refine funext fun (j : S5000x128.Idx) => ?_
  obtain ⟨p, q, rfl⟩ : ∃ (p : Fin 5000) (q : Fin 128), j = ix2 p q := ⟨j 0, j 1, eq_ix2 j⟩
  have ht : t.val < 10 := hN ▸ t.isLt
  let r : Fin 50000 := ⟨5000 * t.val + p.val, by have := p.isLt; omega⟩
  have hemb : ((cfg1.win 6).blk t).view.emb (ix2 p q) = (ix2 r q : S50000x128.Idx) := by
    funext a
    apply Fin.ext
    match a with
    | ⟨0, _⟩ => show win1_6.index t (0 : Fin 2) * 5000 + 1 * p.val = 5000 * t.val + p.val; omega
    | ⟨1, _⟩ => show win1_6.index t (1 : Fin 2) * 128 + 1 * q.val = q.val; omega
  rw [View.read_apply, hemb]
  show k1_pay1 (F := Ideal) (iblk1 V c 0 t) (iblk1 V c 1 t) (iblk1 V c 2 t) (iblk1 V c 3 t) (iblk1 V c 4 t) (iblk1 V c 5 t) (ix2 p q)
    = nodeRow (row (V c main_arg0) r) (row (V c main_v27) r) (mat (V c main_arg8)) (row0 (V c main_v20))
        (mat (V c main_arg10)) (row0 (V c main_v21)) q
  refine (Pay.k1_pay1_apply _ _ _ _ _ _ p q).trans ?_
  rw [node_feat_row V c t p r rfl, node_agg_row V c t p r rfl, node_w1 V c t, node_b1 V c t, node_w2 V c t, node_b2 V c t]

/-- An index is in point `t`'s output block iff each coordinate is in the block's range on its axis. -/
theorem node_mem_blk (t : Fin cfg1.N) (i : S50000x128.Idx) :
    i ∈ ((cfg1.win 6).blk t).view.set
      ↔ ∀ a : Fin 2, win1_6.index t a * S5000x128.size a ≤ (i a).val
          ∧ (i a).val < win1_6.index t a * S5000x128.size a + S5000x128.size a := by
  show i ∈ ((View.whole main_v28).slice (win1_6.rect t)).set ↔ _
  rw [View.set_slice_whole, Rect.mem_set_unit]
  exact Iff.rfl

/-- The 10 blocks of 5000 rows tile the 50000 rows: row `r` is in the block of point `r / 5000`. -/
theorem node_cover (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 10 := N_1
  have hlt : (i 0).val / 5000 < cfg1.N := by rw [hN]; omega
  obtain ⟨-, -, -, -, -, -, -, -, -, -, -, -, e0, e1⟩ := node_index ⟨(i 0).val / 5000, hlt⟩
  refine ⟨⟨(i 0).val / 5000, hlt⟩, flush1_6 _, ?_⟩
  rw [node_mem_blk]
  intro a
  match a with
  | ⟨0, _⟩ =>
    show win1_6.index ⟨(i 0).val / 5000, hlt⟩ (0 : Fin 2) * 5000 ≤ (i 0).val
      ∧ (i 0).val < win1_6.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win1_6.index ⟨(i 0).val / 5000, hlt⟩ (1 : Fin 2) * 128 ≤ (i 1).val
      ∧ (i 1).val < win1_6.index ⟨(i 0).val / 5000, hlt⟩ (1 : Fin 2) * 128 + 128
    rw [e1]; omega

/-- The updated-features array after the region. -/
theorem arr_node (c : Dev nD) :
    (dat1 (F := Ideal) V c).arrAt 6 cfg1.N
      = Gnode (V c main_arg0) (V c main_v27) (mat (V c main_arg8)) (row0 (V c main_v20))
          (mat (V c main_arg10)) (row0 (V c main_v21)) :=
  (dat1 (F := Ideal) V c).arrAt_eq_of_cover 6 _ (fun t _ => node_flushed V c t) node_cover

end Cert.KernelIdeal.Regions

end
-- ==== Proof.RefStages.lean ====
/-
  The reference's three dense stages as whole arrays: its edge messages, its coordinate weights and its updated node
  features are, index by index, the per-row functions of the rows of their operands.
-/
import proofs.«132821_j7275674599805_1_alg».proof.Proof.RefRead
import proofs.«132821_j7275674599805_1_alg».proof.Proof.Spec
import proofs.«132821_j7275674599805_1_alg».proof.Proof.LibRows
import Idealize.ShloMosaic.Lib.IdealHost

noncomputable section

namespace Cert.ReferenceIdeal.Stages

open Cert.ReferenceIdeal Cert.ReferenceIdeal.ReadP Idealize.ShloMosaic Idealize.ShloMosaic.ValueIdx MsgPass

section Rows

/-- The logistic function written as `1 / (1 + e^(-y))`, times `y`, is SiLU: the word `0x3F800000` is one and the
    logistic function is that quotient by definition. -/
theorem silu_pt (y : Elt Ideal .f32) :
    FloatOps.mulf (F := Ideal) y
      (FloatOps.hostDivf (FloatOps.ofBits (F := Ideal) .f32 0x3F800000#32)
        (FloatOps.addf (FloatOps.ofBits (F := Ideal) .f32 0x3F800000#32) (FloatOps.hostUnary .exp (FloatOps.hostNegf y))))
      = silu y := by
  simp only [Ideal.ofBits_def, Ideal.ofBits_one_f32]
  rfl

variable (x0 : (⟨S50000x128, .f32⟩ : BufTy).Contents (Elt Ideal)) (x1 : (⟨S400000x64, .f32⟩ : BufTy).Contents (Elt Ideal)) (x3 : (⟨S2x400000, .i32⟩ : BufTy).Contents (Elt Ideal))
  (x4 : (⟨S320x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal))
  (x8 : (⟨S256x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal))
  (x12 : (⟨S128x64, .f32⟩ : BufTy).Contents (Elt Ideal)) (x13 : (⟨S64, .f32⟩ : BufTy).Contents (Elt Ideal)) (x14 : (⟨S64x1, .f32⟩ : BufTy).Contents (Elt Ideal)) (x15 : (⟨S1, .f32⟩ : BufTy).Contents (Elt Ideal))

/-! ## The edge messages -/

/-- The first dense layer of edge `a` (`%22`), column `k`: the concatenated row against column `k` of the weights,
    plus the bias. -/
theorem pre1_at (a : Fin 400000) (k : Fin 128) :
    val_main_v22 (F := Ideal) x0 x1 x3 x4 x5 (ix2 a k) = dense (cat3 (row (val_main_v10 (F := Ideal) x0 x3) a) (row (val_main_v17 (F := Ideal) x0 x3) a) (row x1 a)) (mat x4) (vec x5) k := by
  rw [val_main_v22_apply, val_main_v19_apply, val_main_v21_apply, val_main_v20_apply, Ideal.addf_def]
  unfold dense
  refine congrArg₂ (· + ·) (Finset.sum_congr rfl fun q _ => congrArg₂ (· * ·) ?_ ?_) ?_
  · have e : lidx_main_v19 (ix2 a k) q = ix2 a q := funext fun d => Fin.ext (by match d with | ⟨0, _⟩ => rfl | ⟨1, _⟩ => rfl)
    rw [e]
    unfold val_main_v18
    exact concat3_row _ _ _ _ a q
  · exact congrArg x4 (funext fun d => Fin.ext (by match d with | ⟨0, _⟩ => rfl | ⟨1, _⟩ => rfl))
  · exact congrArg x5 (funext fun d => Fin.ext (by match d with | ⟨0, _⟩ => rfl))

/-- The hidden layer of edge `a` (`%23`), column `k`. -/
theorem hid_at (a : Fin 400000) (k : Fin 128) :
    val_main_v23 (F := Ideal) x0 x1 x3 x4 x5 (ix2 a k) = edgeHidden (row (val_main_v10 (F := Ideal) x0 x3) a) (row (val_main_v17 (F := Ideal) x0 x3) a) (row x1 a) (mat x4) (vec x5) k := by
  rw [val_main_v23_apply, val_main_call0_v5_apply, val_main_call0_v4_apply, val_main_call0_cst_0_apply, val_main_call0_v3_apply,
    val_main_call0_v2_apply, val_main_call0_cst_apply, val_main_call0_v1_apply, val_main_call0_v0_apply, silu_pt, pre1_at]
  rfl

/-- The second dense layer of edge `a` (`%27`), column `j`: the hidden row against column `j`, plus the bias. -/
theorem pre2_at (a : Fin 400000) (j : Fin 128) :
    val_main_v27 (F := Ideal) x0 x1 x3 x4 x5 x6 x7 (ix2 a j)
      = dense (edgeHidden (row (val_main_v10 (F := Ideal) x0 x3) a) (row (val_main_v17 (F := Ideal) x0 x3) a) (row x1 a) (mat x4) (vec x5)) (mat x6) (vec x7) j := by
  rw [val_main_v27_apply, val_main_v24_apply, val_main_v26_apply, val_main_v25_apply, Ideal.addf_def]
  unfold dense
  refine congrArg₂ (· + ·) (Finset.sum_congr rfl fun q _ => congrArg₂ (· * ·) ?_ ?_) ?_
  · have e : lidx_main_v24 (ix2 a j) q = ix2 a q := funext fun d => Fin.ext (by match d with | ⟨0, _⟩ => rfl | ⟨1, _⟩ => rfl)
    rw [e]
    exact hid_at x0 x1 x3 x4 x5 a q
  · exact congrArg x6 (funext fun d => Fin.ext (by match d with | ⟨0, _⟩ => rfl | ⟨1, _⟩ => rfl))
  · exact congrArg x7 (funext fun d => Fin.ext (by match d with | ⟨0, _⟩ => rfl))

/-- The message of edge `a` (`%28`), column `j`. -/
theorem msg_at (a : Fin 400000) (j : Fin 128) :
    val_main_v28 (F := Ideal) x0 x1 x3 x4 x5 x6 x7 (ix2 a j) = msgRow (row (val_main_v10 (F := Ideal) x0 x3) a) (row (val_main_v17 (F := Ideal) x0 x3) a) (row x1 a) (mat x4) (vec x5) (mat x6) (vec x7) j := by
  rw [val_main_v28_apply, val_main_call1_v5_apply, val_main_call1_v4_apply, val_main_call1_cst_0_apply, val_main_call1_v3_apply,
    val_main_call1_v2_apply, val_main_call1_cst_apply, val_main_call1_v1_apply, val_main_call1_v0_apply, silu_pt, pre2_at]
  rfl

/-! ## The coordinate weights -/

/-- The first coordinate layer of edge `a` (`%46`), column `k`: the message row against column `k`, plus the bias. -/
theorem cpre_at (a : Fin 400000) (k : Fin 64) :
    val_main_v46 (F := Ideal) x0 x1 x3 x4 x5 x6 x7 x12 x13 (ix2 a k) = dense (msgRow (row (val_main_v10 (F := Ideal) x0 x3) a) (row (val_main_v17 (F := Ideal) x0 x3) a) (row x1 a) (mat x4) (vec x5) (mat x6) (vec x7)) (mat x12) (vec x13) k := by
  rw [val_main_v46_apply, val_main_v43_apply, val_main_v45_apply, val_main_v44_apply, Ideal.addf_def]
  unfold dense
  refine congrArg₂ (· + ·) (Finset.sum_congr rfl fun q _ => congrArg₂ (· * ·) ?_ ?_) ?_
  · have e : lidx_main_v43 (ix2 a k) q = ix2 a q := funext fun d => Fin.ext (by match d with | ⟨0, _⟩ => rfl | ⟨1, _⟩ => rfl)
    rw [e]
    exact msg_at x0 x1 x3 x4 x5 x6 x7 a q
  · exact congrArg x12 (funext fun d => Fin.ext (by match d with | ⟨0, _⟩ => rfl | ⟨1, _⟩ => rfl))
  · exact congrArg x13 (funext fun d => Fin.ext (by match d with | ⟨0, _⟩ => rfl))

/-- The hidden coordinate layer of edge `a` (`%47`), column `k`. -/
theorem chid_at (a : Fin 400000) (k : Fin 64) :
    val_main_v47 (F := Ideal) x0 x1 x3 x4 x5 x6 x7 x12 x13 (ix2 a k) = silu (dense (msgRow (row (val_main_v10 (F := Ideal) x0 x3) a) (row (val_main_v17 (F := Ideal) x0 x3) a) (row x1 a) (mat x4) (vec x5) (mat x6) (vec x7)) (mat x12) (vec x13) k) := by
  rw [val_main_v47_apply, val_main_call3_v5_apply, val_main_call3_v4_apply, val_main_call3_cst_0_apply, val_main_call3_v3_apply,
    val_main_call3_v2_apply, val_main_call3_cst_apply, val_main_call3_v1_apply, val_main_call3_v0_apply, silu_pt, cpre_at]

/-- The coordinate weight of edge `a` (`%51`): the hidden coordinate row against the one column, plus the bias. -/
theorem cw_at (a : Fin 400000) :
    val_main_v51 (F := Ideal) x0 x1 x3 x4 x5 x6 x7 x12 x13 x14 x15 (ix2 a (0 : Fin 1))
      = cwRow (msgRow (row (val_main_v10 (F := Ideal) x0 x3) a) (row (val_main_v17 (F := Ideal) x0 x3) a) (row x1 a) (mat x4) (vec x5) (mat x6) (vec x7)) (mat x12) (vec x13) (mat x14) (vec x15) := by
  rw [val_main_v51_apply, val_main_v48_apply, val_main_v50_apply, val_main_v49_apply, Ideal.addf_def]
  unfold cwRow dense
  refine congrArg₂ (· + ·) (Finset.sum_congr rfl fun q _ => congrArg₂ (· * ·) ?_ ?_) ?_
  · have e : lidx_main_v48 (ix2 a (0 : Fin 1)) q = ix2 a q := funext fun d => Fin.ext (by match d with | ⟨0, _⟩ => rfl | ⟨1, _⟩ => rfl)
    rw [e]
    exact chid_at x0 x1 x3 x4 x5 x6 x7 x12 x13 a q
  · exact congrArg x14 (funext fun d => Fin.ext (by match d with | ⟨0, _⟩ => rfl | ⟨1, _⟩ => rfl))
  · exact congrArg x15 (funext fun d => Fin.ext (by match d with | ⟨0, _⟩ => rfl))

/-! ## The node update -/

/-- The first node layer of node `a` (`%36`), column `k`: the row (features, aggregate) against column `k`, plus the
    bias. -/
theorem npre_at (a : Fin 50000) (k : Fin 128) :
    val_main_v36 (F := Ideal) x0 x1 x3 x4 x5 x6 x7 x8 x9 (ix2 a k) = dense (cat2 (row x0 a) (row (val_main_v31 (F := Ideal) x0 x1 x3 x4 x5 x6 x7) a)) (mat x8) (vec x9) k := by
  rw [val_main_v36_apply, val_main_v33_apply, val_main_v35_apply, val_main_v34_apply, Ideal.addf_def]
  unfold dense
  refine congrArg₂ (· + ·) (Finset.sum_congr rfl fun q _ => congrArg₂ (· * ·) ?_ ?_) ?_
  · have e : lidx_main_v33 (ix2 a k) q = ix2 a q := funext fun d => Fin.ext (by match d with | ⟨0, _⟩ => rfl | ⟨1, _⟩ => rfl)
    rw [e]
    unfold val_main_v32
    exact concat2_row _ _ _ a q
  · exact congrArg x8 (funext fun d => Fin.ext (by match d with | ⟨0, _⟩ => rfl | ⟨1, _⟩ => rfl))
  · exact congrArg x9 (funext fun d => Fin.ext (by match d with | ⟨0, _⟩ => rfl))

/-- The hidden node layer of node `a` (`%37`), column `k`. -/
theorem nhid_at (a : Fin 50000) (k : Fin 128) :
    val_main_v37 (F := Ideal) x0 x1 x3 x4 x5 x6 x7 x8 x9 (ix2 a k) = silu (dense (cat2 (row x0 a) (row (val_main_v31 (F := Ideal) x0 x1 x3 x4 x5 x6 x7) a)) (mat x8) (vec x9) k) := by
  rw [val_main_v37_apply, val_main_call2_v5_apply, val_main_call2_v4_apply, val_main_call2_cst_0_apply, val_main_call2_v3_apply,
    val_main_call2_v2_apply, val_main_call2_cst_apply, val_main_call2_v1_apply, val_main_call2_v0_apply, silu_pt, npre_at]

/-- The updated features of node `a` (`%42`), column `j`: the residual plus the second node layer. -/
theorem node_at (a : Fin 50000) (j : Fin 128) :
    val_main_v42 (F := Ideal) x0 x1 x3 x4 x5 x6 x7 x8 x9 x10 x11 (ix2 a j)
      = nodeRow (row x0 a) (row (val_main_v31 (F := Ideal) x0 x1 x3 x4 x5 x6 x7) a) (mat x8) (vec x9) (mat x10) (vec x11) j := by
  rw [val_main_v42_apply, val_main_v41_apply, val_main_v38_apply, val_main_v40_apply, val_main_v39_apply, Ideal.addf_def,
    Ideal.addf_def]
  unfold nodeRow dense
  refine congrArg₂ (· + ·) rfl (congrArg₂ (· + ·) (Finset.sum_congr rfl fun q _ => congrArg₂ (· * ·) ?_ ?_) ?_)
  · have e : lidx_main_v38 (ix2 a j) q = ix2 a q := funext fun d => Fin.ext (by match d with | ⟨0, _⟩ => rfl | ⟨1, _⟩ => rfl)
    rw [e]
    exact nhid_at x0 x1 x3 x4 x5 x6 x7 x8 x9 a q
  · exact congrArg x10 (funext fun d => Fin.ext (by match d with | ⟨0, _⟩ => rfl | ⟨1, _⟩ => rfl))
  · exact congrArg x11 (funext fun d => Fin.ext (by match d with | ⟨0, _⟩ => rfl))

end Rows

/-! ## The three stages as whole arrays -/

/-- The reference's edge messages (`%28`) are the per-row messages of the gathered source rows, the gathered
    destination rows and the edge attributes. -/
theorem msg_eq (x0 : (⟨S50000x128, .f32⟩ : BufTy).Contents (Elt Ideal)) (x1 : (⟨S400000x64, .f32⟩ : BufTy).Contents (Elt Ideal)) (x3 : (⟨S2x400000, .i32⟩ : BufTy).Contents (Elt Ideal))
    (x4 : (⟨S320x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) :
    val_main_v28 (F := Ideal) x0 x1 x3 x4 x5 x6 x7
      = Gmsg (val_main_v10 (F := Ideal) x0 x3) (val_main_v17 (F := Ideal) x0 x3) x1 (mat x4) (vec x5) (mat x6) (vec x7) := by
  funext i
  obtain ⟨a, b, rfl⟩ : ∃ (a : Fin 400000) (b : Fin 128), i = ix2 a b := ⟨i 0, i 1, eq_ix2 i⟩
  exact msg_at x0 x1 x3 x4 x5 x6 x7 a b

/-- The reference's coordinate weights (`%51`) are the per-row coordinate weights of those messages. -/
theorem cw_eq (x0 : (⟨S50000x128, .f32⟩ : BufTy).Contents (Elt Ideal)) (x1 : (⟨S400000x64, .f32⟩ : BufTy).Contents (Elt Ideal)) (x3 : (⟨S2x400000, .i32⟩ : BufTy).Contents (Elt Ideal))
    (x4 : (⟨S320x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal))
    (x12 : (⟨S128x64, .f32⟩ : BufTy).Contents (Elt Ideal)) (x13 : (⟨S64, .f32⟩ : BufTy).Contents (Elt Ideal)) (x14 : (⟨S64x1, .f32⟩ : BufTy).Contents (Elt Ideal)) (x15 : (⟨S1, .f32⟩ : BufTy).Contents (Elt Ideal)) :
    val_main_v51 (F := Ideal) x0 x1 x3 x4 x5 x6 x7 x12 x13 x14 x15
      = Gcw (val_main_v10 (F := Ideal) x0 x3) (val_main_v17 (F := Ideal) x0 x3) x1 (mat x4) (vec x5) (mat x6) (vec x7)
          (mat x12) (vec x13) (mat x14) (vec x15) := by
  funext i
  obtain ⟨a, c, rfl⟩ : ∃ (a : Fin 400000) (c : Fin 1), i = ix2 a c := ⟨i 0, i 1, eq_ix2 i⟩
  obtain rfl : c = 0 := Subsingleton.elim c 0
  exact cw_at x0 x1 x3 x4 x5 x6 x7 x12 x13 x14 x15 a

/-- The reference's updated node features (`%42`) are the per-row node updates of the features and the aggregated
    messages (`%31`). -/
theorem node_eq (x0 : (⟨S50000x128, .f32⟩ : BufTy).Contents (Elt Ideal)) (x1 : (⟨S400000x64, .f32⟩ : BufTy).Contents (Elt Ideal)) (x3 : (⟨S2x400000, .i32⟩ : BufTy).Contents (Elt Ideal))
    (x4 : (⟨S320x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal))
    (x8 : (⟨S256x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) :
    val_main_v42 (F := Ideal) x0 x1 x3 x4 x5 x6 x7 x8 x9 x10 x11
      = Gnode x0 (val_main_v31 (F := Ideal) x0 x1 x3 x4 x5 x6 x7) (mat x8) (vec x9) (mat x10) (vec x11) := by
  funext i
  obtain ⟨a, b, rfl⟩ : ∃ (a : Fin 50000) (b : Fin 128), i = ix2 a b := ⟨i 0, i 1, eq_ix2 i⟩
  exact node_at x0 x1 x3 x4 x5 x6 x7 x8 x9 x10 x11 a b

end Cert.ReferenceIdeal.Stages

end
-- ==== Proof.KFold.lean ====
/-
  The kernel program's buffers at the boundaries of its two regions, followed through the host operations around them
  and named in the reference's own stages.

  Before the edge kernel the host gathers the source and destination rows of the node features and reshapes the six
  bias vectors to one-row arrays: the same gathers the reference makes, and a one-row reshape of a vector holds the
  vector. The edge kernel leaves every edge's message and coordinate weight, which are the reference's stages. The
  host then scatter-adds the messages to their destination nodes (the reference's aggregate), the node kernel leaves
  every node's update (the reference's first result). The host's closing stretch is followed in Proof/KTail.lean.
-/
import proofs.«132821_j7275674599805_1_alg».proof.Proof.Gen.KernelIdeal.Frame
import proofs.«132821_j7275674599805_1_alg».proof.Proof.RefRead
import proofs.«132821_j7275674599805_1_alg».proof.Proof.Spec
import proofs.«132821_j7275674599805_1_alg».proof.Proof.KRegion0
import proofs.«132821_j7275674599805_1_alg».proof.Proof.KRegion0Cw
import proofs.«132821_j7275674599805_1_alg».proof.Proof.KRegion1
import proofs.«132821_j7275674599805_1_alg».proof.Proof.RefStages
import Idealize.ShloMosaic.Lib.StableHlo.Run
import Idealize.ShloMosaic.Lib.Pipeline.Value

set_option maxRecDepth 16384

noncomputable section

namespace Cert.KernelIdeal.Fold

open Cert.KernelIdeal Cert.KernelIdeal.Gen
open Idealize.ShloMosaic Idealize.ShloMosaic.TcCoe Idealize.ShloMosaic.Tactic Idealize.ShloMosaic.ValueIdx Idealize.SL.Sem
open Idealize.ShloMosaic.StableHlo MsgPass

/-- A vector reshaped to a one-row array holds the vector in that row. -/
theorem row0_reshape {C : Nat} (x : (⟨1, ![C]⟩ : Shape).Idx → EReal) (h : (⟨1, ![C]⟩ : Shape).ShapeCasts ⟨2, ![1, C]⟩) :
    row0 (shapeCast ⟨2, ![1, C]⟩ x h) = vec x := by
  funext j
  refine shapeCast_apply x h (ix2 (0 : Fin 1) j) (ix1 j) ?_
  rw [Shape.rowMajor_val_one, Shape.rowMajor_val_two]
  show j.val = 0 * C + j.val
  omega

variable (m : (ℓ : Loc nD τ sig) → Buf (Elt Ideal) ℓ) (ρ : Dev nD → PrngReg)

/-! ## The arguments, by name -/
abbrev a0 (c : Dev nD) : (⟨S50000x128, .f32⟩ : BufTy).Contents (Elt Ideal) := m ((c : Thread nD τ).loc main_arg0)
abbrev a1 (c : Dev nD) : (⟨S400000x64, .f32⟩ : BufTy).Contents (Elt Ideal) := m ((c : Thread nD τ).loc main_arg1)
abbrev a2 (c : Dev nD) : (⟨S50000x3, .f32⟩ : BufTy).Contents (Elt Ideal) := m ((c : Thread nD τ).loc main_arg2)
abbrev a3 (c : Dev nD) : (⟨S2x400000, .i32⟩ : BufTy).Contents (Elt Ideal) := m ((c : Thread nD τ).loc main_arg3)
abbrev a4 (c : Dev nD) : (⟨S320x128, .f32⟩ : BufTy).Contents (Elt Ideal) := m ((c : Thread nD τ).loc main_arg4)
abbrev a5 (c : Dev nD) : (⟨S128, .f32⟩ : BufTy).Contents (Elt Ideal) := m ((c : Thread nD τ).loc main_arg5)
abbrev a6 (c : Dev nD) : (⟨S128x128, .f32⟩ : BufTy).Contents (Elt Ideal) := m ((c : Thread nD τ).loc main_arg6)
abbrev a7 (c : Dev nD) : (⟨S128, .f32⟩ : BufTy).Contents (Elt Ideal) := m ((c : Thread nD τ).loc main_arg7)
abbrev a8 (c : Dev nD) : (⟨S256x128, .f32⟩ : BufTy).Contents (Elt Ideal) := m ((c : Thread nD τ).loc main_arg8)
abbrev a9 (c : Dev nD) : (⟨S128, .f32⟩ : BufTy).Contents (Elt Ideal) := m ((c : Thread nD τ).loc main_arg9)
abbrev a10 (c : Dev nD) : (⟨S128x128, .f32⟩ : BufTy).Contents (Elt Ideal) := m ((c : Thread nD τ).loc main_arg10)
abbrev a11 (c : Dev nD) : (⟨S128, .f32⟩ : BufTy).Contents (Elt Ideal) := m ((c : Thread nD τ).loc main_arg11)
abbrev a12 (c : Dev nD) : (⟨S128x64, .f32⟩ : BufTy).Contents (Elt Ideal) := m ((c : Thread nD τ).loc main_arg12)
abbrev a13 (c : Dev nD) : (⟨S64, .f32⟩ : BufTy).Contents (Elt Ideal) := m ((c : Thread nD τ).loc main_arg13)
abbrev a14 (c : Dev nD) : (⟨S64x1, .f32⟩ : BufTy).Contents (Elt Ideal) := m ((c : Thread nD τ).loc main_arg14)
abbrev a15 (c : Dev nD) : (⟨S1, .f32⟩ : BufTy).Contents (Elt Ideal) := m ((c : Thread nD τ).loc main_arg15)

/-! ## Entering the edge kernel: what the first host stretch leaves -/

set_option maxHeartbeats 4000000 in
theorem in0_src (c : Dev nD) : V1 m ρ c main_v10 = Cert.ReferenceIdeal.ReadP.val_main_v10 (F := Ideal) (a0 m c) (a3 m c) := by
  show StableHlo.after hostOps0 (W0 m ρ c) (Proc.devRef .tc main_v10) = _
  after_results
  rfl
set_option maxHeartbeats 4000000 in
theorem in0_dst (c : Dev nD) : V1 m ρ c main_v17 = Cert.ReferenceIdeal.ReadP.val_main_v17 (F := Ideal) (a0 m c) (a3 m c) := by
  show StableHlo.after hostOps0 (W0 m ρ c) (Proc.devRef .tc main_v17) = _
  after_results
  rfl
theorem in0_a1 (c : Dev nD) : V1 m ρ c main_arg1 = a1 m c := by
  show StableHlo.after hostOps0 (W0 m ρ c) (Proc.devRef .tc main_arg1) = _
  after_results
theorem in0_a4 (c : Dev nD) : V1 m ρ c main_arg4 = a4 m c := by
  show StableHlo.after hostOps0 (W0 m ρ c) (Proc.devRef .tc main_arg4) = _
  after_results
theorem in0_a6 (c : Dev nD) : V1 m ρ c main_arg6 = a6 m c := by
  show StableHlo.after hostOps0 (W0 m ρ c) (Proc.devRef .tc main_arg6) = _
  after_results
theorem in0_a12 (c : Dev nD) : V1 m ρ c main_arg12 = a12 m c := by
  show StableHlo.after hostOps0 (W0 m ρ c) (Proc.devRef .tc main_arg12) = _
  after_results
theorem in0_a14 (c : Dev nD) : V1 m ρ c main_arg14 = a14 m c := by
  show StableHlo.after hostOps0 (W0 m ρ c) (Proc.devRef .tc main_arg14) = _
  after_results
theorem in0_b5 (c : Dev nD) : row0 (V1 m ρ c main_v18) = vec (a5 m c) := by
  have e : V1 m ρ c main_v18 = shapeCast S1x128 (a5 m c) shapeCasts_S128_S1x128 := by
    show StableHlo.after hostOps0 (W0 m ρ c) (Proc.devRef .tc main_v18) = _
    after_results
    rfl
  rw [e]; exact row0_reshape _ _
theorem in0_b7 (c : Dev nD) : row0 (V1 m ρ c main_v19) = vec (a7 m c) := by
  have e : V1 m ρ c main_v19 = shapeCast S1x128 (a7 m c) shapeCasts_S128_S1x128 := by
    show StableHlo.after hostOps0 (W0 m ρ c) (Proc.devRef .tc main_v19) = _
    after_results
    rfl
  rw [e]; exact row0_reshape _ _
theorem in0_b13 (c : Dev nD) : row0 (V1 m ρ c main_v22) = vec (a13 m c) := by
  have e : V1 m ρ c main_v22 = shapeCast S1x64 (a13 m c) shapeCasts_S64_S1x64 := by
    show StableHlo.after hostOps0 (W0 m ρ c) (Proc.devRef .tc main_v22) = _
    after_results
    rfl
  rw [e]; exact row0_reshape _ _
theorem in0_b15 (c : Dev nD) : row0 (V1 m ρ c main_v23) = vec (a15 m c) := by
  have e : V1 m ρ c main_v23 = shapeCast S1x1 (a15 m c) shapeCasts_S1_S1x1 := by
    show StableHlo.after hostOps0 (W0 m ρ c) (Proc.devRef .tc main_v23) = _
    after_results
    rfl
  rw [e]; exact row0_reshape _ _

/-! ## Leaving the edge kernel -/

/-- The message array the edge kernel leaves is the reference's message stage. -/
theorem out0_msg (c : Dev nD) : W2 m ρ c (Proc.devRef .tc main_v24_0)
    = Cert.ReferenceIdeal.ReadP.val_main_v28 (F := Ideal) (a0 m c) (a1 m c) (a3 m c) (a4 m c) (a5 m c) (a6 m c) (a7 m c) := by
  refine (W2_arr m ρ c 11).trans ?_
  rw [Cert.KernelIdeal.Regions.arr_msg (V1 m ρ) c, in0_src, in0_dst, in0_a1, in0_a4, in0_a6, in0_b5, in0_b7]
  exact (Cert.ReferenceIdeal.Stages.msg_eq _ _ _ _ _ _ _).symm

/-- The coordinate-weight array the edge kernel leaves is the reference's coordinate-weight stage. -/
theorem out0_cw (c : Dev nD) : W2 m ρ c (Proc.devRef .tc main_v24_1)
    = Cert.ReferenceIdeal.ReadP.val_main_v51 (F := Ideal) (a0 m c) (a1 m c) (a3 m c) (a4 m c) (a5 m c) (a6 m c) (a7 m c)
        (a12 m c) (a13 m c) (a14 m c) (a15 m c) := by
  refine (W2_arr m ρ c 12).trans ?_
  rw [Cert.KernelIdeal.RegionsCw.arr_cw (V1 m ρ) c, in0_src, in0_dst, in0_a1, in0_a4, in0_a6, in0_b5, in0_b7,
    in0_a12, in0_a14, in0_b13, in0_b15]
  exact (Cert.ReferenceIdeal.Stages.cw_eq _ _ _ _ _ _ _ _ _ _ _).symm

/-- A buffer that is none of the edge kernel's arrays passes through the region. -/
theorem W2_pass (c : Dev nD) (b : Ref sig .tc) (hb : ∀ w, Pipeline.arrRef spec0 w ≠ b) :
    W2 m ρ c (Proc.devRef .tc b) = StableHlo.after hostOps0 (W0 m ρ c) (Proc.devRef .tc b) :=
  W2_of_ne m ρ c b hb

/-! ## Entering the node kernel -/

theorem in1_a0 (c : Dev nD) : V3 m ρ c main_arg0 = a0 m c := by
  show StableHlo.after hostOps1 (W2 m ρ c) (Proc.devRef .tc main_arg0) = _
  after_results
  rw [W2_pass m ρ c main_arg0 (by decide)]
  after_results
theorem in1_a8 (c : Dev nD) : V3 m ρ c main_arg8 = a8 m c := by
  show StableHlo.after hostOps1 (W2 m ρ c) (Proc.devRef .tc main_arg8) = _
  after_results
  rw [W2_pass m ρ c main_arg8 (by decide)]
  after_results
theorem in1_a10 (c : Dev nD) : V3 m ρ c main_arg10 = a10 m c := by
  show StableHlo.after hostOps1 (W2 m ρ c) (Proc.devRef .tc main_arg10) = _
  after_results
  rw [W2_pass m ρ c main_arg10 (by decide)]
  after_results
theorem in1_b9 (c : Dev nD) : row0 (V3 m ρ c main_v20) = vec (a9 m c) := by
  have e : V3 m ρ c main_v20 = shapeCast S1x128 (a9 m c) shapeCasts_S128_S1x128 := by
    show StableHlo.after hostOps1 (W2 m ρ c) (Proc.devRef .tc main_v20) = _
    after_results
    rw [W2_pass m ρ c main_v20 (by decide)]
    after_results
    rfl
  rw [e]; exact row0_reshape _ _
theorem in1_b11 (c : Dev nD) : row0 (V3 m ρ c main_v21) = vec (a11 m c) := by
  have e : V3 m ρ c main_v21 = shapeCast S1x128 (a11 m c) shapeCasts_S128_S1x128 := by
    show StableHlo.after hostOps1 (W2 m ρ c) (Proc.devRef .tc main_v21) = _
    after_results
    rw [W2_pass m ρ c main_v21 (by decide)]
    after_results
    rfl
  rw [e]; exact row0_reshape _ _
set_option maxHeartbeats 4000000 in
/-- The aggregate the host scatter-adds between the kernels is the reference's. -/
theorem in1_aggr (c : Dev nD) : V3 m ρ c main_v27
    = Cert.ReferenceIdeal.ReadP.val_main_v31 (F := Ideal) (a0 m c) (a1 m c) (a3 m c) (a4 m c) (a5 m c) (a6 m c) (a7 m c) := by
  show StableHlo.after hostOps1 (W2 m ρ c) (Proc.devRef .tc main_v27) = _
  after_results
  rw [W2_pass m ρ c main_v3 (by decide), out0_msg]
  after_results
  rfl

/-! ## Leaving the node kernel, and the closing host stretch -/

set_option maxHeartbeats 4000000 in
/-- The first result: the node kernel's output array is the reference's updated node features. -/
theorem result_nodes (c : Dev nD) : W7 m ρ c (Proc.devRef .tc main_v28)
    = Cert.ReferenceIdeal.ReadP.val_main_v42 (F := Ideal) (a0 m c) (a1 m c) (a3 m c) (a4 m c) (a5 m c) (a6 m c) (a7 m c)
        (a8 m c) (a9 m c) (a10 m c) (a11 m c) := by
  show StableHlo.after hostOps2_2 (StableHlo.after hostOps2_1 (StableHlo.after hostOps2 (W4 m ρ c))) (Proc.devRef .tc main_v28) = _
  after_results
  refine (W4_arr m ρ c 6).trans ?_
  rw [Cert.KernelIdeal.Regions.arr_node (V3 m ρ) c, in1_a0, in1_aggr, in1_a8, in1_a10, in1_b9, in1_b11]
  exact (Cert.ReferenceIdeal.Stages.node_eq _ _ _ _ _ _ _ _ _ _ _).symm

/-- A buffer that is none of the node kernel's arrays and that the scatter stretch does not write passes from the edge
    kernel's exit to the node kernel's. -/
theorem W4_pass (c : Dev nD) (b : Ref sig .tc) (hb : ∀ w, Pipeline.arrRef spec1 w ≠ b) :
    W4 m ρ c (Proc.devRef .tc b) = StableHlo.after hostOps1 (W2 m ρ c) (Proc.devRef .tc b) :=
  W4_of_ne m ρ c b hb

end Cert.KernelIdeal.Fold

end
-- ==== Proof.KTail.lean ====
/-
  The kernel program's closing host stretch: the coordinate update.

  After the node kernel the host gathers the source and destination coordinates of every edge, takes their
  difference, divides it by its Euclidean norm plus a small constant, weights it by the edge kernel's coordinate
  weight, scatter-adds the result to the destination nodes and adds it to the coordinates. The reference does the
  same operations in the same order on the same index vectors, so once the coordinate weights are the reference's
  the updated coordinates are. The stretch is read in its three printed parts (the differences; the norm; the rest),
  each from given contents, so that no part is opened twice.
-/
import proofs.«132821_j7275674599805_1_alg».proof.Proof.KFold

set_option maxRecDepth 16384

noncomputable section

namespace Cert.KernelIdeal.Fold

open Cert.KernelIdeal Cert.KernelIdeal.Gen
open Idealize.ShloMosaic Idealize.ShloMosaic.TcCoe Idealize.ShloMosaic.Tactic Idealize.ShloMosaic.ValueIdx Idealize.SL.Sem
open Idealize.ShloMosaic.StableHlo MsgPass

/-! ## The three parts, from given contents -/

section Parts

variable {F : FTy → Type} [FloatOps F] {W : Valuation τ sig (Elt F)} {x0 : (⟨S50000x128, .f32⟩ : BufTy).Contents (Elt F)} {x1 : (⟨S400000x64, .f32⟩ : BufTy).Contents (Elt F)} {x2 : (⟨S50000x3, .f32⟩ : BufTy).Contents (Elt F)} {x3 : (⟨S2x400000, .i32⟩ : BufTy).Contents (Elt F)} {x4 : (⟨S320x128, .f32⟩ : BufTy).Contents (Elt F)} {x5 : (⟨S128, .f32⟩ : BufTy).Contents (Elt F)} {x6 : (⟨S128x128, .f32⟩ : BufTy).Contents (Elt F)} {x7 : (⟨S128, .f32⟩ : BufTy).Contents (Elt F)} {x12 : (⟨S128x64, .f32⟩ : BufTy).Contents (Elt F)} {x13 : (⟨S64, .f32⟩ : BufTy).Contents (Elt F)} {x14 : (⟨S64x1, .f32⟩ : BufTy).Contents (Elt F)} {x15 : (⟨S1, .f32⟩ : BufTy).Contents (Elt F)}

set_option maxHeartbeats 4000000 in
/-- The coordinate differences of the edges' endpoints. -/
theorem tail_diff (h2 : W (Proc.devRef .tc main_arg2) = x2) (e1 : W (Proc.devRef .tc main_v1) = Cert.ReferenceIdeal.ReadP.val_main_v1 (F := F) x3)
    (e3 : W (Proc.devRef .tc main_v3) = Cert.ReferenceIdeal.ReadP.val_main_v3 (F := F) x3) :
    StableHlo.after hostOps2 W (Proc.devRef .tc main_v43) = Cert.ReferenceIdeal.ReadP.val_main_v66 (F := F) x2 x3 := by
  after_results
  rw [h2, e1, e3]
  rfl

/-- Their Euclidean norms. -/
theorem tail_norm (e43 : W (Proc.devRef .tc main_v43) = Cert.ReferenceIdeal.ReadP.val_main_v66 (F := F) x2 x3) :
    StableHlo.after hostOps2_1 W (Proc.devRef .tc main_v44) = Cert.ReferenceIdeal.ReadP.val_main_v67 (F := F) x2 x3 := by
  after_results
  rw [e43]
  rfl

set_option maxHeartbeats 4000000 in
/-- The weighted, normalised differences scatter-added to the destination nodes and added to the coordinates. -/
theorem tail_update (h2 : W (Proc.devRef .tc main_arg2) = x2) (e3 : W (Proc.devRef .tc main_v3) = Cert.ReferenceIdeal.ReadP.val_main_v3 (F := F) x3)
    (e43 : W (Proc.devRef .tc main_v43) = Cert.ReferenceIdeal.ReadP.val_main_v66 (F := F) x2 x3)
    (e44 : W (Proc.devRef .tc main_v44) = Cert.ReferenceIdeal.ReadP.val_main_v67 (F := F) x2 x3)
    (ecw : W (Proc.devRef .tc main_v24_1) = Cert.ReferenceIdeal.ReadP.val_main_v51 (F := F) x0 x1 x3 x4 x5 x6 x7 x12 x13 x14 x15) :
    StableHlo.after hostOps2_2 W (Proc.devRef .tc main_v54)
      = Cert.ReferenceIdeal.ReadP.val_main_v77 (F := F) x0 x1 x2 x3 x4 x5 x6 x7 x12 x13 x14 x15 := by
  after_results
  rw [h2, e3, e43, e44, ecw]
  rfl

end Parts

variable (m : (ℓ : Loc nD τ sig) → Buf (Elt Ideal) ℓ) (ρ : Dev nD → PrngReg)

/-! ## What the closing stretch finds when the node kernel has run -/

theorem at4_coords (c : Dev nD) : W4 m ρ c (Proc.devRef .tc main_arg2) = a2 m c := by
  rw [W4_pass m ρ c main_arg2 (by decide)]
  after_results
  rw [W2_pass m ρ c main_arg2 (by decide)]
  after_results
theorem at4_src (c : Dev nD) : W4 m ρ c (Proc.devRef .tc main_v1) = Cert.ReferenceIdeal.ReadP.val_main_v1 (F := Ideal) (a3 m c) := by
  rw [W4_pass m ρ c main_v1 (by decide)]
  after_results
  rw [W2_pass m ρ c main_v1 (by decide)]
  after_results
  rfl
theorem at4_dst (c : Dev nD) : W4 m ρ c (Proc.devRef .tc main_v3) = Cert.ReferenceIdeal.ReadP.val_main_v3 (F := Ideal) (a3 m c) := by
  rw [W4_pass m ρ c main_v3 (by decide)]
  after_results
  rw [W2_pass m ρ c main_v3 (by decide)]
  after_results
  rfl
theorem at4_cw (c : Dev nD) : W4 m ρ c (Proc.devRef .tc main_v24_1)
    = Cert.ReferenceIdeal.ReadP.val_main_v51 (F := Ideal) (a0 m c) (a1 m c) (a3 m c) (a4 m c) (a5 m c) (a6 m c) (a7 m c)
        (a12 m c) (a13 m c) (a14 m c) (a15 m c) := by
  rw [W4_pass m ρ c main_v24_1 (by decide)]
  after_results
  exact out0_cw m ρ c

/-! ## The second result -/

set_option maxHeartbeats 4000000 in
/-- The closing stretch applied to the edge kernel's coordinate weights leaves the reference's updated coordinates. -/
theorem result_coords (c : Dev nD) : W7 m ρ c (Proc.devRef .tc main_v54)
    = Cert.ReferenceIdeal.ReadP.val_main_v77 (F := Ideal) (a0 m c) (a1 m c) (a2 m c) (a3 m c) (a4 m c) (a5 m c) (a6 m c) (a7 m c)
        (a12 m c) (a13 m c) (a14 m c) (a15 m c) := by
  show StableHlo.after hostOps2_2 (StableHlo.after hostOps2_1 (StableHlo.after hostOps2 (W4 m ρ c))) (Proc.devRef .tc main_v54) = _
  have h2 := at4_coords m ρ c
  have e3 := at4_dst m ρ c
  have e1 := at4_src m ρ c
  have ecw := at4_cw m ρ c
  generalize W4 m ρ c = V at *
  have e43 := tail_diff h2 e1 e3
  have h2a : StableHlo.after hostOps2 V (Proc.devRef .tc main_arg2) = a2 m c :=
    (show StableHlo.after hostOps2 V (Proc.devRef .tc main_arg2) = V (Proc.devRef .tc main_arg2) by after_results).trans h2
  have e3a : StableHlo.after hostOps2 V (Proc.devRef .tc main_v3) = Cert.ReferenceIdeal.ReadP.val_main_v3 (F := Ideal) (a3 m c) :=
    (show StableHlo.after hostOps2 V (Proc.devRef .tc main_v3) = V (Proc.devRef .tc main_v3) by after_results).trans e3
  have ecwa : StableHlo.after hostOps2 V (Proc.devRef .tc main_v24_1) = Cert.ReferenceIdeal.ReadP.val_main_v51 (F := Ideal) (a0 m c) (a1 m c) (a3 m c) (a4 m c) (a5 m c) (a6 m c) (a7 m c) (a12 m c) (a13 m c) (a14 m c) (a15 m c) :=
    (show StableHlo.after hostOps2 V (Proc.devRef .tc main_v24_1) = V (Proc.devRef .tc main_v24_1) by after_results).trans ecw
  generalize StableHlo.after hostOps2 V = V' at *
  have e44 := tail_norm e43
  have h2b : StableHlo.after hostOps2_1 V' (Proc.devRef .tc main_arg2) = a2 m c :=
    (show StableHlo.after hostOps2_1 V' (Proc.devRef .tc main_arg2) = V' (Proc.devRef .tc main_arg2) by after_results).trans h2a
  have e3b : StableHlo.after hostOps2_1 V' (Proc.devRef .tc main_v3) = Cert.ReferenceIdeal.ReadP.val_main_v3 (F := Ideal) (a3 m c) :=
    (show StableHlo.after hostOps2_1 V' (Proc.devRef .tc main_v3) = V' (Proc.devRef .tc main_v3) by after_results).trans e3a
  have e43b : StableHlo.after hostOps2_1 V' (Proc.devRef .tc main_v43) = Cert.ReferenceIdeal.ReadP.val_main_v66 (F := Ideal) (a2 m c) (a3 m c) :=
    (show StableHlo.after hostOps2_1 V' (Proc.devRef .tc main_v43) = V' (Proc.devRef .tc main_v43) by after_results).trans e43
  have ecwb : StableHlo.after hostOps2_1 V' (Proc.devRef .tc main_v24_1) = Cert.ReferenceIdeal.ReadP.val_main_v51 (F := Ideal) (a0 m c) (a1 m c) (a3 m c) (a4 m c) (a5 m c) (a6 m c) (a7 m c) (a12 m c) (a13 m c) (a14 m c) (a15 m c) :=
    (show StableHlo.after hostOps2_1 V' (Proc.devRef .tc main_v24_1) = V' (Proc.devRef .tc main_v24_1) by after_results).trans ecwa
  generalize StableHlo.after hostOps2_1 V' = V'' at *
  exact tail_update h2b e3b e43b e44 ecwb

end Cert.KernelIdeal.Fold

end
-- ==== Proof.lean ====
/-
  One message-passing layer of a graph network, its edge and node MLPs run as two row-tiled kernels among host
  gathers and scatter-adds, against the same layer written as whole-array operations.

  Both programs gather the same rows, so the two kernels and the reference's dense stages meet on a per-row
  specification (Proof/Spec.lean): an edge's message and coordinate weight and a node's update depend on ONE row of
  each operand, so the value at a row is the same read out of a block or out of the whole array, and the kernels'
  blocks tile the rows (Proof/KRegion0.lean, Proof/KRegion1.lean over Proof/KPay0.lean, Proof/KPay1.lean; the
  reference in Proof/RefStages.lean). A matrix product into a zero accumulator and the host's dot_general are the same
  sum over the contracted axis, a change of float format is the identity, and `x · logistic x` is jax's own expansion
  `x · (1 / (1 + e^(-x)))`: no law of the extended reals beyond these definitions is needed, and the precondition is
  not opened. The scatter-adds, the gathers and the coordinate update are the same host operations in both programs,
  applied to equal operands (Proof/KFold.lean, Proof/KTail.lean); the reference's own run is read stretch by stretch
  (Proof/RefRun.lean, Proof/RefRunAll.lean). The ideal pass rewrote nothing, so `preserves` asks nothing.
-/
import proofs.«132821_j7275674599805_1_alg».proof.Defs
import proofs.«132821_j7275674599805_1_alg».proof.Proof.Gen.Kernel
import proofs.«132821_j7275674599805_1_alg».proof.Proof.Gen.Kernel.Frame
import proofs.«132821_j7275674599805_1_alg».proof.Proof.Gen.KernelIdeal
import proofs.«132821_j7275674599805_1_alg».proof.Proof.Gen.KernelIdeal.Frame
import proofs.«132821_j7275674599805_1_alg».proof.Proof.Gen.ReferenceIdeal
import proofs.«132821_j7275674599805_1_alg».proof.Proof.RefRead
import proofs.«132821_j7275674599805_1_alg».proof.Proof.RefRunAll
import proofs.«132821_j7275674599805_1_alg».proof.Proof.Gen.Pre_finite_inputs
import proofs.«132821_j7275674599805_1_alg».proof.Proof.KRun
import proofs.«132821_j7275674599805_1_alg».proof.Proof.KFold
import proofs.«132821_j7275674599805_1_alg».proof.Proof.KTail
import Idealize.ShloMosaic.Adequacy
import Idealize.ShloMosaic.Init

set_option maxRecDepth 16384

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

/-- The reference is a host program: its frame is its run (read stretch by stretch in Proof/RefRun.lean and
    Proof/RefRunAll.lean) with the results dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2.2)
    (Cert.ReferenceIdeal.Staged.run (F := Ideal) m ρ)

open Cert.KernelIdeal.Fold in
/-- Both programs end with the reference's two result stages of the (agreeing) arguments: the kernel program by the
    fold through its regions, the reference by its run. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.ReferenceIdeal.ReadP.val_main_v42 (F := Ideal) (a0 m c) (a1 m c) (a3 m c) (a4 m c) (a5 m c) (a6 m c) (a7 m c)
      (a8 m c) (a9 m c) (a10 m c) (a11 m c),
    fun c => Cert.ReferenceIdeal.ReadP.val_main_v77 (F := Ideal) (a0 m c) (a1 m c) (a2 m c) (a3 m c) (a4 m c) (a5 m c) (a6 m c) (a7 m c)
      (a12 m c) (a13 m c) (a14 m c) (a15 m c), ?_, ?_⟩
  · refine (θ_run Cert.KernelIdeal.defs _ _).mono (fun r h c => ?_) (Cert.KernelIdeal.RunAll.run_all (F := Ideal) m ρ)
    exact ⟨(h c _ (Cert.KernelIdeal.Gen.mem_uc Cert.KernelIdeal.main_v28 (by decide))).trans (result_nodes m ρ c),
      (h c _ (Cert.KernelIdeal.Gen.mem_uc Cert.KernelIdeal.main_v54 (by decide))).trans (result_coords m ρ c),
      (h c _ (Cert.KernelIdeal.Gen.mem_uc Cert.KernelIdeal.main_arg0 (by decide))).trans (Cert.KernelIdeal.Gen.W7_main_arg0 m ρ c),
      (h c _ (Cert.KernelIdeal.Gen.mem_uc Cert.KernelIdeal.main_arg1 (by decide))).trans (Cert.KernelIdeal.Gen.W7_main_arg1 m ρ c),
      (h c _ (Cert.KernelIdeal.Gen.mem_uc Cert.KernelIdeal.main_arg2 (by decide))).trans (Cert.KernelIdeal.Gen.W7_main_arg2 m ρ c),
      (h c _ (Cert.KernelIdeal.Gen.mem_uc Cert.KernelIdeal.main_arg3 (by decide))).trans (Cert.KernelIdeal.Gen.W7_main_arg3 m ρ c),
      (h c _ (Cert.KernelIdeal.Gen.mem_uc Cert.KernelIdeal.main_arg4 (by decide))).trans (Cert.KernelIdeal.Gen.W7_main_arg4 m ρ c),
      (h c _ (Cert.KernelIdeal.Gen.mem_uc Cert.KernelIdeal.main_arg5 (by decide))).trans (Cert.KernelIdeal.Gen.W7_main_arg5 m ρ c),
      (h c _ (Cert.KernelIdeal.Gen.mem_uc Cert.KernelIdeal.main_arg6 (by decide))).trans (Cert.KernelIdeal.Gen.W7_main_arg6 m ρ c),
      (h c _ (Cert.KernelIdeal.Gen.mem_uc Cert.KernelIdeal.main_arg7 (by decide))).trans (Cert.KernelIdeal.Gen.W7_main_arg7 m ρ c),
      (h c _ (Cert.KernelIdeal.Gen.mem_uc Cert.KernelIdeal.main_arg8 (by decide))).trans (Cert.KernelIdeal.Gen.W7_main_arg8 m ρ c),
      (h c _ (Cert.KernelIdeal.Gen.mem_uc Cert.KernelIdeal.main_arg9 (by decide))).trans (Cert.KernelIdeal.Gen.W7_main_arg9 m ρ c),
      (h c _ (Cert.KernelIdeal.Gen.mem_uc Cert.KernelIdeal.main_arg10 (by decide))).trans (Cert.KernelIdeal.Gen.W7_main_arg10 m ρ c),
      (h c _ (Cert.KernelIdeal.Gen.mem_uc Cert.KernelIdeal.main_arg11 (by decide))).trans (Cert.KernelIdeal.Gen.W7_main_arg11 m ρ c),
      (h c _ (Cert.KernelIdeal.Gen.mem_uc Cert.KernelIdeal.main_arg12 (by decide))).trans (Cert.KernelIdeal.Gen.W7_main_arg12 m ρ c),
      (h c _ (Cert.KernelIdeal.Gen.mem_uc Cert.KernelIdeal.main_arg13 (by decide))).trans (Cert.KernelIdeal.Gen.W7_main_arg13 m ρ c),
      (h c _ (Cert.KernelIdeal.Gen.mem_uc Cert.KernelIdeal.main_arg14 (by decide))).trans (Cert.KernelIdeal.Gen.W7_main_arg14 m ρ c),
      (h c _ (Cert.KernelIdeal.Gen.mem_uc Cert.KernelIdeal.main_arg15 (by decide))).trans (Cert.KernelIdeal.Gen.W7_main_arg15 m ρ c)⟩
  · refine (θ_run Cert.ReferenceIdeal.defs _ _).mono (fun r h c => ⟨(h c).1.trans ?_, (h c).2.1.trans ?_, (h c).2.2⟩)
      (Cert.ReferenceIdeal.Staged.run (F := Ideal) m' ρ')
    · obtain ⟨h0, h1, h2, h3, h4, h5, h6, h7, h8, h9, h10, h11, h12, h13, h14, h15⟩ := hagree c
      rw [h0, h1, h3, h4, h5, h6, h7, h8, h9, h10, h11]
    · obtain ⟨h0, h1, h2, h3, h4, h5, h6, h7, h8, h9, h10, h11, h12, h13, h14, h15⟩ := hagree c
      rw [h0, h1, h2, h3, h4, h5, h6, h7, h12, h13, h14, h15]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
